-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S64x128 : Shape := ⟨2, ![64, 128]⟩
abbrev S128x128 : Shape := ⟨2, ![128, 128]⟩
abbrev S128x1 : Shape := ⟨2, ![128, 1]⟩
abbrev S128x2 : Shape := ⟨2, ![128, 2]⟩
abbrev S2 : Shape := ⟨1, ![2]⟩
abbrev S_ : Shape := ⟨0, ![]⟩
abbrev S1x800000 : Shape := ⟨2, ![1, 800000]⟩
abbrev S800000 : Shape := ⟨1, ![800000]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_
  slices_S2x800000_S1x800000_1_0 : S2x800000.Slices ![1, 0] S1x800000
  shapeCasts_S1x800000_S800000 : S1x800000.ShapeCasts S800000
  bcast_S_S800000 : S_.BroadcastsInDim S800000 (![] : Fin 0 → Fin S800000.rank)
  reducesTo_S800000_S_d0 : S800000.ReducesTo [0] S_

variable [Facts]

def fn_part4 {F : FTy → Type} [FloatOps F] (main_arg1 : IVec S2x800000 32) (main_v63 : IVec S_ 1) (main_v67 : IVec S_ 1) : IVec S_ 1 :=
  let main_v68 : IVec S_ 1 := andi main_v63 main_v67
  let main_v69 : IVec S1x800000 32 := (extractStridedSlice S1x800000 ![1, 0] · slices_S2x800000_S1x800000_1_0) main_arg1
  let main_v70 : IVec S800000 32 := shapeCast S800000 main_v69 shapeCasts_S1x800000_S800000
  let main_c_26 : IVec S_ 32 := constantI S_ 32 0#32
  let main_v71 : IVec S800000 32 := broadcastInDim S800000 ![] bcast_S_S800000 main_c_26
  let main_v72 : IVec S800000 1 := cmpi .sge main_v70 main_v71
  let main_c_27 : IVec S_ 1 := constantI S_ 1 1#1
  let main_v73 : IVec S_ 1 := (fun x v => Host.reduce IntOp.andi x v reducesTo_S800000_S_d0 h_S_) main_v72 main_c_27
  let main_v74 : IVec S_ 1 := andi main_v68 main_v73
  main_v74

def fn_part3 {F : FTy → Type} [FloatOps F] (main_arg1 : IVec S2x800000 32) (main_arg12 : FVec F S128 .f32) (main_arg13 : FVec F S128x2 .f32) (main_arg14 : FVec F S2 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x2 .f32 := Host.absf main_arg13
  let main_cst_22 : FVec F S_ .f32 := constant S_ .f32 0x7F800000#32
  let main_v60 : FVec F S128x2 .f32 := broadcastInDim S128x2 ![] bcast_S_S128x2 main_cst_22
  let main_v61 : IVec S128x2 1 := cmpf .olt main_v59 main_v60
  let main_c_23 : IVec S_ 1 := constantI S_ 1 1#1
  let main_v62 : IVec S_ 1 := (fun x v => Host.reduce IntOp.andi x v reducesTo_S128x2_S_d0_1 h_S_) main_v61 main_c_23
  let main_v63 : IVec S_ 1 := andi main_v58 main_v62
  let main_v64 : FVec F S2 .f32 := Host.absf main_arg14
  let main_cst_24 : FVec F S_ .f32 := constant S_ .f32 0x7F800000#32
  let main_v65 : FVec F S2 .f32 := broadcastInDim S2 ![] bcast_S_S2 main_cst_24
  let main_v66 : IVec S2 1 := cmpf .olt main_v64 main_v65
  let main_c_25 : IVec S_ 1 := constantI S_ 1 1#1
  let main_v67 : IVec S_ 1 := (fun x v => Host.reduce IntOp.andi x v reducesTo_S2_S_d0 h_S_) main_v66 main_c_25
  fn_part4 (F := F) main_arg1 main_v63 main_v67

def fn_part2 {F : FTy → Type} [FloatOps F] (main_arg1 : IVec S2x800000 32) (main_arg8 : FVec F S128x128 .f32) (main_arg9 : FVec F S128 .f32) (main_arg10 : FVec F S128x1 .f32) (main_arg11 : FVec F S128x128 .f32) (main_arg12 : FVec F S128 .f32) (main_arg13 : FVec F S128x2 .f32) (main_arg14 : FVec F S2 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x1 .f32 := Host.absf main_arg10
  let main_cst_16 : FVec F S_ .f32 := constant S_ .f32 0x7F800000#32
  let main_v45 : FVec F S128x1 .f32 := broadcastInDim S128x1 ![] bcast_S_S128x1 main_cst_16
  let main_v46 : IVec S128x1 1 := cmpf .olt main_v44 main_v45
  let main_c_17 : IVec S_ 1 := constantI S_ 1 1#1
  let main_v47 : IVec S_ 1 := (fun x v => Host.reduce IntOp.andi x v reducesTo_S128x1_S_d0_1 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg1 main_arg12 main_arg13 main_arg14 main_v48 main_v49 main_v50

def fn_part1 {F : FTy → Type} [FloatOps F] (main_arg1 : IVec S2x800000 32) (main_arg5 : FVec F S128 .f32) (main_arg6 : FVec F S64x128 .f32) (main_arg7 : FVec F S128 .f32) (main_arg8 : FVec F S128x128 .f32) (main_arg9 : FVec F S128 .f32) (main_arg10 : FVec F S128x1 .f32) (main_arg11 : FVec F S128x128 .f32) (main_arg12 : FVec F S128 .f32) (main_arg13 : FVec F S128x2 .f32) (main_arg14 : FVec F S2 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S64x128 .f32 := Host.absf main_arg6
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_arg11 main_arg12 main_arg13 main_arg14 main_v33

def fn {F : FTy → Type} [FloatOps F] (main_arg0 : FVec F S50000x256 .f32) (main_arg1 : IVec S2x800000 32) (main_arg2 : FVec F S256x128 .f32) (main_arg3 : FVec F S128 .f32) (main_arg4 : FVec F S64x128 .f32) (main_arg5 : FVec F S128 .f32) (main_arg6 : FVec F S64x128 .f32) (main_arg7 : FVec F S128 .f32) (main_arg8 : FVec F S128x128 .f32) (main_arg9 : FVec F S128 .f32) (main_arg10 : FVec F S128x1 .f32) (main_arg11 : FVec F S128x128 .f32) (main_arg12 : FVec F S128 .f32) (main_arg13 : FVec F S128x2 .f32) (main_arg14 : FVec F S2 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg5 main_arg6 main_arg7 main_arg8 main_arg9 main_arg10 main_arg11 main_arg12 main_arg13 main_arg14 main_v13 main_v16
-- ==== Kernel.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S64x128 : Shape := ⟨2, ![64, 128]⟩
abbrev S128x128 : Shape := ⟨2, ![128, 128]⟩
abbrev S128x1 : Shape := ⟨2, ![128, 1]⟩
abbrev S128x2 : Shape := ⟨2, ![128, 2]⟩
abbrev S2 : Shape := ⟨1, ![2]⟩
abbrev S50000 : Shape := ⟨1, ![50000]⟩
abbrev S1x50000 : Shape := ⟨2, ![1, 50000]⟩
abbrev S1x1x1x50000 : Shape := ⟨4, ![1, 1, 1, 50000]⟩
abbrev S2x1x1x50000 : Shape := ⟨4, ![2, 1, 1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S50000x128 : Shape := ⟨2, ![50000, 128]⟩
abbrev S5000x256 : Shape := ⟨2, ![5000, 256]⟩
abbrev S5000x128 : Shape := ⟨2, ![5000, 128]⟩
abbrev S1x128 : Shape := ⟨2, ![1, 128]⟩
abbrev S5000x64 : Shape := ⟨2, ![5000, 64]⟩
abbrev S_ : Shape := ⟨0, ![]⟩
abbrev S850000x1 : Shape := ⟨2, ![850000, 1]⟩
abbrev S850000x128 : Shape := ⟨2, ![850000, 128]⟩
abbrev S851968x128 : Shape := ⟨2, ![851968, 128]⟩
abbrev S851968x1 : Shape := ⟨2, ![851968, 1]⟩
abbrev S851968 : Shape := ⟨1, ![851968]⟩
abbrev S4096x128 : Shape := ⟨2, ![4096, 128]⟩
abbrev S4096x1 : Shape := ⟨2, ![4096, 1]⟩
abbrev S4096 : Shape := ⟨1, ![4096]⟩
abbrev S50000x2 : Shape := ⟨2, ![50000, 2]⟩
abbrev S5000x2 : Shape := ⟨2, ![5000, 2]⟩
abbrev S1x2 : Shape := ⟨2, ![1, 2]⟩

abbrev nBuf : Space → Nat
  | .hbm => 119
  | .vmem => 31
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S64x128, .f32⟩
  | .hbm, ⟨5, _⟩ => ⟨S128, .f32⟩
  | .hbm, ⟨6, _⟩ => ⟨S64x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x1, .f32⟩
  | .hbm, ⟨11, _⟩ => ⟨S128x128, .f32⟩
  | .hbm, ⟨12, _⟩ => ⟨S128, .f32⟩
  | .hbm, ⟨13, _⟩ => ⟨S128x2, .f32⟩
  | .hbm, ⟨14, _⟩ => ⟨S2, .f32⟩
  | .hbm, ⟨15, _⟩ => ⟨S50000, .i32⟩
  | .hbm, ⟨16, _⟩ => ⟨S1x50000, .i32⟩
  | .hbm, ⟨17, _⟩ => ⟨S1x1x1x50000, .i32⟩
  | .hbm, ⟨18, _⟩ => ⟨S2x1x1x50000, .i32⟩
  | .hbm, ⟨19, _⟩ => ⟨S2x50000, .i32⟩
  | .hbm, ⟨20, _⟩ => ⟨S2x850000, .i32⟩
  | .hbm, ⟨21, _⟩ => ⟨S1x850000, .i32⟩
  | .hbm, ⟨22, _⟩ => ⟨S850000, .i32⟩
  | .hbm, ⟨23, _⟩ => ⟨S1x850000, .i32⟩
  | .hbm, ⟨24, _⟩ => ⟨S850000, .i32⟩
  | .hbm, ⟨25, _⟩ => ⟨S50000x128, .f32⟩
  | .hbm, ⟨26, _⟩ => ⟨S50000x128, .f32⟩
  | .hbm, ⟨27, _⟩ => ⟨S_, .f32⟩
  | .hbm, ⟨28, _⟩ => ⟨S50000, .f32⟩
  | .hbm, ⟨29, _⟩ => ⟨S_, .i32⟩
  | .hbm, ⟨30, _⟩ => ⟨S850000, .i32⟩
  | .hbm, ⟨31, _⟩ => ⟨S850000, .i1⟩
  | .hbm, ⟨32, _⟩ => ⟨S_, .i32⟩
  | .hbm, ⟨33, _⟩ => ⟨S850000, .i32⟩
  | .hbm, ⟨34, _⟩ => ⟨S850000, .i32⟩
  | .hbm, ⟨35, _⟩ => ⟨S850000, .i32⟩
  | .hbm, ⟨36, _⟩ => ⟨S850000x1, .i32⟩
  | .hbm, ⟨37, _⟩ => ⟨S_, .f32⟩
  | .hbm, ⟨38, _⟩ => ⟨S850000, .f32⟩
  | .hbm, ⟨39, _⟩ => ⟨S50000, .f32⟩
  | .hbm, ⟨40, _⟩ => ⟨S_, .f32⟩
  | .hbm, ⟨41, _⟩ => ⟨S50000, .f32⟩
  | .hbm, ⟨42, _⟩ => ⟨S50000, .i1⟩
  | .hbm, ⟨43, _⟩ => ⟨S_, .f32⟩
  | .hbm, ⟨44, _⟩ => ⟨S50000, .f32⟩
  | .hbm, ⟨45, _⟩ => ⟨S50000, .i1⟩
  | .hbm, ⟨46, _⟩ => ⟨S_, .f32⟩
  | .hbm, ⟨47, _⟩ => ⟨S_, .f32⟩
  | .hbm, ⟨48, _⟩ => ⟨S50000, .f32⟩
  | .hbm, ⟨49, _⟩ => ⟨S50000, .f32⟩
  | .hbm, ⟨50, _⟩ => ⟨S50000, .f32⟩
  | .hbm, ⟨51, _⟩ => ⟨S_, .f32⟩
  | .hbm, ⟨52, _⟩ => ⟨S_, .f32⟩
  | .hbm, ⟨53, _⟩ => ⟨S50000, .f32⟩
  | .hbm, ⟨54, _⟩ => ⟨S50000, .f32⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000, .f32⟩
  | .hbm, ⟨64, _⟩ => ⟨S_, .i32⟩
  | .hbm, ⟨65, _⟩ => ⟨S850000, .i32⟩
  | .hbm, ⟨66, _⟩ => ⟨S850000, .i1⟩
  | .hbm, ⟨67, _⟩ => ⟨S_, .i32⟩
  | .hbm, ⟨68, _⟩ => ⟨S850000, .i32⟩
  | .hbm, ⟨69, _⟩ => ⟨S850000, .i32⟩
  | .hbm, ⟨70, _⟩ => ⟨S850000, .i32⟩
  | .hbm, ⟨71, _⟩ => ⟨S850000x1, .i32⟩
  | .hbm, ⟨72, _⟩ => ⟨S850000, .f32⟩
  | .hbm, ⟨73, _⟩ => ⟨S850000, .f32⟩
  | .hbm, ⟨74, _⟩ => ⟨S850000x1, .f32⟩
  | .hbm, ⟨75, _⟩ => ⟨S_, .i32⟩
  | .hbm, ⟨76, _⟩ => ⟨S850000, .i32⟩
  | .hbm, ⟨77, _⟩ => ⟨S850000, .i1⟩
  | .hbm, ⟨78, _⟩ => ⟨S_, .i32⟩
  | .hbm, ⟨79, _⟩ => ⟨S850000, .i32⟩
  | .hbm, ⟨80, _⟩ => ⟨S850000, .i32⟩
  | .hbm, ⟨81, _⟩ => ⟨S850000, .i32⟩
  | .hbm, ⟨82, _⟩ => ⟨S850000x1, .i32⟩
  | .hbm, ⟨83, _⟩ => ⟨S850000x128, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000x128, .f32⟩
  | .hbm, ⟨93, _⟩ => ⟨S_, .i32⟩
  | .hbm, ⟨94, _⟩ => ⟨S_, .f32⟩
  | .hbm, ⟨95, _⟩ => ⟨S851968x128, .f32⟩
  | .hbm, ⟨96, _⟩ => ⟨S_, .i32⟩
  | .hbm, ⟨97, _⟩ => ⟨S_, .f32⟩
  | .hbm, ⟨98, _⟩ => ⟨S851968x128, .f32⟩
  | .hbm, ⟨99, _⟩ => ⟨S_, .i32⟩
  | .hbm, ⟨100, _⟩ => ⟨S_, .f32⟩
  | .hbm, ⟨101, _⟩ => ⟨S851968x1, .f32⟩
  | .hbm, ⟨102, _⟩ => ⟨S_, .i32⟩
  | .hbm, ⟨103, _⟩ => ⟨S_, .i32⟩
  | .hbm, ⟨104, _⟩ => ⟨S851968, .i32⟩
  | .hbm, ⟨105, _⟩ => ⟨S1x128, .f32⟩
  | .hbm, ⟨106, _⟩ => ⟨S851968x128, .f32⟩
  | .hbm, ⟨107, _⟩ => ⟨S_, .f32⟩
  | .hbm, ⟨108, _⟩ => ⟨S50000x128, .f32⟩
  | .hbm, ⟨109, _⟩ => ⟨S_, .i32⟩
  | .hbm, ⟨110, _⟩ => ⟨S851968, .i32⟩
  | .hbm, ⟨111, _⟩ => ⟨S851968, .i1⟩
  | .hbm, ⟨112, _⟩ => ⟨S_, .i32⟩
  | .hbm, ⟨113, _⟩ => ⟨S851968, .i32⟩
  | .hbm, ⟨114, _⟩ => ⟨S851968, .i32⟩
  | .hbm, ⟨115, _⟩ => ⟨S851968, .i32⟩
  | .hbm, ⟨116, _⟩ => ⟨S851968x1, .i32⟩
  | .hbm, ⟨117, _⟩ => ⟨S50000x128, .f32⟩
  | .hbm, ⟨118, _⟩ => ⟨S50000x2, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S128, .f32⟩
  | .local _ .vmem, ⟨4, _⟩ => ⟨S64x128, .f32⟩
  | .local _ .vmem, ⟨5, _⟩ => ⟨S128, .f32⟩
  | .local _ .vmem, ⟨6, _⟩ => ⟨S64x128, .f32⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S4096x1, .f32⟩
  | .local _ .vmem, ⟨17, _⟩ => ⟨S4096x1, .f32⟩
  | .local _ .vmem, ⟨18, _⟩ => ⟨S128x128, .f32⟩
  | .local _ .vmem, ⟨19, _⟩ => ⟨S128, .f32⟩
  | .local _ .vmem, ⟨20, _⟩ => ⟨S1x128, .f32⟩
  | .local _ .vmem, ⟨21, _⟩ => ⟨S4096x128, .f32⟩
  | .local _ .vmem, ⟨22, _⟩ => ⟨S4096x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S128, .f32⟩
  | .local _ .vmem, ⟨27, _⟩ => ⟨S128x2, .f32⟩
  | .local _ .vmem, ⟨28, _⟩ => ⟨S2, .f32⟩
  | .local _ .vmem, ⟨29, _⟩ => ⟨S5000x2, .f32⟩
  | .local _ .vmem, ⟨30, _⟩ => ⟨S5000x2, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10_0 : Ref sig .tc := ⟨.hbm, 25, rfl⟩
abbrev main_v10_1 : Ref sig .tc := ⟨.hbm, 26, rfl⟩
abbrev main_cst : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_1 : Ref sig .tc := ⟨.hbm, 37, rfl⟩
abbrev main_v18 : Ref sig .tc := ⟨.hbm, 38, rfl⟩
abbrev main_v19 : Ref sig .tc := ⟨.hbm, 39, rfl⟩
abbrev main_cst_2 : Ref sig .tc := ⟨.hbm, 40, rfl⟩
abbrev main_v20 : Ref sig .tc := ⟨.hbm, 41, rfl⟩
abbrev main_v21 : Ref sig .tc := ⟨.hbm, 42, rfl⟩
abbrev main_cst_3 : Ref sig .tc := ⟨.hbm, 43, rfl⟩
abbrev main_v22 : Ref sig .tc := ⟨.hbm, 44, rfl⟩
abbrev main_v23 : Ref sig .tc := ⟨.hbm, 45, rfl⟩
abbrev main_cst_4 : Ref sig .tc := ⟨.hbm, 46, rfl⟩
abbrev main_call0_v0 : Ref sig .tc := ⟨.hbm, 47, rfl⟩
abbrev main_call0_v1 : Ref sig .tc := ⟨.hbm, 48, rfl⟩
abbrev main_v24 : Ref sig .tc := ⟨.hbm, 49, rfl⟩
abbrev main_v25 : Ref sig .tc := ⟨.hbm, 50, rfl⟩
abbrev main_cst_5 : Ref sig .tc := ⟨.hbm, 51, rfl⟩
abbrev main_call1_v0 : Ref sig .tc := ⟨.hbm, 52, rfl⟩
abbrev main_call1_v1 : Ref sig .tc := ⟨.hbm, 53, rfl⟩
abbrev main_v26 : Ref sig .tc := ⟨.hbm, 54, rfl⟩
abbrev main_c_6 : Ref sig .tc := ⟨.hbm, 55, rfl⟩
abbrev main_v27 : Ref sig .tc := ⟨.hbm, 56, rfl⟩
abbrev main_v28 : Ref sig .tc := ⟨.hbm, 57, rfl⟩
abbrev main_c_7 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_c_9 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_c_10 : Ref sig .tc := ⟨.hbm, 75, rfl⟩
abbrev main_v43 : Ref sig .tc := ⟨.hbm, 76, rfl⟩
abbrev main_v44 : Ref sig .tc := ⟨.hbm, 77, rfl⟩
abbrev main_c_11 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_c_12 : Ref sig .tc := ⟨.hbm, 84, rfl⟩
abbrev main_v50 : Ref sig .tc := ⟨.hbm, 85, rfl⟩
abbrev main_v51 : Ref sig .tc := ⟨.hbm, 86, rfl⟩
abbrev main_c_13 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_v56 : Ref sig .tc := ⟨.hbm, 92, rfl⟩
abbrev main_c_14 : Ref sig .tc := ⟨.hbm, 93, rfl⟩
abbrev main_call2_v0 : Ref sig .tc := ⟨.hbm, 94, rfl⟩
abbrev main_v57 : Ref sig .tc := ⟨.hbm, 95, rfl⟩
abbrev main_c_15 : Ref sig .tc := ⟨.hbm, 96, rfl⟩
abbrev main_call3_v0 : Ref sig .tc := ⟨.hbm, 97, rfl⟩
abbrev main_v58 : Ref sig .tc := ⟨.hbm, 98, rfl⟩
abbrev main_c_16 : Ref sig .tc := ⟨.hbm, 99, rfl⟩
abbrev main_call4_v0 : Ref sig .tc := ⟨.hbm, 100, rfl⟩
abbrev main_v59 : Ref sig .tc := ⟨.hbm, 101, rfl⟩
abbrev main_c_17 : Ref sig .tc := ⟨.hbm, 102, rfl⟩
abbrev main_call5_v0 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_cst_18 : Ref sig .tc := ⟨.hbm, 107, rfl⟩
abbrev main_v63 : Ref sig .tc := ⟨.hbm, 108, rfl⟩
abbrev main_c_19 : Ref sig .tc := ⟨.hbm, 109, rfl⟩
abbrev main_v64 : Ref sig .tc := ⟨.hbm, 110, rfl⟩
abbrev main_v65 : Ref sig .tc := ⟨.hbm, 111, rfl⟩
abbrev main_c_20 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x2 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S2 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x2 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S50000_S1x50000_1 : S50000.BroadcastsInDim S1x50000 (![1] : Fin 1 → Fin S1x50000.rank)
  shapeCasts_S1x50000_S1x1x1x50000 : S1x50000.ShapeCasts S1x1x1x50000
  bcast_S1x1x1x50000_S2x1x1x50000_0_1_2_3 : S1x1x1x50000.BroadcastsInDim S2x1x1x50000 (![0, 1, 2, 3] : Fin 4 → Fin S2x1x1x50000.rank)
  shapeCasts_S2x1x1x50000_S2x50000 : S2x1x1x50000.ShapeCasts S2x50000
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  slices_S5000x128_o0_0_S5000x64 : S5000x128.Slices ![0, 0] S5000x64
  slices_S5000x128_o0_64_S5000x64 : S5000x128.Slices ![0, 64] S5000x64
  inb_S64x128_S64x128_0_0 : ∀ a, (![0, 0] : Fin 2 → Nat) a + S64x128.size a ≤ S64x128.size a
  h_S64x128 : 0 < S64x128.numel
  inb_S5000x128_S5000x128_0_0 : ∀ a, (![0, 0] : Fin 2 → Nat) a + S5000x128.size a ≤ S5000x128.size a
  h_S5000x128 : 0 < S5000x128.numel
  bcast_S_S50000 : S_.BroadcastsInDim S50000 (![] : Fin 0 → Fin S50000.rank)
  bcast_S_S850000 : S_.BroadcastsInDim S850000 (![] : Fin 0 → Fin S850000.rank)
  bcast_S850000_S850000x1_0 : S850000.BroadcastsInDim S850000x1 (![0] : Fin 1 → Fin S850000x1.rank)
  pads_S850000x128_S851968x128_019680_000 : S850000x128.Pads (![0, 0] : Fin 2 → Nat) ![1968, 0] ![0, 0] S851968x128
  h_S_ : 0 < S_.numel
  pads_S850000x1_S851968x1_019680_000 : S850000x1.Pads (![0, 0] : Fin 2 → Nat) ![1968, 0] ![0, 0] S851968x1
  pads_S850000_S851968_019680 : S850000.Pads (![0] : Fin 1 → Nat) ![1968] ![0] S851968
  transposes_S128x1_S1x128_1_0 : S128x1.Transposes [1, 0] S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S128x128_S128x128_0_0 : ∀ a, (![0, 0] : Fin 2 → Nat) a + S128x128.size a ≤ S128x128.size a
  h_S128x128 : 0 < S128x128.numel
  broadcasts_S1x128_S4096x128 : S1x128.Broadcasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  reduces_S4096x128_S4096 : S4096x128.Reduces [1] S4096
  shapeCasts_S4096_S4096x1 : S4096.ShapeCasts S4096x1
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x128 : S4096x1.Broadcasts S4096x128
  bcast_S_S50000x128 : S_.BroadcastsInDim S50000x128 (![] : Fin 0 → Fin S50000x128.rank)
  bcast_S_S851968 : S_.BroadcastsInDim S851968 (![] : Fin 0 → Fin S851968.rank)
  bcast_S851968_S851968x1_0 : S851968.BroadcastsInDim S851968x1 (![0] : Fin 1 → Fin S851968x1.rank)
  shapeCasts_S5000x128_S5000x128 : S5000x128.ShapeCasts S5000x128
  inb_S128x2_S128x2_0_0 : ∀ a, (![0, 0] : Fin 2 → Nat) a + S128x2.size a ≤ S128x2.size a
  h_S128x2 : 0 < S128x2.numel
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  inb_S5000x2_S5000x2_0_0 : ∀ a, (![0, 0] : Fin 2 → Nat) a + S5000x2.size a ≤ S5000x2.size a
  h_S5000x2 : 0 < S5000x2.numel
  dot_S5000x256_S256x128_S5000x128_1_0_0_1_n_n_wf : DotDims.WF S5000x256 S256x128 S5000x128 [1] [0] [0] [1] [] []
  dot_S5000x64_S64x128_S5000x128_1_0_0_1_n_n_wf : DotDims.WF S5000x64 S64x128 S5000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  dot_S4096x128_S128x128_S4096x128_1_0_0_1_n_n_wf : DotDims.WF S4096x128 S128x128 S4096x128 [1] [0] [0] [1] [] []
  scatter_S50000x128_S851968x1_S851968x128_1_0_0_1_wf : ScatterDims.WF S50000x128 S851968x1 S851968x128 [1] [0] [0] 1
  dot_S5000x128_S128x128_S5000x128_1_0_0_1_n_n_wf : DotDims.WF S5000x128 S128x128 S5000x128 [1] [0] [0] [1] [] []
  dot_S5000x128_S128x2_S5000x2_1_0_0_1_n_n_wf : DotDims.WF S5000x128 S128x2 S5000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S851968x128.size a
  hwx1_0 : ∀ i : grid1.Coords, EltTy.bits .f32 = 32 ∨ (Rect.block (s := S851968x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S851968x128.size a
  hwx1_1 : ∀ i : grid1.Coords, EltTy.bits .f32 = 32 ∨ (Rect.block (s := S851968x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x1.size a ≤ S851968x1.size a
  hwx1_2 : ∀ i : grid1.Coords, EltTy.bits .f32 = 32 ∨ (Rect.block (s := S851968x1) S4096x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S851968x128.size a
  hwx1_6 : ∀ i : grid1.Coords, EltTy.bits .f32 = 32 ∨ (Rect.block (s := S851968x128) S4096x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x2.size a ≤ S128x2.size a
  hwx2_3 : ∀ i : grid2.Coords, EltTy.bits .f32 = 32 ∨ (Rect.block (s := S128x2) S128x2.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S2.size a ≤ S2.size a
  hwx2_4 : ∀ i : grid2.Coords, EltTy.bits .f32 = 32 ∨ (Rect.block (s := S2) S2.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x2.size a ≤ S50000x2.size a
  hwx2_5 : ∀ i : grid2.Coords, EltTy.bits .f32 = 32 ∨ (Rect.block (s := S50000x2) S5000x2.size (cc2_transform_5 i) (hinb2_5 i)).WholeWords (EltTy.packing .f32)

variable [Facts₀]

def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S50000x128_S851968x1_S851968x128_1_0_0_1 : ScatterDims S50000x128 S851968x1 S851968x128 where
  updateWindowDims := [1]
  insertedWindowDims := [0]
  scatterDimsToOperandDims := [0]
  indexVectorDim := 1
  wf := scatter_S50000x128_S851968x1_S851968x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x2_S5000x2_1_0_0_1_n_n : DotDims S5000x128 S128x2 S5000x2 where
  lhsContracting := [1]
  rhsContracting := [0]
  lhsNonContracting := [0]
  rhsNonContracting := [1]
  lhsBatch := []
  rhsBatch := []
  wf := dot_S5000x128_S128x2_S5000x2_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v10_1) S5000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v57) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v59) S4096x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg9) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v61) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v62) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v70) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x2.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S2.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v71) S5000x2.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x128 : Shape := ⟨2, ![256, 128]⟩
abbrev S128 : Shape := ⟨1, ![128]⟩
abbrev S64x128 : Shape := ⟨2, ![64, 128]⟩
abbrev S128x128 : Shape := ⟨2, ![128, 128]⟩
abbrev S128x1 : Shape := ⟨2, ![128, 1]⟩
abbrev S128x2 : Shape := ⟨2, ![128, 2]⟩
abbrev S2 : Shape := ⟨1, ![2]⟩
abbrev S50000 : Shape := ⟨1, ![50000]⟩
abbrev S1x50000 : Shape := ⟨2, ![1, 50000]⟩
abbrev S1x1x1x50000 : Shape := ⟨4, ![1, 1, 1, 50000]⟩
abbrev S2x1x1x50000 : Shape := ⟨4, ![2, 1, 1, 50000]⟩
abbrev S2x50000 : Shape := ⟨2, ![2, 50000]⟩
abbrev S2x850000 : Shape := ⟨2, ![2, 850000]⟩
abbrev S1x850000 : Shape := ⟨2, ![1, 850000]⟩
abbrev S850000 : Shape := ⟨1, ![850000]⟩
abbrev S50000x128 : Shape := ⟨2, ![50000, 128]⟩
abbrev S1x128 : Shape := ⟨2, ![1, 128]⟩
abbrev S_ : Shape := ⟨0, ![]⟩
abbrev S50000x64 : Shape := ⟨2, ![50000, 64]⟩
abbrev S850000x1 : Shape := ⟨2, ![850000, 1]⟩
abbrev S850000x128 : Shape := ⟨2, ![850000, 128]⟩
abbrev S50000x2 : Shape := ⟨2, ![50000, 2]⟩
abbrev S1x2 : Shape := ⟨2, ![1, 2]⟩

abbrev nBuf : Space → Nat
  | .hbm => 149
  | .vmem => 0
  | .smem => 0
  | _ => 0

abbrev hbmTy0_0 (i : Nat) : BufTy := match i % 128 with
  | 0 => ⟨S50000x256, .f32⟩
  | 1 => ⟨S2x800000, .i32⟩
  | 2 => ⟨S256x128, .f32⟩
  | 3 => ⟨S128, .f32⟩
  | 4 => ⟨S64x128, .f32⟩
  | 5 => ⟨S128, .f32⟩
  | 6 => ⟨S64x128, .f32⟩
  | 7 => ⟨S128, .f32⟩
  | 8 => ⟨S128x128, .f32⟩
  | 9 => ⟨S128, .f32⟩
  | 10 => ⟨S128x1, .f32⟩
  | 11 => ⟨S128x128, .f32⟩
  | 12 => ⟨S128, .f32⟩
  | 13 => ⟨S128x2, .f32⟩
  | 14 => ⟨S2, .f32⟩
  | 15 => ⟨S50000, .i32⟩
  | 16 => ⟨S1x50000, .i32⟩
  | 17 => ⟨S1x1x1x50000, .i32⟩
  | 18 => ⟨S2x1x1x50000, .i32⟩
  | 19 => ⟨S2x50000, .i32⟩
  | 20 => ⟨S2x850000, .i32⟩
  | 21 => ⟨S1x850000, .i32⟩
  | 22 => ⟨S850000, .i32⟩
  | 23 => ⟨S1x850000, .i32⟩
  | 24 => ⟨S850000, .i32⟩
  | 25 => ⟨S50000x128, .f32⟩
  | 26 => ⟨S1x128, .f32⟩
  | 27 => ⟨S50000x128, .f32⟩
  | 28 => ⟨S50000x128, .f32⟩
  | 29 => ⟨S_, .f32⟩
  | 30 => ⟨S50000x128, .f32⟩
  | 31 => ⟨S50000x128, .i1⟩
  | 32 => ⟨S_, .f32⟩
  | 33 => ⟨S50000x128, .f32⟩
  | 34 => ⟨S50000x128, .f32⟩
  | 35 => ⟨S50000x128, .f32⟩
  | 36 => ⟨S50000x64, .f32⟩
  | 37 => ⟨S50000x128, .f32⟩
  | 38 => ⟨S1x128, .f32⟩
  | 39 => ⟨S50000x128, .f32⟩
  | 40 => ⟨S50000x128, .f32⟩
  | 41 => ⟨S50000x64, .f32⟩
  | 42 => ⟨S50000x128, .f32⟩
  | 43 => ⟨S1x128, .f32⟩
  | 44 => ⟨S50000x128, .f32⟩
  | 45 => ⟨S50000x128, .f32⟩
  | 46 => ⟨S_, .f32⟩
  | 47 => ⟨S850000, .f32⟩
  | 48 => ⟨S_, .f32⟩
  | 49 => ⟨S50000, .f32⟩
  | 50 => ⟨S850000x1, .i32⟩
  | 51 => ⟨S50000, .f32⟩
  | 52 => ⟨S_, .f32⟩
  | 53 => ⟨S50000, .f32⟩
  | 54 => ⟨S50000, .i1⟩
  | 55 => ⟨S_, .f32⟩
  | 56 => ⟨S50000, .f32⟩
  | 57 => ⟨S50000, .i1⟩
  | 58 => ⟨S_, .f32⟩
  | 59 => ⟨S_, .f32⟩
  | 60 => ⟨S50000, .f32⟩
  | 61 => ⟨S50000, .f32⟩
  | 62 => ⟨S50000, .f32⟩
  | 63 => ⟨S_, .f32⟩
  | 64 => ⟨S_, .f32⟩
  | 65 => ⟨S50000, .f32⟩
  | 66 => ⟨S50000, .f32⟩
  | 67 => ⟨S_, .i32⟩
  | 68 => ⟨S850000, .i32⟩
  | 69 => ⟨S850000, .i1⟩
  | 70 => ⟨S_, .i32⟩
  | 71 => ⟨S850000, .i32⟩
  | 72 => ⟨S850000, .i32⟩
  | 73 => ⟨S850000, .i32⟩
  | 74 => ⟨S850000x1, .i32⟩
  | 75 => ⟨S850000, .f32⟩
  | 76 => ⟨S_, .i32⟩
  | 77 => ⟨S850000, .i32⟩
  | 78 => ⟨S850000, .i1⟩
  | 79 => ⟨S_, .i32⟩
  | 80 => ⟨S850000, .i32⟩
  | 81 => ⟨S850000, .i32⟩
  | 82 => ⟨S850000, .i32⟩
  | 83 => ⟨S850000x1, .i32⟩
  | 84 => ⟨S850000, .f32⟩
  | 85 => ⟨S850000, .f32⟩
  | 86 => ⟨S_, .i32⟩
  | 87 => ⟨S850000, .i32⟩
  | 88 => ⟨S850000, .i1⟩
  | 89 => ⟨S_, .i32⟩
  | 90 => ⟨S850000, .i32⟩
  | 91 => ⟨S850000, .i32⟩
  | 92 => ⟨S850000, .i32⟩
  | 93 => ⟨S850000x1, .i32⟩
  | 94 => ⟨S850000x128, .f32⟩
  | 95 => ⟨S_, .i32⟩
  | 96 => ⟨S850000, .i32⟩
  | 97 => ⟨S850000, .i1⟩
  | 98 => ⟨S_, .i32⟩
  | 99 => ⟨S850000, .i32⟩
  | 100 => ⟨S850000, .i32⟩
  | 101 => ⟨S850000, .i32⟩
  | 102 => ⟨S850000x1, .i32⟩
  | 103 => ⟨S850000x128, .f32⟩
  | 104 => ⟨S850000x128, .f32⟩
  | 105 => ⟨S850000x128, .f32⟩
  | 106 => ⟨S1x128, .f32⟩
  | 107 => ⟨S850000x128, .f32⟩
  | 108 => ⟨S850000x128, .f32⟩
  | 109 => ⟨S850000x128, .f32⟩
  | 110 => ⟨S850000x1, .f32⟩
  | 111 => ⟨S850000x1, .f32⟩
  | 112 => ⟨S850000x1, .f32⟩
  | 113 => ⟨S_, .f32⟩
  | 114 => ⟨S850000x1, .f32⟩
  | 115 => ⟨S850000x1, .f32⟩
  | 116 => ⟨S_, .f32⟩
  | 117 => ⟨S850000x1, .f32⟩
  | 118 => ⟨S850000x1, .f32⟩
  | 119 => ⟨S850000x1, .f32⟩
  | 120 => ⟨S850000x128, .f32⟩
  | 121 => ⟨S850000x128, .f32⟩
  | 122 => ⟨S_, .f32⟩
  | 123 => ⟨S850000x1, .f32⟩
  | 124 => ⟨S850000x1, .f32⟩
  | 125 => ⟨S850000x128, .f32⟩
  | 126 => ⟨S850000x128, .f32⟩
  | 127 => ⟨S850000x128, .f32⟩
  | _ => ⟨S50000x256, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S50000x128, .f32⟩
  | 7 => ⟨S1x128, .f32⟩
  | 8 => ⟨S50000x128, .f32⟩
  | 9 => ⟨S50000x128, .f32⟩
  | 10 => ⟨S_, .f32⟩
  | 11 => ⟨S50000x128, .f32⟩
  | 12 => ⟨S50000x128, .i1⟩
  | 13 => ⟨S_, .f32⟩
  | 14 => ⟨S50000x128, .f32⟩
  | 15 => ⟨S50000x128, .f32⟩
  | 16 => ⟨S50000x128, .f32⟩
  | 17 => ⟨S50000x2, .f32⟩
  | 18 => ⟨S1x2, .f32⟩
  | 19 => ⟨S50000x2, .f32⟩
  | 20 => ⟨S50000x2, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call0_cst : Ref sig .tc := ⟨.hbm, 29, rfl⟩
abbrev main_call0_v0 : Ref sig .tc := ⟨.hbm, 30, rfl⟩
abbrev main_call0_v1 : Ref sig .tc := ⟨.hbm, 31, rfl⟩
abbrev main_call0_cst_0 : Ref sig .tc := ⟨.hbm, 32, rfl⟩
abbrev main_call0_v2 : Ref sig .tc := ⟨.hbm, 33, rfl⟩
abbrev main_call0_v3 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst : Ref sig .tc := ⟨.hbm, 46, rfl⟩
abbrev main_v25 : Ref sig .tc := ⟨.hbm, 47, rfl⟩
abbrev main_cst_0 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_1 : Ref sig .tc := ⟨.hbm, 52, rfl⟩
abbrev main_v29 : Ref sig .tc := ⟨.hbm, 53, rfl⟩
abbrev main_v30 : Ref sig .tc := ⟨.hbm, 54, rfl⟩
abbrev main_cst_2 : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_call1_v0 : Ref sig .tc := ⟨.hbm, 59, rfl⟩
abbrev main_call1_v1 : Ref sig .tc := ⟨.hbm, 60, rfl⟩
abbrev main_v33 : Ref sig .tc := ⟨.hbm, 61, rfl⟩
abbrev main_v34 : Ref sig .tc := ⟨.hbm, 62, rfl⟩
abbrev main_cst_4 : Ref sig .tc := ⟨.hbm, 63, rfl⟩
abbrev main_call2_v0 : Ref sig .tc := ⟨.hbm, 64, rfl⟩
abbrev main_call2_v1 : Ref sig .tc := ⟨.hbm, 65, rfl⟩
abbrev main_v35 : Ref sig .tc := ⟨.hbm, 66, rfl⟩
abbrev main_c : Ref sig .tc := ⟨.hbm, 67, rfl⟩
abbrev main_v36 : Ref sig .tc := ⟨.hbm, 68, rfl⟩
abbrev main_v37 : Ref sig .tc := ⟨.hbm, 69, rfl⟩
abbrev main_c_5 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_6 : Ref sig .tc := ⟨.hbm, 76, rfl⟩
abbrev main_v43 : Ref sig .tc := ⟨.hbm, 77, rfl⟩
abbrev main_v44 : Ref sig .tc := ⟨.hbm, 78, rfl⟩
abbrev main_c_7 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_c_8 : Ref sig .tc := ⟨.hbm, 86, rfl⟩
abbrev main_v51 : Ref sig .tc := ⟨.hbm, 87, rfl⟩
abbrev main_v52 : Ref sig .tc := ⟨.hbm, 88, rfl⟩
abbrev main_c_9 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_c_10 : Ref sig .tc := ⟨.hbm, 95, rfl⟩
abbrev main_v58 : Ref sig .tc := ⟨.hbm, 96, rfl⟩
abbrev main_v59 : Ref sig .tc := ⟨.hbm, 97, rfl⟩
abbrev main_c_11 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_cst_12 : Ref sig .tc := ⟨.hbm, 113, rfl⟩
abbrev main_v74 : Ref sig .tc := ⟨.hbm, 114, rfl⟩
abbrev main_v75 : Ref sig .tc := ⟨.hbm, 115, rfl⟩
abbrev main_cst_13 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_cst_14 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_15 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call3_cst : Ref sig .tc := ⟨.hbm, 138, rfl⟩
abbrev main_call3_v0 : Ref sig .tc := ⟨.hbm, 139, rfl⟩
abbrev main_call3_v1 : Ref sig .tc := ⟨.hbm, 140, rfl⟩
abbrev main_call3_cst_0 : Ref sig .tc := ⟨.hbm, 141, rfl⟩
abbrev main_call3_v2 : Ref sig .tc := ⟨.hbm, 142, rfl⟩
abbrev main_call3_v3 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩

abbrev nD : Nat := 1
abbrev τ : Topo := Topo.v7x

variable {F : FTy → Type} [FloatOps F]

class Facts₀ : Prop where
  bcast_S50000_S1x50000_1 : S50000.BroadcastsInDim S1x50000 (![1] : Fin 1 → Fin S1x50000.rank)
  shapeCasts_S1x50000_S1x1x1x50000 : S1x50000.ShapeCasts S1x1x1x50000
  bcast_S1x1x1x50000_S2x1x1x50000_0_1_2_3 : S1x1x1x50000.BroadcastsInDim S2x1x1x50000 (![0, 1, 2, 3] : Fin 4 → Fin S2x1x1x50000.rank)
  shapeCasts_S2x1x1x50000_S2x50000 : S2x1x1x50000.ShapeCasts S2x50000
  concatenates_S2x800000_S2x50000_S2x850000_d1 : Shape.Concatenates [S2x800000, S2x50000] S2x850000 1
  slices_S2x850000_S1x850000_0_0 : S2x850000.Slices ![0, 0] S1x850000
  shapeCasts_S1x850000_S850000 : S1x850000.ShapeCasts S850000
  slices_S2x850000_S1x850000_1_0 : S2x850000.Slices ![1, 0] S1x850000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S50000x128_S50000x64_0_0 : S50000x128.Slices ![0, 0] S50000x64
  slices_S50000x128_S50000x64_0_64 : S50000x128.Slices ![0, 64] S50000x64
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S1x128_S850000x128_0_1 : S1x128.BroadcastsInDim S850000x128 (![0, 1] : Fin 2 → Fin S850000x128.rank)
  bcast_S_S850000x1 : S_.BroadcastsInDim S850000x1 (![] : Fin 0 → Fin S850000x1.rank)
  bcast_S850000x1_S850000x128_0_1 : S850000x1.BroadcastsInDim S850000x128 (![0, 1] : Fin 2 → Fin S850000x128.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  dot_S50000x256_S256x128_S50000x128_1_0_0_1_n_n_wf : DotDims.WF S50000x256 S256x128 S50000x128 [1] [0] [0] [1] [] []
  dot_S50000x64_S64x128_S50000x128_1_0_0_1_n_n_wf : DotDims.WF S50000x64 S64x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  dot_S850000x128_S128x128_S850000x128_1_0_0_1_n_n_wf : DotDims.WF S850000x128 S128x128 S850000x128 [1] [0] [0] [1] [] []
  dot_S850000x128_S128x1_S850000x1_1_0_0_1_n_n_wf : DotDims.WF S850000x128 S128x1 S850000x1 [1] [0] [0] [1] [] []
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x2_S50000x2_1_0_0_1_n_n_wf : DotDims.WF S50000x128 S128x2 S50000x2 [1] [0] [0] [1] [] []

variable [Facts₀]

def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def dot_S850000x128_S128x128_S850000x128_1_0_0_1_n_n : DotDims S850000x128 S128x128 S850000x128 where
  lhsContracting := [1]
  rhsContracting := [0]
  lhsNonContracting := [0]
  rhsNonContracting := [1]
  lhsBatch := []
  rhsBatch := []
  wf := dot_S850000x128_S128x128_S850000x128_1_0_0_1_n_n_wf
def dot_S850000x128_S128x1_S850000x1_1_0_0_1_n_n : DotDims S850000x128 S128x1 S850000x1 where
  lhsContracting := [1]
  rhsContracting := [0]
  lhsNonContracting := [0]
  rhsNonContracting := [1]
  lhsBatch := []
  rhsBatch := []
  wf := dot_S850000x128_S128x1_S850000x1_1_0_0_1_n_n_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x2_S50000x2_1_0_0_1_n_n : DotDims S50000x128 S128x2 S50000x2 where
  lhsContracting := [1]
  rhsContracting := [0]
  lhsNonContracting := [0]
  rhsNonContracting := [1]
  lhsBatch := []
  rhsBatch := []
  wf := dot_S50000x128_S128x2_S50000x2_1_0_0_1_n_n_wf

class Facts : Prop extends Facts₀ where

variable [Facts]
-- ==== Proof.Stages.lean ====
/-
  The reference's computation, stage by stage, as plain functions of arrays.

  A graph layer on N = 50000 nodes and E' = 850000 edges (the 800000 given ones, then one self loop per node):
  a dense projection of the node features (a leaky rectifier between two affine maps, the hidden vector split
  in halves), the symmetric degree normalisation, a gather of the two projected feature rows along each edge, a
  gated mix of them (a sigmoid of a learnt score of their sum), a sum of the edge messages into their target
  nodes, and a two-layer head. Each definition below is one stretch of that computation, written with the same
  operations the reference program applies, so that the reference's result is their composition by unfolding.
-/
import proofs.«118317_j46377056862932_1_alg».proof.Proof.Gen.ReferenceIdeal

noncomputable section

namespace Cert.ReferenceIdeal.Stage

open Cert.ReferenceIdeal Cert.ReferenceIdeal.Gen Idealize.ShloMosaic

variable {F : FTy → Type} [FloatOps F]

/-! ## Edge lists -/

/-- The edge list with a self loop per node appended: row 0 the sources, row 1 the targets. -/
def edges (ei : IVec S2x800000 32) : IVec S2x850000 32 :=
  concatenate S2x850000 1
    [⟨S2x800000, ei⟩,
     ⟨S2x50000, shapeCast S2x50000
        (broadcastInDim S2x1x1x50000 ![0, 1, 2, 3] bcast_S1x1x1x50000_S2x1x1x50000_0_1_2_3
          (shapeCast S1x1x1x50000 (broadcastInDim S1x50000 ![1] bcast_S50000_S1x50000_1 (iotaInDim S50000 32 0))
            shapeCasts_S1x50000_S1x1x1x50000))
        shapeCasts_S2x1x1x50000_S2x50000⟩]
    concatenates_S2x800000_S2x50000_S2x850000_d1

/-- The source node of each edge. -/
def row (ei : IVec S2x800000 32) : IVec S850000 32 :=
  shapeCast S850000 (extractStridedSlice S1x850000 ![0, 0] (edges ei) slices_S2x850000_S1x850000_0_0) shapeCasts_S1x850000_S850000

/-- The target node of each edge. -/
def col (ei : IVec S2x800000 32) : IVec S850000 32 :=
  shapeCast S850000 (extractStridedSlice S1x850000 ![1, 0] (edges ei) slices_S2x850000_S1x850000_1_0) shapeCasts_S1x850000_S850000

/-- A node id read the way array indexing reads it: a negative id counts from the end. -/
def wrap (i : IVec S850000 32) : IVec S850000 32 :=
  select (cmpi .slt i (broadcastInDim S850000 ![] bcast_S_S850000 (constantI S_ 32 0#32)))
    (addi i (broadcastInDim S850000 ![] bcast_S_S850000 (constantI S_ 32 50000#32))) i

/-- An id list as the one-column table of start indices a gather or a scatter takes. -/
def asColumn (i : IVec S850000 32) : IVec S850000x1 32 :=
  broadcastInDim S850000x1 ![0] bcast_S850000_S850000x1_0 i

/-! ## The node projection -/

/-- The leaky rectifier on a [50000, 128] array: x where x ≥ 0, else the literal slope times x. -/
def leaky (x : FVec F S50000x128 .f32) : FVec F S50000x128 .f32 :=
  select (cmpf .oge x (broadcastInDim S50000x128 ![] bcast_S_S50000x128 (constant S_ .f32 0x00000000#32)))
    x (mulf (broadcastInDim S50000x128 ![] bcast_S_S50000x128 (constant S_ .f32 0x3C23D70A#32)) x)

/-- A [128] vector laid along every row of a [50000, 128] array. -/
def biasRows (b : FVec F S128 .f32) : FVec F S50000x128 .f32 :=
  broadcastInDim S50000x128 ![0, 1] bcast_S1x128_S50000x128_0_1 (broadcastInDim S1x128 ![1] bcast_S128_S1x128_1 b)

/-- The hidden node features: leaky (x · W_in + b_in). -/
def hidden (x : FVec F S50000x256 .f32) (W_in : FVec F S256x128 .f32) (b_in : FVec F S128 .f32) : FVec F S50000x128 .f32 :=
  leaky (addf (Host.dotGeneral dot_S50000x256_S256x128_S50000x128_1_0_0_1_n_n none x W_in) (biasRows b_in))

/-- The first projected feature: the left half of the hidden vector through W_nor, plus b_nor. -/
def xnor (h : FVec F S50000x128 .f32) (W : FVec F S64x128 .f32) (b : FVec F S128 .f32) : FVec F S50000x128 .f32 :=
  addf (Host.dotGeneral dot_S50000x64_S64x128_S50000x128_1_0_0_1_n_n none
    (extractStridedSlice S50000x64 ![0, 0] h slices_S50000x128_S50000x64_0_0) W) (biasRows b)

/-- The second projected feature: the right half of the hidden vector through W_abnor, plus b_abnor. -/
def xabnor (h : FVec F S50000x128 .f32) (W : FVec F S64x128 .f32) (b : FVec F S128 .f32) : FVec F S50000x128 .f32 :=
  addf (Host.dotGeneral dot_S50000x64_S64x128_S50000x128_1_0_0_1_n_n none
    (extractStridedSlice S50000x64 ![0, 64] h slices_S50000x128_S50000x64_0_64) W) (biasRows b)

/-! ## Degrees and the edge weights -/

/-- The number of edges into each node, the ids given as a start-index column: a sum of ones. -/
def degree (idx : IVec S850000x1 32) : FVec F S50000 .f32 :=
  Host.scatterAdd scatter_S50000_S850000x1_S850000_n_0_0_1
    (broadcastInDim S50000 ![] bcast_S_S50000 (constant S_ .f32 0x00000000#32)) idx
    (broadcastInDim S850000 ![] bcast_S_S850000 (constant S_ .f32 0x3F800000#32))

/-- deg^(-1/2) where deg > 0 and 0 elsewhere (the inner selection keeps the root's operand positive). -/
def dinv (deg : FVec F S50000 .f32) : FVec F S50000 .f32 :=
  select (cmpf .ogt deg (broadcastInDim S50000 ![] bcast_S_S50000 (constant S_ .f32 0x00000000#32)))
    (Host.rsqrt
      (select (cmpf .ogt deg (broadcastInDim S50000 ![] bcast_S_S50000 (constant S_ .f32 0x00000000#32))) deg
        (broadcastInDim S50000 ![] bcast_S_S50000 (id (constant S_ .f32 0x3F800000#32)))))
    (broadcastInDim S50000 ![] bcast_S_S50000 (id (constant S_ .f32 0x00000000#32)))

/-- The weight of each edge: dinv at its source times dinv at its target. -/
def weight (dv : FVec F S50000 .f32) (r c : IVec S850000 32) : FVec F S850000 .f32 :=
  mulf (Host.gather gather_S50000_S850000x1_S850000_n_0_n_n_0_1_1 dv (asColumn (wrap r)))
    (Host.gather gather_S50000_S850000x1_S850000_n_0_n_n_0_1_1 dv (asColumn (wrap c)))

/-- A node feature table read along the edges' sources: one 128-wide row per edge. -/
def alongEdges (t : FVec F S50000x128 .f32) (r : IVec S850000 32) : FVec F S850000x128 .f32 :=
  Host.gather gather_S50000x128_S850000x1_S850000x128_1_0_n_n_0_1_1128 t (asColumn (wrap r))

/-! ## The gated message -/

/-- A [850000, 1] column laid along 128 columns. -/
def spread (a : FVec F S850000x1 .f32) : FVec F S850000x128 .f32 :=
  broadcastInDim S850000x128 ![0, 1] bcast_S850000x1_S850000x128_0_1 a

/-- The gate of each edge: sigmoid (tanh ((xn + xa) · W_att + b_att) · v_att), the sigmoid spelt 1 / (1 + e^(-s)). -/
def gate (xn xa : FVec F S850000x128 .f32) (W : FVec F S128x128 .f32) (b : FVec F S128 .f32) (v : FVec F S128x1 .f32) :
    FVec F S850000x1 .f32 :=
  Host.divf (broadcastInDim S850000x1 ![] bcast_S_S850000x1 (constant S_ .f32 0x3F800000#32))
    (addf (broadcastInDim S850000x1 ![] bcast_S_S850000x1 (constant S_ .f32 0x3F800000#32))
      (Host.exp (Host.negf
        (Host.dotGeneral dot_S850000x128_S128x1_S850000x1_1_0_0_1_n_n none
          (Host.tanh (addf (Host.dotGeneral dot_S850000x128_S128x128_S850000x128_1_0_0_1_n_n none (addf xn xa) W)
            (broadcastInDim S850000x128 ![0, 1] bcast_S1x128_S850000x128_0_1 (broadcastInDim S1x128 ![1] bcast_S128_S1x128_1 b))))
          v))))

/-- The message of each edge: weight · (gate · xn + (1 − gate) · xa). -/
def message (xn xa : FVec F S850000x128 .f32) (wt : FVec F S850000 .f32) (W : FVec F S128x128 .f32) (b : FVec F S128 .f32)
    (v : FVec F S128x1 .f32) : FVec F S850000x128 .f32 :=
  mulf (spread (broadcastInDim S850000x1 ![0] bcast_S850000_S850000x1_0 wt))
    (addf (mulf (spread (gate xn xa W b v)) xn)
      (mulf (spread (subf (broadcastInDim S850000x1 ![] bcast_S_S850000x1 (constant S_ .f32 0x3F800000#32)) (gate xn xa W b v))) xa))

/-! ## Aggregation and the head -/

/-- The messages summed into their target nodes. -/
def aggregate (msg : FVec F S850000x128 .f32) (c : IVec S850000 32) : FVec F S50000x128 .f32 :=
  Host.scatterAdd scatter_S50000x128_S850000x1_S850000x128_1_0_0_1
    (broadcastInDim S50000x128 ![] bcast_S_S50000x128 (constant S_ .f32 0x00000000#32)) (asColumn c) msg

/-- The head: leaky (aggr · W_upd + b_upd) · W_cls + b_cls. -/
def head (aggr : FVec F S50000x128 .f32) (W_upd : FVec F S128x128 .f32) (b_upd : FVec F S128 .f32) (W_cls : FVec F S128x2 .f32)
    (b_cls : FVec F S2 .f32) : FVec F S50000x2 .f32 :=
  addf (Host.dotGeneral dot_S50000x128_S128x2_S50000x2_1_0_0_1_n_n none
      (leaky (addf (Host.dotGeneral dot_S50000x128_S128x128_S50000x128_1_0_0_1_n_n none aggr W_upd) (biasRows b_upd))) W_cls)
    (broadcastInDim S50000x2 ![0, 1] bcast_S1x2_S50000x2_0_1 (broadcastInDim S1x2 ![1] bcast_S2_S1x2_1 b_cls))

/-! ## The whole reference -/

/-- The reference's result as one function of its fifteen arguments. -/
def result (x : FVec F S50000x256 .f32) (ei : IVec S2x800000 32) (W_in : FVec F S256x128 .f32) (b_in : FVec F S128 .f32)
    (W_nor : FVec F S64x128 .f32) (b_nor : FVec F S128 .f32) (W_abnor : FVec F S64x128 .f32) (b_abnor : FVec F S128 .f32)
    (W_att : FVec F S128x128 .f32) (b_att : FVec F S128 .f32) (v_att : FVec F S128x1 .f32) (W_upd : FVec F S128x128 .f32)
    (b_upd : FVec F S128 .f32) (W_cls : FVec F S128x2 .f32) (b_cls : FVec F S2 .f32) : FVec F S50000x2 .f32 :=
  head
    (aggregate
      (message (alongEdges (xnor (hidden x W_in b_in) W_nor b_nor) (row ei))
        (alongEdges (xabnor (hidden x W_in b_in) W_abnor b_abnor) (row ei))
        (weight (dinv (degree (asColumn (col ei)))) (row ei) (col ei)) W_att b_att v_att)
      (col ei))
    W_upd b_upd W_cls b_cls

end Cert.ReferenceIdeal.Stage

end
-- ==== Proof.KTerms.lean ====
/-
  The kernel program's own host operations around its three regions, as named functions of arrays.

  Between the projection region and the attention region the program gathers along the edges exactly as the
  reference does, then pads the edge axis from 850000 to 851968 rows (208 blocks of 4096) with zero rows, zero
  weights and target id 0; after the attention region it sums the 851968 message rows into their targets, each
  target id first read the way array indexing reads it (a negative id counts from the end).
-/
import proofs.«118317_j46377056862932_1_alg».proof.Proof.Gen.KernelIdeal
import proofs.«118317_j46377056862932_1_alg».proof.Proof.Stages

noncomputable section

namespace Cert.KernelIdeal.Terms

open Cert.KernelIdeal Cert.KernelIdeal.Gen Idealize.ShloMosaic

variable {F : FTy → Type} [FloatOps F]

/-- 1968 zero rows appended to a [850000, 128] array. -/
def padRows (x : FVec F S850000x128 .f32) : FVec F S851968x128 .f32 :=
  pad S851968x128 ![0, 0] ![1968, 0] ![0, 0] x (sitofp .f32 (constantI S_ 32 0#32)) pads_S850000x128_S851968x128_019680_000 h_S_

/-- 1968 zero entries appended to a [850000, 1] column. -/
def padCol (x : FVec F S850000x1 .f32) : FVec F S851968x1 .f32 :=
  pad S851968x1 ![0, 0] ![1968, 0] ![0, 0] x (sitofp .f32 (constantI S_ 32 0#32)) pads_S850000x1_S851968x1_019680_000 h_S_

/-- 1968 ids 0 appended to the target list. -/
def padIds (i : IVec S850000 32) : IVec S851968 32 :=
  pad S851968 ![0] ![1968] ![0] i (id (constantI S_ 32 0#32)) pads_S850000_S851968_019680 h_S_

/-- The edge weights as the [850000, 1] column the attention region reads, before padding. -/
def weightCol (wt : FVec F S850000 .f32) : FVec F S850000x1 .f32 :=
  broadcastInDim S850000x1 ![0] bcast_S850000_S850000x1_0 wt

/-- A padded id list read the way array indexing reads it. -/
def wrapP (i : IVec S851968 32) : IVec S851968 32 :=
  select (cmpi .slt i (broadcastInDim S851968 ![] bcast_S_S851968 (constantI S_ 32 0#32)))
    (addi i (broadcastInDim S851968 ![] bcast_S_S851968 (constantI S_ 32 50000#32))) i

/-- The padded message rows summed into their (wrapped) targets. -/
def aggregateP (ids : IVec S851968 32) (msg : FVec F S851968x128 .f32) : FVec F S50000x128 .f32 :=
  Host.scatterAdd scatter_S50000x128_S851968x1_S851968x128_1_0_0_1
    (broadcastInDim S50000x128 ![] bcast_S_S50000x128 (constant S_ .f32 0x00000000#32))
    (broadcastInDim S851968x1 ![0] bcast_S851968_S851968x1_0 (wrapP ids)) msg

/-- The attention vector as the [1, 128] row the attention region reads. -/
def vRow (v : FVec F S128x1 .f32) : FVec F S1x128 .f32 :=
  transpose S1x128 [1, 0] v transposes_S128x1_S1x128_1_0

end Cert.KernelIdeal.Terms

end
-- ==== Proof.KHost.lean ====
/- The kernel program's buffers at each region's entry, read back through its host operations to the launch memory
   and to the regions' result arrays. -/
import proofs.«118317_j46377056862932_1_alg».proof.Proof.Gen.KernelIdeal.Frame
import proofs.«118317_j46377056862932_1_alg».proof.Proof.KTerms
import Idealize.ShloMosaic.PureOps.Ideal
import Idealize.ShloMosaic.Lib.StableHlo.Run

noncomputable section

namespace Cert.KernelIdeal.Host

open Idealize.ShloMosaic Idealize.ShloMosaic.TcCoe Idealize.SL.Sem
open Cert.KernelIdeal Cert.KernelIdeal.Gen
open Cert.KernelIdeal.Terms

variable (m : (ℓ : Loc nD τ sig) → Buf (Elt Ideal) ℓ) (ρ : Dev nD → PrngReg)

/-! ## Buffers a stretch of host operations leaves alone -/

/-- The stretches between the projection region and the attention region, grouped: the four that compute the
    degree normalisation, the long one that gathers along the edges (`hostOps1_4`, by itself), the eight that pad;
    and all thirteen as one line. -/
abbrev opsA : List (HloOp τ sig (Elt Ideal)) := hostOps1 ++ (hostOps1_1 ++ (hostOps1_2 ++ hostOps1_3))
abbrev opsC : List (HloOp τ sig (Elt Ideal)) :=
  hostOps1_5 ++ (hostOps1_6 ++ (hostOps1_7 ++ (hostOps1_8 ++ (hostOps1_9 ++ (hostOps1_10 ++ (hostOps1_11 ++ hostOps1_12))))))
abbrev midOps : List (HloOp τ sig (Elt Ideal)) := opsA ++ (hostOps1_4 ++ opsC)

/-- The fold through several stretches is the fold through their concatenation. -/
theorem W6_eq (c : Dev nD) : W6 m ρ c = StableHlo.after opsA (W2 m ρ c) := by
  simp only [opsA, StableHlo.after_append]
theorem W15_eq' (c : Dev nD) : W15 m ρ c = StableHlo.after opsC (W7 m ρ c) := by
  simp only [opsC, StableHlo.after_append]
theorem W15_eq (c : Dev nD) : W15 m ρ c = StableHlo.after midOps (W2 m ρ c) := by
  simp only [midOps, opsA, opsC, StableHlo.after_append]

/-- A buffer that is the result of none of a line's operations holds after the line what it held before:
    the line's result references are listed and each told apart from the buffer read. -/
local macro "line_keeps" : tactic =>
  `(tactic| (refine StableHlo.after_of_forall_not_mem _ _ (List.forall_iff_forall_mem.mp ?_)
             simp only [midOps, opsA, opsC, hostOps0, hostOps1, hostOps1_1, hostOps1_2, hostOps1_3, hostOps1_4, hostOps1_5,
               hostOps1_6, hostOps1_7, hostOps1_8, hostOps1_9, hostOps1_10, hostOps1_11, hostOps1_12, hostOps2,
               List.flatten_cons, List.flatten_nil, List.append_nil, List.cons_append,
               List.nil_append, List.Forall, StableHlo.nullary_writes, StableHlo.unary_writes, StableHlo.binary_writes,
               StableHlo.ternary_writes, StableHlo.quaternary_writes, StableHlo.reshape_writes,
               StableHlo.binaryIndexed_writes, Finset.mem_singleton]
             repeat' apply And.intro
             all_goals exact StableHlo.devRef_ne_of_ne (by decide)))

set_option hygiene false in
/-- A buffer that no host operation before the projection region writes and that is none of that region's arrays
    holds at the region's exit what the launch memory holds. -/
local macro "exit0_is_launch " r:ident : tactic =>
  `(tactic| (refine Eq.trans (W2_of_ne m ρ c $r (by decide)) ?_
             show W1 m ρ c (Proc.devRef .tc $r) = W0 m ρ c (Proc.devRef .tc $r)
             line_keeps))

set_option hygiene false in
/-- If moreover none of the thirteen stretches after that region writes it, it holds the same at the attention
    region's entry. -/
local macro "entry1_is_launch " r:ident : tactic =>
  `(tactic| (rw [W15_eq]
             refine Eq.trans (b := W2 m ρ c (Proc.devRef .tc $r)) ?_ ?_
             · line_keeps
             · exit0_is_launch $r))

set_option hygiene false in
/-- The same up to the head region's entry: further across the attention region (of which the buffer is no array)
    and the stretch after it. -/
local macro "entry2_is_launch " r:ident : tactic =>
  `(tactic| (refine Eq.trans (b := W16 m ρ c (Proc.devRef .tc $r)) ?_ (Eq.trans (W16_of_ne m ρ c $r (by decide)) ?_)
             · show W17 m ρ c (Proc.devRef .tc $r) = W16 m ρ c (Proc.devRef .tc $r)
               line_keeps
             · entry1_is_launch $r))

/-! ## The inlined callees' operations at their literal references

An inlined callee's operations are stated over references that carry the type of their value, each function moved
along the reference's type equation; at these literal references the equations are `rfl` and the moves the
identity, so each such stretch is the same line of plain operations. -/

theorem plain1_1 : (hostOps1_1 : List (HloOp τ sig (Elt Ideal)))
    = [ StableHlo.unary main_cst_4 main_call0_v0 (id : (⟨S_, .f32⟩ : BufTy).Contents (Elt Ideal) → (⟨S_, .f32⟩ : BufTy).Contents (Elt Ideal)),
        StableHlo.unary main_call0_v0 main_call0_v1 (broadcastInDim S50000 ![] bcast_S_S50000 : (⟨S_, .f32⟩ : BufTy).Contents (Elt Ideal) → (⟨S50000, .f32⟩ : BufTy).Contents (Elt Ideal)),
        StableHlo.ternary main_v23 main_v19 main_call0_v1 main_v24 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

theorem plain1_3 : (hostOps1_3 : List (HloOp τ sig (Elt Ideal)))
    = [ StableHlo.unary main_cst_5 main_call1_v0 (id : (⟨S_, .f32⟩ : BufTy).Contents (Elt Ideal) → (⟨S_, .f32⟩ : BufTy).Contents (Elt Ideal)),
        StableHlo.unary main_call1_v0 main_call1_v1 (broadcastInDim S50000 ![] bcast_S_S50000 : (⟨S_, .f32⟩ : BufTy).Contents (Elt Ideal) → (⟨S50000, .f32⟩ : BufTy).Contents (Elt Ideal)),
        StableHlo.ternary main_v21 main_v25 main_call1_v1 main_v26 (select : (⟨S50000, .i1⟩ : BufTy).Contents (Elt Ideal) → (⟨S50000, .f32⟩ : BufTy).Contents (Elt Ideal) → (⟨S50000, .f32⟩ : BufTy).Contents (Elt Ideal) → (⟨S50000, .f32⟩ : BufTy).Contents (Elt Ideal)) ] := rfl

theorem plain1_5 : (hostOps1_5 : List (HloOp τ sig (Elt Ideal)))
    = [ StableHlo.unary main_c_14 main_call2_v0 ((fun u => sitofp (F := Ideal) .f32 u) : (⟨S_, .i32⟩ : BufTy).Contents (Elt Ideal) → (⟨S_, .f32⟩ : BufTy).Contents (Elt Ideal)),
        StableHlo.binary main_v49 main_call2_v0 main_v57 ((fun x v => pad S851968x128 ![0, 0] ![1968, 0] ![0, 0] x v pads_S850000x128_S851968x128_019680_000 h_S_) : (⟨S850000x128, .f32⟩ : BufTy).Contents (Elt Ideal) → (⟨S_, .f32⟩ : BufTy).Contents (Elt Ideal) → (⟨S851968x128, .f32⟩ : BufTy).Contents (Elt Ideal)) ] := rfl

theorem plain1_7 : (hostOps1_7 : List (HloOp τ sig (Elt Ideal)))
    = [ StableHlo.unary main_c_15 main_call3_v0 ((fun u => sitofp (F := Ideal) .f32 u) : (⟨S_, .i32⟩ : BufTy).Contents (Elt Ideal) → (⟨S_, .f32⟩ : BufTy).Contents (Elt Ideal)),
        StableHlo.binary main_v56 main_call3_v0 main_v58 ((fun x v => pad S851968x128 ![0, 0] ![1968, 0] ![0, 0] x v pads_S850000x128_S851968x128_019680_000 h_S_) : (⟨S850000x128, .f32⟩ : BufTy).Contents (Elt Ideal) → (⟨S_, .f32⟩ : BufTy).Contents (Elt Ideal) → (⟨S851968x128, .f32⟩ : BufTy).Contents (Elt Ideal)) ] := rfl

theorem plain1_9 : (hostOps1_9 : List (HloOp τ sig (Elt Ideal)))
    = [ StableHlo.unary main_c_16 main_call4_v0 ((fun u => sitofp (F := Ideal) .f32 u) : (⟨S_, .i32⟩ : BufTy).Contents (Elt Ideal) → (⟨S_, .f32⟩ : BufTy).Contents (Elt Ideal)),
        StableHlo.binary main_v42 main_call4_v0 main_v59 ((fun x v => pad S851968x1 ![0, 0] ![1968, 0] ![0, 0] x v pads_S850000x1_S851968x1_019680_000 h_S_) : (⟨S850000x1, .f32⟩ : BufTy).Contents (Elt Ideal) → (⟨S_, .f32⟩ : BufTy).Contents (Elt Ideal) → (⟨S851968x1, .f32⟩ : BufTy).Contents (Elt Ideal)) ] := rfl

theorem plain1_11 : (hostOps1_11 : List (HloOp τ sig (Elt Ideal)))
    = [ StableHlo.unary main_c_17 main_call5_v0 (id : (⟨S_, .i32⟩ : BufTy).Contents (Elt Ideal) → (⟨S_, .i32⟩ : BufTy).Contents (Elt Ideal)),
        StableHlo.binary main_v9 main_call5_v0 main_v60 ((fun x v => pad S851968 ![0] ![1968] ![0] x v pads_S850000_S851968_019680 h_S_) : (⟨S850000, .i32⟩ : BufTy).Contents (Elt Ideal) → (⟨S_, .i32⟩ : BufTy).Contents (Elt Ideal) → (⟨S851968, .i32⟩ : BufTy).Contents (Elt Ideal)) ] := rfl

/-! ## Each line of host operations, from any contents `V`: what it leaves in the buffers read later

Every operation's result is read at its own buffer and every other operation passes it by; what is left is the
operations' functions applied to `V` at the buffers the line reads from before it, which is the named stage by
unfolding (the program's operations are the ones the stages are written with). -/

section Lines

variable (V : Valuation τ sig (Elt Ideal))

/-- The edges' sources and targets: the given edge list with the self loops appended, its two rows. -/
theorem line0_v7 : StableHlo.after hostOps0 V (Proc.devRef .tc main_v7) = Cert.ReferenceIdeal.Stage.row (V (Proc.devRef .tc main_arg1)) := by
  simp only [hostOps0]
  after_results
  rfl
theorem line0_v9 : StableHlo.after hostOps0 V (Proc.devRef .tc main_v9) = Cert.ReferenceIdeal.Stage.col (V (Proc.devRef .tc main_arg1)) := by
  simp only [hostOps0]
  after_results
  rfl

/-- The inverse square roots of the degrees, the degrees counting the wrapped target ids: a sum of ones into the
    wrapped targets, the root taken where the sum is positive (the two inlined selections). -/
theorem lineA_v26 :
    StableHlo.after opsA V (Proc.devRef .tc main_v26)
      = Cert.ReferenceIdeal.Stage.dinv (F := Ideal) (Cert.ReferenceIdeal.Stage.degree (F := Ideal) (Cert.ReferenceIdeal.Stage.asColumn (Cert.ReferenceIdeal.Stage.wrap (V (Proc.devRef .tc main_v9))))) := by
  simp only [opsA, hostOps1, plain1_1, hostOps1_2, plain1_3, List.cons_append, List.nil_append]
  after_results_simp
  rfl

/-- A feature table read along the edges' sources (the ids wrapped as array indexing wraps them). -/
theorem lineB_v49 :
    StableHlo.after hostOps1_4 V (Proc.devRef .tc main_v49) = Cert.ReferenceIdeal.Stage.alongEdges (F := Ideal) (V (Proc.devRef .tc main_v10_0)) (V (Proc.devRef .tc main_v7)) := by
  simp only [hostOps1_4]
  after_results_simp
  rfl
theorem lineB_v56 :
    StableHlo.after hostOps1_4 V (Proc.devRef .tc main_v56) = Cert.ReferenceIdeal.Stage.alongEdges (F := Ideal) (V (Proc.devRef .tc main_v10_1)) (V (Proc.devRef .tc main_v7)) := by
  simp only [hostOps1_4]
  after_results_simp
  rfl
/-- The edge weights as a column: the normalisation at the source times the normalisation at the target. -/
theorem lineB_v42 :
    StableHlo.after hostOps1_4 V (Proc.devRef .tc main_v42)
      = weightCol (F := Ideal) (Cert.ReferenceIdeal.Stage.weight (F := Ideal) (V (Proc.devRef .tc main_v26)) (V (Proc.devRef .tc main_v7)) (V (Proc.devRef .tc main_v9))) := by
  simp only [hostOps1_4]
  after_results_simp
  rfl
/-- The integer zero the first padding converts. -/
theorem lineB_c_14 : StableHlo.after hostOps1_4 V (Proc.devRef .tc main_c_14) = constantI S_ 32 0#32 := by
  simp only [hostOps1_4]
  after_results_simp

/-- The eight stretches that pad, spelt out as one literal line, then each operation's result read at its own buffer. -/
local macro "pad_results" : tactic =>
  `(tactic| (simp only [opsC, plain1_5, hostOps1_6, plain1_7, hostOps1_8, plain1_9, hostOps1_10, plain1_11, hostOps1_12,
               List.cons_append, List.nil_append]
             after_results_simp))

theorem lineC_v57 (h14 : V (Proc.devRef .tc main_c_14) = constantI S_ 32 0#32) :
    StableHlo.after opsC V (Proc.devRef .tc main_v57) = padRows (F := Ideal) (V (Proc.devRef .tc main_v49)) := by
  pad_results
  rw [h14]
  rfl
theorem lineC_v58 : StableHlo.after opsC V (Proc.devRef .tc main_v58) = padRows (F := Ideal) (V (Proc.devRef .tc main_v56)) := by
  pad_results
  rfl
theorem lineC_v59 : StableHlo.after opsC V (Proc.devRef .tc main_v59) = padCol (F := Ideal) (V (Proc.devRef .tc main_v42)) := by
  pad_results
  rfl
theorem lineC_v60 : StableHlo.after opsC V (Proc.devRef .tc main_v60) = padIds (V (Proc.devRef .tc main_v9)) := by
  pad_results
  rfl
theorem lineC_v61 : StableHlo.after opsC V (Proc.devRef .tc main_v61) = vRow (F := Ideal) (V (Proc.devRef .tc main_arg10)) := by
  pad_results
  rfl

set_option maxHeartbeats 1000000 in
/-- The message rows summed into the wrapped padded targets, from zero. -/
theorem line2_v70 :
    StableHlo.after hostOps2 V (Proc.devRef .tc main_v70) = aggregateP (F := Ideal) (V (Proc.devRef .tc main_v60)) (V (Proc.devRef .tc main_v62)) := by
  simp only [hostOps2]
  after_results_simp
  rfl

end Lines

/-! ## The projection region's entry: its seven input arrays are arguments -/

theorem V1_arg0 (c : Dev nD) : V1 m ρ c main_arg0 = m ((c.tc : Thread nD τ).loc main_arg0) := by
  show W1 m ρ c (Proc.devRef .tc main_arg0) = W0 m ρ c (Proc.devRef .tc main_arg0)
  line_keeps
theorem V1_arg2 (c : Dev nD) : V1 m ρ c main_arg2 = m ((c.tc : Thread nD τ).loc main_arg2) := by
  show W1 m ρ c (Proc.devRef .tc main_arg2) = W0 m ρ c (Proc.devRef .tc main_arg2)
  line_keeps
theorem V1_arg3 (c : Dev nD) : V1 m ρ c main_arg3 = m ((c.tc : Thread nD τ).loc main_arg3) := by
  show W1 m ρ c (Proc.devRef .tc main_arg3) = W0 m ρ c (Proc.devRef .tc main_arg3)
  line_keeps
theorem V1_arg4 (c : Dev nD) : V1 m ρ c main_arg4 = m ((c.tc : Thread nD τ).loc main_arg4) := by
  show W1 m ρ c (Proc.devRef .tc main_arg4) = W0 m ρ c (Proc.devRef .tc main_arg4)
  line_keeps
theorem V1_arg5 (c : Dev nD) : V1 m ρ c main_arg5 = m ((c.tc : Thread nD τ).loc main_arg5) := by
  show W1 m ρ c (Proc.devRef .tc main_arg5) = W0 m ρ c (Proc.devRef .tc main_arg5)
  line_keeps
theorem V1_arg6 (c : Dev nD) : V1 m ρ c main_arg6 = m ((c.tc : Thread nD τ).loc main_arg6) := by
  show W1 m ρ c (Proc.devRef .tc main_arg6) = W0 m ρ c (Proc.devRef .tc main_arg6)
  line_keeps
theorem V1_arg7 (c : Dev nD) : V1 m ρ c main_arg7 = m ((c.tc : Thread nD τ).loc main_arg7) := by
  show W1 m ρ c (Proc.devRef .tc main_arg7) = W0 m ρ c (Proc.devRef .tc main_arg7)
  line_keeps

/-! ## What the later stretches read, at the projection region's exit -/

/-- The edges' sources: written before the projection region, which leaves them alone. -/
theorem W2_v7 (c : Dev nD) :
    W2 m ρ c (Proc.devRef .tc main_v7) = Cert.ReferenceIdeal.Stage.row (m ((c.tc : Thread nD τ).loc main_arg1)) := by
  refine Eq.trans (W2_of_ne m ρ c main_v7 (by decide)) ?_
  exact line0_v7 (W0 m ρ c)

/-- The edges' targets likewise. -/
theorem W2_v9 (c : Dev nD) :
    W2 m ρ c (Proc.devRef .tc main_v9) = Cert.ReferenceIdeal.Stage.col (m ((c.tc : Thread nD τ).loc main_arg1)) := by
  refine Eq.trans (W2_of_ne m ρ c main_v9 (by decide)) ?_
  exact line0_v9 (W0 m ρ c)

/-- The projection region's two result arrays. -/
theorem W2_v10_0 (c : Dev nD) : W2 m ρ c (Proc.devRef .tc main_v10_0) = (dat0 (F := Ideal) (V1 m ρ) c).arrAt 7 cfg0.N :=
  W2_arr m ρ c 7
theorem W2_v10_1 (c : Dev nD) : W2 m ρ c (Proc.devRef .tc main_v10_1) = (dat0 (F := Ideal) (V1 m ρ) c).arrAt 8 cfg0.N :=
  W2_arr m ρ c 8

/-- The attention vector is an argument. -/
theorem W2_arg10 (c : Dev nD) : W2 m ρ c (Proc.devRef .tc main_arg10) = m ((c.tc : Thread nD τ).loc main_arg10) := by
  show W2 m ρ c (Proc.devRef .tc main_arg10) = W0 m ρ c (Proc.devRef .tc main_arg10)
  exit0_is_launch main_arg10

/-! ## After the four stretches that compute the degree normalisation -/

theorem W6_v7 (c : Dev nD) :
    W6 m ρ c (Proc.devRef .tc main_v7) = Cert.ReferenceIdeal.Stage.row (m ((c.tc : Thread nD τ).loc main_arg1)) := by
  rw [W6_eq]; refine Eq.trans ?_ (W2_v7 m ρ c); line_keeps
theorem W6_v9 (c : Dev nD) :
    W6 m ρ c (Proc.devRef .tc main_v9) = Cert.ReferenceIdeal.Stage.col (m ((c.tc : Thread nD τ).loc main_arg1)) := by
  rw [W6_eq]; refine Eq.trans ?_ (W2_v9 m ρ c); line_keeps
theorem W6_v10_0 (c : Dev nD) : W6 m ρ c (Proc.devRef .tc main_v10_0) = (dat0 (F := Ideal) (V1 m ρ) c).arrAt 7 cfg0.N := by
  rw [W6_eq]; refine Eq.trans ?_ (W2_v10_0 m ρ c); line_keeps
theorem W6_v10_1 (c : Dev nD) : W6 m ρ c (Proc.devRef .tc main_v10_1) = (dat0 (F := Ideal) (V1 m ρ) c).arrAt 8 cfg0.N := by
  rw [W6_eq]; refine Eq.trans ?_ (W2_v10_1 m ρ c); line_keeps
theorem W6_arg10 (c : Dev nD) : W6 m ρ c (Proc.devRef .tc main_arg10) = m ((c.tc : Thread nD τ).loc main_arg10) := by
  rw [W6_eq]; refine Eq.trans ?_ (W2_arg10 m ρ c); line_keeps
theorem W6_v26 (c : Dev nD) : W6 m ρ c (Proc.devRef .tc main_v26) = (Cert.ReferenceIdeal.Stage.dinv (F := Ideal) (Cert.ReferenceIdeal.Stage.degree (F := Ideal) (Cert.ReferenceIdeal.Stage.asColumn (Cert.ReferenceIdeal.Stage.wrap (Cert.ReferenceIdeal.Stage.col (m ((c.tc : Thread nD τ).loc main_arg1))))))) := by
  rw [W6_eq, lineA_v26, W2_v9 m ρ c]

/-! ## After the long stretch that gathers along the edges -/

theorem W7_v49 (c : Dev nD) :
    W7 m ρ c (Proc.devRef .tc main_v49)
      = Cert.ReferenceIdeal.Stage.alongEdges (F := Ideal) ((dat0 (F := Ideal) (V1 m ρ) c).arrAt 7 cfg0.N : FVec Ideal S50000x128 .f32) (Cert.ReferenceIdeal.Stage.row (m ((c.tc : Thread nD τ).loc main_arg1))) := by
  refine Eq.trans (lineB_v49 (W6 m ρ c)) ?_
  rw [W6_v10_0 m ρ c, W6_v7 m ρ c]
theorem W7_v56 (c : Dev nD) :
    W7 m ρ c (Proc.devRef .tc main_v56)
      = Cert.ReferenceIdeal.Stage.alongEdges (F := Ideal) ((dat0 (F := Ideal) (V1 m ρ) c).arrAt 8 cfg0.N : FVec Ideal S50000x128 .f32) (Cert.ReferenceIdeal.Stage.row (m ((c.tc : Thread nD τ).loc main_arg1))) := by
  refine Eq.trans (lineB_v56 (W6 m ρ c)) ?_
  rw [W6_v10_1 m ρ c, W6_v7 m ρ c]
theorem W7_v42 (c : Dev nD) :
    W7 m ρ c (Proc.devRef .tc main_v42)
      = weightCol (F := Ideal) (Cert.ReferenceIdeal.Stage.weight (F := Ideal) (Cert.ReferenceIdeal.Stage.dinv (F := Ideal) (Cert.ReferenceIdeal.Stage.degree (F := Ideal) (Cert.ReferenceIdeal.Stage.asColumn (Cert.ReferenceIdeal.Stage.wrap (Cert.ReferenceIdeal.Stage.col (m ((c.tc : Thread nD τ).loc main_arg1))))))) (Cert.ReferenceIdeal.Stage.row (m ((c.tc : Thread nD τ).loc main_arg1))) (Cert.ReferenceIdeal.Stage.col (m ((c.tc : Thread nD τ).loc main_arg1)))) := by
  refine Eq.trans (lineB_v42 (W6 m ρ c)) ?_
  rw [W6_v26 m ρ c, W6_v7 m ρ c, W6_v9 m ρ c]
theorem W7_c_14 (c : Dev nD) : W7 m ρ c (Proc.devRef .tc main_c_14) = constantI S_ 32 0#32 :=
  lineB_c_14 (W6 m ρ c)
theorem W7_v9 (c : Dev nD) : W7 m ρ c (Proc.devRef .tc main_v9) = Cert.ReferenceIdeal.Stage.col (m ((c.tc : Thread nD τ).loc main_arg1)) := by
  refine Eq.trans ?_ (W6_v9 m ρ c); line_keeps
theorem W7_arg10 (c : Dev nD) : W7 m ρ c (Proc.devRef .tc main_arg10) = m ((c.tc : Thread nD τ).loc main_arg10) := by
  refine Eq.trans ?_ (W6_arg10 m ρ c); line_keeps

/-! ## The attention region's entry -/

/-- Its first input: the first projected feature read along the edges' sources, padded. -/
theorem V15_v57 (c : Dev nD) :
    V15 m ρ c main_v57 = padRows (F := Ideal) (Cert.ReferenceIdeal.Stage.alongEdges (F := Ideal) ((dat0 (F := Ideal) (V1 m ρ) c).arrAt 7 cfg0.N : FVec Ideal S50000x128 .f32) (Cert.ReferenceIdeal.Stage.row (m ((c.tc : Thread nD τ).loc main_arg1)))) := by
  show W15 m ρ c (Proc.devRef .tc main_v57) = _
  rw [W15_eq', lineC_v57 _ (W7_c_14 m ρ c), W7_v49 m ρ c]
/-- Its second input: the second projected feature likewise. -/
theorem V15_v58 (c : Dev nD) :
    V15 m ρ c main_v58 = padRows (F := Ideal) (Cert.ReferenceIdeal.Stage.alongEdges (F := Ideal) ((dat0 (F := Ideal) (V1 m ρ) c).arrAt 8 cfg0.N : FVec Ideal S50000x128 .f32) (Cert.ReferenceIdeal.Stage.row (m ((c.tc : Thread nD τ).loc main_arg1)))) := by
  show W15 m ρ c (Proc.devRef .tc main_v58) = _
  rw [W15_eq', lineC_v58, W7_v56 m ρ c]
/-- Its third input: the edge weights as a padded column; the degrees count the WRAPPED target ids. -/
theorem V15_v59 (c : Dev nD) :
    V15 m ρ c main_v59
      = padCol (F := Ideal) (weightCol (F := Ideal) (Cert.ReferenceIdeal.Stage.weight (F := Ideal) (Cert.ReferenceIdeal.Stage.dinv (F := Ideal) (Cert.ReferenceIdeal.Stage.degree (F := Ideal) (Cert.ReferenceIdeal.Stage.asColumn (Cert.ReferenceIdeal.Stage.wrap (Cert.ReferenceIdeal.Stage.col (m ((c.tc : Thread nD τ).loc main_arg1)))))))
          (Cert.ReferenceIdeal.Stage.row (m ((c.tc : Thread nD τ).loc main_arg1))) (Cert.ReferenceIdeal.Stage.col (m ((c.tc : Thread nD τ).loc main_arg1))))) := by
  show W15 m ρ c (Proc.devRef .tc main_v59) = _
  rw [W15_eq', lineC_v59, W7_v42 m ρ c]
set_option maxHeartbeats 1000000 in
theorem V15_arg8 (c : Dev nD) : V15 m ρ c main_arg8 = m ((c.tc : Thread nD τ).loc main_arg8) := by
  show W15 m ρ c (Proc.devRef .tc main_arg8) = W0 m ρ c (Proc.devRef .tc main_arg8)
  entry1_is_launch main_arg8
set_option maxHeartbeats 1000000 in
theorem V15_arg9 (c : Dev nD) : V15 m ρ c main_arg9 = m ((c.tc : Thread nD τ).loc main_arg9) := by
  show W15 m ρ c (Proc.devRef .tc main_arg9) = W0 m ρ c (Proc.devRef .tc main_arg9)
  entry1_is_launch main_arg9
/-- Its sixth input: the attention vector as a row. -/
theorem V15_v61 (c : Dev nD) : V15 m ρ c main_v61 = vRow (F := Ideal) (m ((c.tc : Thread nD τ).loc main_arg10)) := by
  show W15 m ρ c (Proc.devRef .tc main_v61) = _
  rw [W15_eq', lineC_v61, W7_arg10 m ρ c]

/-! ## What the stretch before the head region reads, at the attention region's exit -/

/-- The padded target ids: computed before the attention region, which leaves them alone. -/
theorem W16_v60 (c : Dev nD) :
    W16 m ρ c (Proc.devRef .tc main_v60) = padIds (Cert.ReferenceIdeal.Stage.col (m ((c.tc : Thread nD τ).loc main_arg1))) := by
  refine Eq.trans (W16_of_ne m ρ c main_v60 (by decide)) ?_
  rw [W15_eq', lineC_v60, W7_v9 m ρ c]

/-- The attention region's result array. -/
theorem W16_v62 (c : Dev nD) : W16 m ρ c (Proc.devRef .tc main_v62) = (dat1 (F := Ideal) (V15 m ρ) c).arrAt 6 cfg1.N :=
  W16_arr m ρ c 6

/-! ## The head region's entry -/

/-- Its first input: the attention region's result rows summed into the padded, wrapped targets. -/
theorem V17_v70 (c : Dev nD) :
    V17 m ρ c main_v70 = aggregateP (F := Ideal) (padIds (Cert.ReferenceIdeal.Stage.col (m ((c.tc : Thread nD τ).loc main_arg1)))) ((dat1 (F := Ideal) (V15 m ρ) c).arrAt 6 cfg1.N : FVec Ideal S851968x128 .f32) := by
  refine Eq.trans (line2_v70 (W16 m ρ c)) ?_
  rw [W16_v60 m ρ c, W16_v62 m ρ c]
set_option maxHeartbeats 1000000 in
theorem V17_arg11 (c : Dev nD) : V17 m ρ c main_arg11 = m ((c.tc : Thread nD τ).loc main_arg11) := by
  show W17 m ρ c (Proc.devRef .tc main_arg11) = W0 m ρ c (Proc.devRef .tc main_arg11)
  entry2_is_launch main_arg11
set_option maxHeartbeats 1000000 in
theorem V17_arg12 (c : Dev nD) : V17 m ρ c main_arg12 = m ((c.tc : Thread nD τ).loc main_arg12) := by
  show W17 m ρ c (Proc.devRef .tc main_arg12) = W0 m ρ c (Proc.devRef .tc main_arg12)
  entry2_is_launch main_arg12
set_option maxHeartbeats 1000000 in
theorem V17_arg13 (c : Dev nD) : V17 m ρ c main_arg13 = m ((c.tc : Thread nD τ).loc main_arg13) := by
  show W17 m ρ c (Proc.devRef .tc main_arg13) = W0 m ρ c (Proc.devRef .tc main_arg13)
  entry2_is_launch main_arg13
set_option maxHeartbeats 1000000 in
theorem V17_arg14 (c : Dev nD) : V17 m ρ c main_arg14 = m ((c.tc : Thread nD τ).loc main_arg14) := by
  show W17 m ρ c (Proc.devRef .tc main_arg14) = W0 m ρ c (Proc.devRef .tc main_arg14)
  entry2_is_launch main_arg14

/-! ## The program's result -/

theorem W18_v71 (c : Dev nD) : W18 m ρ c (Proc.devRef .tc main_v71) = ((dat2 (F := Ideal) (V17 m ρ) c).arrAt 5 cfg2.N : FVec Ideal S50000x2 .f32) :=
  W18_arr m ρ c 5

end Cert.KernelIdeal.Host

end
-- ==== Proof.LibDotRead.lean ====
/- A matrix product's contraction sum re-indexed by the contracted coordinate: for the product of an m x k by a
   k x n matrix, and for the product of the transpose of a k x m matrix by a k x n matrix. -/
import Idealize.ShloMosaic.Lib.ValueIdx
import Idealize.ShloMosaic.PureOps.Ideal.Laws

noncomputable section

open scoped BigOperators

namespace Cert.DotRead

open Idealize.ShloMosaic Idealize.ShloMosaic.ValueIdx

/-- Rows by columns: the contraction at (a, b) runs over A (a, c) * B (c, b). -/
theorem sum_contr_plain {m k n : Nat}
    (w : DotDims.WF ⟨2, ![m, k]⟩ ⟨2, ![k, n]⟩ ⟨2, ![m, n]⟩ [1] [0] [0] [1] [] [])
    (A : (⟨2, ![m, k]⟩ : Shape).Idx → EReal) (B : (⟨2, ![k, n]⟩ : Shape).Idx → EReal) (a : Fin m) (b : Fin n) :
    ∑ q : (⟨[1], [0], [0], [1], [], [], w⟩ : DotDims ⟨2, ![m, k]⟩ ⟨2, ![k, n]⟩ ⟨2, ![m, n]⟩).contr.Idx,
        A ((⟨[1], [0], [0], [1], [], [], w⟩ : DotDims ⟨2, ![m, k]⟩ ⟨2, ![k, n]⟩ ⟨2, ![m, n]⟩).lhsIdx (ix2 a b) q)
          * B ((⟨[1], [0], [0], [1], [], [], w⟩ : DotDims ⟨2, ![m, k]⟩ ⟨2, ![k, n]⟩ ⟨2, ![m, n]⟩).rhsIdx (ix2 a b) q)
      = ∑ c : Fin k, A (ix2 a c) * B (ix2 c b) := by
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The left operand transposed: the contraction at (a, b) runs over A (c, a) * B (c, b). -/
theorem sum_contr_lhsT {m k n : Nat}
    (w : DotDims.WF ⟨2, ![k, m]⟩ ⟨2, ![k, n]⟩ ⟨2, ![m, n]⟩ [0] [0] [1] [1] [] [])
    (A : (⟨2, ![k, m]⟩ : Shape).Idx → EReal) (B : (⟨2, ![k, n]⟩ : Shape).Idx → EReal) (a : Fin m) (b : Fin n) :
    ∑ q : (⟨[0], [0], [1], [1], [], [], w⟩ : DotDims ⟨2, ![k, m]⟩ ⟨2, ![k, n]⟩ ⟨2, ![m, n]⟩).contr.Idx,
        A ((⟨[0], [0], [1], [1], [], [], w⟩ : DotDims ⟨2, ![k, m]⟩ ⟨2, ![k, n]⟩ ⟨2, ![m, n]⟩).lhsIdx (ix2 a b) q)
          * B ((⟨[0], [0], [1], [1], [], [], w⟩ : DotDims ⟨2, ![k, m]⟩ ⟨2, ![k, n]⟩ ⟨2, ![m, n]⟩).rhsIdx (ix2 a b) q)
      = ∑ c : Fin k, A (ix2 c a) * B (ix2 c b) := by
  rw [← Equiv.sum_comp (contrEquiv1 (⟨[0], [0], [1], [1], [], [], w⟩ : DotDims ⟨2, ![k, m]⟩ ⟨2, ![k, n]⟩ ⟨2, ![m, n]⟩) k rfl rfl).symm]
  refine Finset.sum_congr rfl fun c _ => ?_
  have c2 := contrEquiv1_symm_val (⟨[0], [0], [1], [1], [], [], w⟩ : DotDims ⟨2, ![k, m]⟩ ⟨2, ![k, n]⟩ ⟨2, ![m, n]⟩) k rfl rfl c
  have l2 : (⟨[0], [0], [1], [1], [], [], w⟩ : DotDims ⟨2, ![k, m]⟩ ⟨2, ![k, n]⟩ ⟨2, ![m, n]⟩).lhsIdx (ix2 a b)
      ((contrEquiv1 _ k rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![k, m]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.DotRead

end
-- ==== Proof.LibMatProd.lean ====
/- The textbook product of an m x k by a k x n matrix over the extended reals, (A B)(a, b) = Σ_c A(a, c) · B(c, b), and
   the two operations that compute it exactly there: the host's dot_general over a rows-by-columns dimension record,
   and a matmul with that record into a zero accumulator. Also: a row block of the product is the product of the
   row block. -/
import Idealize.ShloMosaic.Lib.ValueIdx
import Idealize.ShloMosaic.PureOps.Ideal.Laws
import proofs.«118317_j46377056862932_1_alg».proof.Proof.LibDotRead

noncomputable section

open scoped BigOperators

namespace Cert.MatProd

open Idealize.ShloMosaic Idealize.ShloMosaic.ValueIdx

/-- The matrix product, entry by entry. -/
def matProd {m k n : Nat} (A : (⟨2, ![m, k]⟩ : Shape).Idx → EReal) (B : (⟨2, ![k, n]⟩ : Shape).Idx → EReal) :
    (⟨2, ![m, n]⟩ : Shape).Idx → EReal :=
  fun i => ∑ c : Fin k, A (ix2 (i 0) c) * B (ix2 c (i 1))

theorem matProd_ix2 {m k n : Nat} (A : (⟨2, ![m, k]⟩ : Shape).Idx → EReal) (B : (⟨2, ![k, n]⟩ : Shape).Idx → EReal)
    (a : Fin m) (b : Fin n) : matProd A B (ix2 a b) = ∑ c : Fin k, A (ix2 a c) * B (ix2 c b) := rfl

/-- The host's dot_general over a rows-by-columns record is the matrix product: its contraction sum, with no
    accumulator, re-indexed by the contracted coordinate. -/
theorem hostDot_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    Host.dotGeneral (⟨[1], [0], [0], [1], [], [], w⟩ : DotDims ⟨2, ![m, k]⟩ ⟨2, ![k, n]⟩ ⟨2, ![m, n]⟩) prec A B = matProd A B := by
  funext i
  obtain ⟨a, b, rfl⟩ : ∃ (a : Fin m) (b : Fin n), i = ix2 a b := ⟨i 0, i 1, eq_ix2 i⟩
  refine (Ideal.dotGeneral_apply _ prec _ A B (ix2 a b)).trans ?_
  exact Cert.DotRead.sum_contr_plain w A B a b

/-- A matmul over a rows-by-columns record into the zero accumulator is the matrix product: zero plus the contraction
    sum. -/
theorem matmulZero_eq {m k n : Nat}
    (w : DotDims.WF ⟨2, ![m, k]⟩ ⟨2, ![k, n]⟩ ⟨2, ![m, n]⟩ [1] [0] [0] [1] [] [])
    (prec : Option ContractPrecision)
    (A : FVec Ideal ⟨2, ![m, k]⟩ .f32) (B : FVec Ideal ⟨2, ![k, n]⟩ .f32) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) = matProd A B := by
  funext i
  obtain ⟨a, b, rfl⟩ : ∃ (a : Fin m) (b : Fin n), i = ix2 a b := ⟨i 0, i 1, eq_ix2 i⟩
  refine (Ideal.matmul_constant_zero_apply _ prec A B (ix2 a b)).trans ?_
  exact Cert.DotRead.sum_contr_plain w A B a b

end Cert.MatProd

end
-- ==== Proof.LibRowBlocks.lean ====
/- Two layout facts about matrices handled a block of rows at a time, over generic sizes.

   (1) The product of an [m, k] by a [k, n] matrix accumulated into zero, read at entry (a, b), is the sum over the contracted
       coordinate c of A (a, c) * B (c, b), whatever the operands' float formats (on the extended reals a format is no rounding).
   (2) Two [a, b] matrices laid side by side along the columns into [a, c]: an entry whose column falls in the first b columns
       reads the first matrix there, one whose column is b further reads the second. -/
import Idealize.ShloMosaic.Lib.ValueIdx
import Idealize.ShloMosaic.Lib.Pipeline.Value
import Idealize.ShloMosaic.PureOps.Ideal.Laws
import proofs.«118317_j46377056862932_1_alg».proof.Proof.LibDotRead

noncomputable section

open scoped BigOperators

namespace Cert.RowBlocks

open Idealize.ShloMosaic Idealize.ShloMosaic.ValueIdx

/-- A matmul over a rows-by-columns record into the zero accumulator, read at (a, b): the contraction sum re-indexed by
    the contracted coordinate. -/
theorem matmulZero_apply {m k n : Nat} {φ₁ φ₂ : FTy}
    (w : DotDims.WF ⟨2, ![m, k]⟩ ⟨2, ![k, n]⟩ ⟨2, ![m, n]⟩ [1] [0] [0] [1] [] [])
    (prec : Option ContractPrecision)
    (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
      (constant (F := Ideal) ⟨2, ![m, n]⟩ .f32 0x00000000#32) (ix2 a b) = ∑ c : Fin k, A (ix2 a c) * B (ix2 c b) :=
  (Ideal.matmul_constant_zero_apply _ prec A B (ix2 a b)).trans (Cert.DotRead.sum_contr_plain w A B a b)

variable {α : Type}

/-- Side by side along the columns: a column j of the first matrix. -/
theorem catCols_left {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val = q.val) :
    concatenate ⟨2, ![a, c]⟩ 1 [⟨⟨2, ![a, b]⟩, x⟩, ⟨⟨2, ![a, b]⟩, y⟩] h (ix2 p q) = x (ix2 p j) :=
  concatenate_pair_apply_left (t := ⟨2, ![a, c]⟩) (s₁ := ⟨2, ![a, b]⟩) (s₂ := ⟨2, ![a, b]⟩) (1 : Fin 2) x y h (ix2 p q) rfl (ix2 p j)
    (fun ax => by
      match ax with
      | ⟨0, _⟩ => rfl
      | ⟨1, _⟩ => exact hj)

/-- Side by side along the columns: a column j of the second matrix sits b columns further. -/
theorem catCols_right {a b c : Nat} (x y : (⟨2, ![a, b]⟩ : Shape).Idx → α)
    (h : Shape.Concatenates [(⟨2, ![a, b]⟩ : Shape), ⟨2, ![a, b]⟩] ⟨2, ![a, c]⟩ 1) (p : Fin a) (q : Fin c) (j : Fin b)
    (hj : j.val + b = q.val) :
    concatenate ⟨2, ![a, c]⟩ 1 [⟨⟨2, ![a, b]⟩, x⟩, ⟨⟨2, ![a, b]⟩, y⟩] h (ix2 p q) = y (ix2 p j) :=
  concatenate_pair_apply_right (t := ⟨2, ![a, c]⟩) (s₁ := ⟨2, ![a, b]⟩) (s₂ := ⟨2, ![a, b]⟩) (1 : Fin 2) x y h (ix2 p q) rfl rfl (ix2 p j)
    (fun ax hne => by
      match ax with
      | ⟨0, _⟩ => rfl
      | ⟨1, _⟩ => exact absurd rfl hne)
    (by show j.val + b = q.val; exact hj)

end Cert.RowBlocks

end
-- ==== Proof.LibBiasRow.lean ====
/- A vector of n entries laid along each of the m rows of a matrix, read at an entry: entry (a, j) of the matrix is
   entry j of the vector. Three spellings of the same layout: the vector cast to one row; that row broadcast down
   the rows (a kernel's `vector.shape_cast` then `vector.broadcast`); and the host's two steps, the vector broadcast
   along axis 1 into a one-row matrix, then that matrix broadcast along both axes. This is the bias of a dense layer
   added to every row of a product. -/
import Idealize.ShloMosaic.Lib.ValueIdx
import Idealize.ShloMosaic.Lib.Pipeline.Value
import Idealize.ShloMosaic.Lib.KernelVsHost

noncomputable section

namespace Cert.BiasRow

open Idealize.ShloMosaic Idealize.ShloMosaic.ValueIdx

variable {α : Type}

/-- The vector cast to a one-row matrix reads, at (0, j), the vector at j. -/
theorem oneRow_cast_apply {n : ℕ} (b : (⟨1, ![n]⟩ : Shape).Idx → α)
    (h1 : (⟨1, ![n]⟩ : Shape).ShapeCasts ⟨2, ![1, n]⟩) (j : Fin n) :
    shapeCast ⟨2, ![1, n]⟩ b h1 (ix2 (0 : Fin 1) j) = b (ix1 j) :=
  shapeCast_apply b h1 (ix2 (0 : Fin 1) j) (ix1 j) (by
    rw [Shape.rowMajor_val_two, Shape.rowMajor_val_one]
    show j.val = 0 * n + j.val
    omega)

/-- The kernel's spelling: the one-row cast broadcast down m rows reads, at (a, j), the vector at j. -/
theorem castRows_apply {m n : ℕ} (b : (⟨1, ![n]⟩ : Shape).Idx → α)
    (h1 : (⟨1, ![n]⟩ : Shape).ShapeCasts ⟨2, ![1, n]⟩) (hb : (⟨2, ![1, n]⟩ : Shape).Broadcasts ⟨2, ![m, n]⟩)
    (a : Fin m) (j : Fin n) :
    broadcastTo ⟨2, ![m, n]⟩ (shapeCast ⟨2, ![1, n]⟩ b h1) hb (ix2 a j) = b (ix1 j) := by
  refine (broadcastTo_apply (shapeCast ⟨2, ![1, n]⟩ b h1) hb (ix2 a j) (ix2 (0 : Fin 1) j) ?_).trans
    (oneRow_cast_apply b h1 j)
  intro ax
  match ax with
  | ⟨0, _⟩ => rfl
  | ⟨1, _⟩ =>
    show j.val = if n = 1 then 0 else j.val
    split
    · have := j.isLt; omega
    · rfl

/-- The host's spelling: the vector broadcast along axis 1 into one row, that row broadcast along both axes into
    m rows, reads, at (a, j), the vector at j. -/
theorem inDimRows_apply {m n : ℕ} (b : (⟨1, ![n]⟩ : Shape).Idx → α)
    (hd1 : (⟨1, ![n]⟩ : Shape).BroadcastsInDim ⟨2, ![1, n]⟩ ![1])
    (hd2 : (⟨2, ![1, n]⟩ : Shape).BroadcastsInDim ⟨2, ![m, n]⟩ ![0, 1]) (a : Fin m) (j : Fin n) :
    broadcastInDim ⟨2, ![m, n]⟩ ![0, 1] hd2 (broadcastInDim ⟨2, ![1, n]⟩ ![1] hd1 b) (ix2 a j) = b (ix1 j) := by
  refine (broadcastInDim_oneRow_apply hd2 _ a j).trans ?_
  refine broadcastInDim_apply ![1] hd1 b (ix2 (0 : Fin 1) j) (ix1 j) ?_
  intro ax
  match ax with
  | ⟨0, _⟩ =>
    show j.val = if n = 1 then 0 else j.val
    split
    · have := j.isLt; omega
    · rfl

end Cert.BiasRow

end
-- ==== Proof.KRegion0.lean ====
/- The projection region's two result arrays are the reference's projected node features. -/
import proofs.«118317_j46377056862932_1_alg».proof.Proof.Gen.KernelIdeal.Frame
import proofs.«118317_j46377056862932_1_alg».proof.Proof.Stages
import proofs.«118317_j46377056862932_1_alg».proof.Proof.LibMatProd
import proofs.«118317_j46377056862932_1_alg».proof.Proof.LibRowBlocks
import proofs.«118317_j46377056862932_1_alg».proof.Proof.LibBiasRow

noncomputable section

namespace Cert.KernelIdeal.Region0

open Idealize.ShloMosaic Idealize.ShloMosaic.TcCoe Idealize.SL.Sem Idealize.ShloMosaic.ValueIdx
open Cert.KernelIdeal Cert.KernelIdeal.Gen
open scoped BigOperators

/-! ## One row of the projection, as a formula over the extended reals -/

/-- The leaky rectifier on one extended real: v where v ≥ 0, else the literal slope times v. -/
def leak (v : EReal) : EReal :=
  Scalar.select (FloatOps.cmpf (F := Ideal) .oge v (Ideal.ofBits .f32 0x00000000#32)) v (Ideal.ofBits .f32 0x3C23D70A#32 * v)

/-- One entry of a projected feature row: the hidden row is leak (x_r · W_in + b_in); the columns `sel` of it go
    through W (64 × 128) and b is added. It depends on row r of x only. -/
def projRow (xr : Fin 256 → EReal) (W : (⟨2, ![256, 128]⟩ : Shape).Idx → EReal) (b : (⟨1, ![128]⟩ : Shape).Idx → EReal)
    (sel : Fin 64 → Fin 128) (W2 : (⟨2, ![64, 128]⟩ : Shape).Idx → EReal) (b2 : (⟨1, ![128]⟩ : Shape).Idx → EReal)
    (q : Fin 128) : EReal :=
  (∑ c : Fin 64, leak ((∑ k : Fin 256, xr k * W (ix2 k (sel c))) + b (ix1 (sel c))) * W2 (ix2 c q)) + b2 (ix1 q)

/-- The left half's columns. -/
def lo (c : Fin 64) : Fin 128 := ⟨c.val, by omega⟩
/-- The right half's columns. -/
def hi (c : Fin 64) : Fin 128 := ⟨c.val + 64, by omega⟩

/-- A slice of 64 columns starting at column `off`, read at an entry. -/
theorem sliceCols_apply {n : Nat} (off : Nat) (h : (⟨2, ![n, 128]⟩ : Shape).Idx → EReal)
    (hs : (⟨2, ![n, 128]⟩ : Shape).Slices ![0, off] ⟨2, ![n, 64]⟩) (p : Fin n) (c : Fin 64) (d : Fin 128)
    (hd : d.val = off + c.val) :
    extractStridedSlice ⟨2, ![n, 64]⟩ ![0, off] h hs (ix2 p c) = h (ix2 p d) :=
  extractStridedSlice_apply ![0, off] h hs (ix2 p c) (ix2 p d) (fun a => by
    match a with
    | ⟨0, _⟩ => show p.val = 0 + p.val; omega
    | ⟨1, _⟩ => exact hd)

/-! ## The kernel's block payloads at an entry -/

/-- The hidden block at an entry: leak of the row's product with W_in plus the bias. -/
theorem hiddenBlock_apply (x0 : Vec Ideal S5000x256 .f32) (W : Vec Ideal S256x128 .f32) (b : Vec Ideal S128 .f32)
    (p : Fin 5000) (j : Fin 128) :
    k0_pay1 (F := Ideal) x0 W b (ix2 p j) = leak ((∑ k : Fin 256, x0 (ix2 p k) * W (ix2 k j)) + b (ix1 j)) := by
  have e1 := Cert.RowBlocks.matmulZero_apply (dot_S5000x256_S256x128_S5000x128_1_0_0_1_n_n).wf none
    (truncf .bf16 x0 bitsLt_bf16_f32 : FVec Ideal S5000x256 .bf16) (truncf .bf16 W bitsLt_bf16_f32 : FVec Ideal S256x128 .bf16) p j
  have e2 := Cert.BiasRow.castRows_apply (m := 5000) b shapeCasts_S128_S1x128 broadcasts_S1x128_S5000x128 p j
  unfold k0_pay1
  exact congrArg leak (congrArg₂ (· + ·) e1 e2)

/-- The first result's block at an entry, as the row formula over the left half. -/
theorem xnorBlock_apply (x0 : Vec Ideal S5000x256 .f32) (W : Vec Ideal S256x128 .f32) (b : Vec Ideal S128 .f32)
    (W2 : Vec Ideal S64x128 .f32) (b2 : Vec Ideal S128 .f32) (p : Fin 5000) (q : Fin 128) :
    k0_pay2 (F := Ideal) x0 W b W2 b2 (ix2 p q) = projRow (fun k => x0 (ix2 p k)) W b lo W2 b2 q := by
  have e1 := Cert.RowBlocks.matmulZero_apply (dot_S5000x64_S64x128_S5000x128_1_0_0_1_n_n).wf none
    (truncf .bf16 (extractStridedSlice S5000x64 ![0, 0] (k0_pay1 (F := Ideal) x0 W b) slices_S5000x128_o0_0_S5000x64) bitsLt_bf16_f32 : FVec Ideal S5000x64 .bf16)
    (truncf .bf16 W2 bitsLt_bf16_f32 : FVec Ideal S64x128 .bf16) p q
  have e2 := Cert.BiasRow.castRows_apply (m := 5000) b2 shapeCasts_S128_S1x128 broadcasts_S1x128_S5000x128 p q
  have e3 : ∀ c : Fin 64, (extractStridedSlice S5000x64 ![0, 0] (k0_pay1 (F := Ideal) x0 W b) slices_S5000x128_o0_0_S5000x64) (ix2 p c)
      = leak ((∑ k : Fin 256, x0 (ix2 p k) * W (ix2 k (lo c))) + b (ix1 (lo c))) := fun c =>
    (sliceCols_apply 0 (k0_pay1 (F := Ideal) x0 W b) slices_S5000x128_o0_0_S5000x64 p c (lo c) (by show c.val = 0 + c.val; omega)).trans
      (hiddenBlock_apply x0 W b p (lo c))
  unfold k0_pay2
  refine (congrArg₂ (· + ·) e1 e2).trans ?_
  unfold projRow
  exact congrArg (· + b2 (ix1 q)) (Finset.sum_congr rfl fun c _ => congrArg (· * W2 (ix2 c q)) (e3 c))

/-- The second result's block at an entry, as the row formula over the right half. -/
theorem xabnorBlock_apply (x0 : Vec Ideal S5000x256 .f32) (W : Vec Ideal S256x128 .f32) (b : Vec Ideal S128 .f32)
    (W2 : Vec Ideal S64x128 .f32) (b2 : Vec Ideal S128 .f32) (p : Fin 5000) (q : Fin 128) :
    k0_pay3 (F := Ideal) x0 W b W2 b2 (ix2 p q) = projRow (fun k => x0 (ix2 p k)) W b hi W2 b2 q := by
  have e1 := Cert.RowBlocks.matmulZero_apply (dot_S5000x64_S64x128_S5000x128_1_0_0_1_n_n).wf none
    (truncf .bf16 (extractStridedSlice S5000x64 ![0, 64] (k0_pay1 (F := Ideal) x0 W b) slices_S5000x128_o0_64_S5000x64) bitsLt_bf16_f32 : FVec Ideal S5000x64 .bf16)
    (truncf .bf16 W2 bitsLt_bf16_f32 : FVec Ideal S64x128 .bf16) p q
  have e2 := Cert.BiasRow.castRows_apply (m := 5000) b2 shapeCasts_S128_S1x128 broadcasts_S1x128_S5000x128 p q
  have e3 : ∀ c : Fin 64, (extractStridedSlice S5000x64 ![0, 64] (k0_pay1 (F := Ideal) x0 W b) slices_S5000x128_o0_64_S5000x64) (ix2 p c)
      = leak ((∑ k : Fin 256, x0 (ix2 p k) * W (ix2 k (hi c))) + b (ix1 (hi c))) := fun c =>
    (sliceCols_apply 64 (k0_pay1 (F := Ideal) x0 W b) slices_S5000x128_o0_64_S5000x64 p c (hi c) (by show c.val + 64 = 64 + c.val; omega)).trans
      (hiddenBlock_apply x0 W b p (hi c))
  unfold k0_pay3
  refine (congrArg₂ (· + ·) e1 e2).trans ?_
  unfold projRow
  exact congrArg (· + b2 (ix1 q)) (Finset.sum_congr rfl fun c _ => congrArg (· * W2 (ix2 c q)) (e3 c))

/-! ## The reference's stages at an entry -/

/-- The hidden features at an entry. -/
theorem hidden_apply (X : FVec Ideal S50000x256 .f32) (W : FVec Ideal S256x128 .f32) (b : FVec Ideal S128 .f32)
    (r : Fin 50000) (j : Fin 128) :
    Cert.ReferenceIdeal.Stage.hidden (F := Ideal) X W b (ix2 r j)
      = leak ((∑ k : Fin 256, X (ix2 r k) * W (ix2 k j)) + b (ix1 j)) := by
  have e1 : Host.dotGeneral (F := Ideal) Cert.ReferenceIdeal.dot_S50000x256_S256x128_S50000x128_1_0_0_1_n_n none X W (ix2 r j)
      = ∑ k : Fin 256, X (ix2 r k) * W (ix2 k j) :=
    congrFun (Cert.MatProd.hostDot_eq (Cert.ReferenceIdeal.dot_S50000x256_S256x128_S50000x128_1_0_0_1_n_n).wf none X W) (ix2 r j)
  have e2 := Cert.BiasRow.inDimRows_apply (m := 50000) b Cert.ReferenceIdeal.Facts₀.bcast_S128_S1x128_1 Cert.ReferenceIdeal.Facts₀.bcast_S1x128_S50000x128_0_1 r j
  unfold Cert.ReferenceIdeal.Stage.hidden Cert.ReferenceIdeal.Stage.leaky Cert.ReferenceIdeal.Stage.biasRows
  exact congrArg leak (congrArg₂ (· + ·) e1 e2)

/-- A projected feature at an entry, the half taken at column offset `off`. -/
theorem proj_apply (off : Nat) (sel : Fin 64 → Fin 128) (hsel : ∀ c, (sel c).val = off + c.val)
    (hs : Cert.ReferenceIdeal.S50000x128.Slices ![0, off] Cert.ReferenceIdeal.S50000x64)
    (X : FVec Ideal S50000x256 .f32) (W : FVec Ideal S256x128 .f32) (b : FVec Ideal S128 .f32)
    (W2 : FVec Ideal S64x128 .f32) (b2 : FVec Ideal S128 .f32) (r : Fin 50000) (q : Fin 128) :
    addf (Host.dotGeneral (F := Ideal) Cert.ReferenceIdeal.dot_S50000x64_S64x128_S50000x128_1_0_0_1_n_n none
        (extractStridedSlice Cert.ReferenceIdeal.S50000x64 ![0, off] (Cert.ReferenceIdeal.Stage.hidden (F := Ideal) X W b) hs) W2)
      (Cert.ReferenceIdeal.Stage.biasRows (F := Ideal) b2) (ix2 r q)
      = projRow (fun k => X (ix2 r k)) W b sel W2 b2 q := by
  have e1 : Host.dotGeneral (F := Ideal) Cert.ReferenceIdeal.dot_S50000x64_S64x128_S50000x128_1_0_0_1_n_n none
        (extractStridedSlice Cert.ReferenceIdeal.S50000x64 ![0, off] (Cert.ReferenceIdeal.Stage.hidden (F := Ideal) X W b) hs) W2 (ix2 r q)
      = ∑ c : Fin 64, (extractStridedSlice Cert.ReferenceIdeal.S50000x64 ![0, off] (Cert.ReferenceIdeal.Stage.hidden (F := Ideal) X W b) hs) (ix2 r c) * W2 (ix2 c q) :=
    congrFun (Cert.MatProd.hostDot_eq (Cert.ReferenceIdeal.dot_S50000x64_S64x128_S50000x128_1_0_0_1_n_n).wf none _ W2) (ix2 r q)
  have e2 := Cert.BiasRow.inDimRows_apply (m := 50000) b2 Cert.ReferenceIdeal.Facts₀.bcast_S128_S1x128_1 Cert.ReferenceIdeal.Facts₀.bcast_S1x128_S50000x128_0_1 r q
  have e3 : ∀ c : Fin 64, (extractStridedSlice Cert.ReferenceIdeal.S50000x64 ![0, off] (Cert.ReferenceIdeal.Stage.hidden (F := Ideal) X W b) hs) (ix2 r c)
      = leak ((∑ k : Fin 256, X (ix2 r k) * W (ix2 k (sel c))) + b (ix1 (sel c))) := fun c =>
    (sliceCols_apply off (Cert.ReferenceIdeal.Stage.hidden (F := Ideal) X W b) hs r c (sel c) (hsel c)).trans
      (hidden_apply X W b r (sel c))
  unfold Cert.ReferenceIdeal.Stage.biasRows
  refine (congrArg₂ (· + ·) e1 e2).trans ?_
  unfold projRow
  exact congrArg (· + b2 (ix1 q)) (Finset.sum_congr rfl fun c _ => congrArg (· * W2 (ix2 c q)) (e3 c))

theorem xnor_apply (X : FVec Ideal S50000x256 .f32) (W : FVec Ideal S256x128 .f32) (b : FVec Ideal S128 .f32)
    (W2 : FVec Ideal S64x128 .f32) (b2 : FVec Ideal S128 .f32) (r : Fin 50000) (q : Fin 128) :
    Cert.ReferenceIdeal.Stage.xnor (F := Ideal) (Cert.ReferenceIdeal.Stage.hidden (F := Ideal) X W b) W2 b2 (ix2 r q)
      = projRow (fun k => X (ix2 r k)) W b lo W2 b2 q := by
  unfold Cert.ReferenceIdeal.Stage.xnor
  exact proj_apply 0 lo (fun c => by show c.val = 0 + c.val; omega) _ X W b W2 b2 r q

theorem xabnor_apply (X : FVec Ideal S50000x256 .f32) (W : FVec Ideal S256x128 .f32) (b : FVec Ideal S128 .f32)
    (W2 : FVec Ideal S64x128 .f32) (b2 : FVec Ideal S128 .f32) (r : Fin 50000) (q : Fin 128) :
    Cert.ReferenceIdeal.Stage.xabnor (F := Ideal) (Cert.ReferenceIdeal.Stage.hidden (F := Ideal) X W b) W2 b2 (ix2 r q)
      = projRow (fun k => X (ix2 r k)) W b hi W2 b2 q := by
  unfold Cert.ReferenceIdeal.Stage.xabnor
  exact proj_apply 64 hi (fun c => by show c.val + 64 = 64 + c.val; omega) _ X W b W2 b2 r q

theorem projRow_congr {xr xr' : Fin 256 → EReal} {W W' : (⟨2, ![256, 128]⟩ : Shape).Idx → EReal}
    {b b' : (⟨1, ![128]⟩ : Shape).Idx → EReal} {W2 W2' : (⟨2, ![64, 128]⟩ : Shape).Idx → EReal}
    {b2 b2' : (⟨1, ![128]⟩ : Shape).Idx → EReal} (sel : Fin 64 → Fin 128) (q : Fin 128)
    (h0 : xr = xr') (h1 : W = W') (h2 : b = b') (h3 : W2 = W2') (h4 : b2 = b2') :
    projRow xr W b sel W2 b2 q = projRow xr' W' b' sel W2' b2' q := by
  subst h0 h1 h2 h3 h4; rfl

/-! ## The windows' blocks as parts of their arrays -/

variable (V : (c : Dev nD) → (b : Ref sig .tc) → Buf (Elt Ideal) ((c : Thread nD τ).loc b))

theorem hz : (![0, 0] : Fin 2 → Nat) = fun _ => 0 := funext fun a => by fin_cases a <;> rfl
theorem hz1 : (![0] : Fin 1 → Nat) = fun _ => 0 := funext fun a => by fin_cases a; rfl

/-- The printed index maps over the ten grid points: the node-feature window and the two result windows sit at row
    block t; every weight and bias window is its whole array. -/
theorem index_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ win0_2.index t (0 : Fin 1) = 0
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- Row p of the node-feature block at point t is row 5000 t + p of the node features. -/
theorem xBlock_apply (c : Dev nD) (t : Fin cfg0.N) (p : Fin 5000) (k : Fin 256) (r : Fin 50000)
    (hr : r.val = t.val * 5000 + p.val) :
    (iblk0 V c 0 t : Vec Ideal S5000x256 .f32) (ix2 p k) = (V c main_arg0 : FVec Ideal S50000x256 .f32) (ix2 r k) := by
  obtain ⟨⟨e0, e1⟩, -⟩ := index_facts t
  unfold iblk0
  rw [View.read_apply]
  show V c main_arg0 (((cfg0.win 0).blk t).view.emb (ix2 p k)) = V c main_arg0 (ix2 r k)
  refine congrArg (V c main_arg0) (funext fun a => Fin.ext ?_)
  match a with
  | ⟨0, _⟩ => show win0_0.index t (0 : Fin 2) * 5000 + 1 * p.val = r.val; omega
  | ⟨1, _⟩ => show win0_0.index t (1 : Fin 2) * 256 + 1 * k.val = k.val; omega

/-- The W_in window's block is the whole array at every point. -/
theorem winBlock_eq (c : Dev nD) (t : Fin cfg0.N) :
    (iblk0 V c 1 t : Vec Ideal S256x128 .f32) = (V c main_arg2 : FVec Ideal S256x128 .f32) := by
  obtain ⟨-, ⟨e0, e1⟩, -⟩ := index_facts t
  funext y
  unfold iblk0
  rw [View.read_apply]
  show V c main_arg2 (((cfg0.win 1).blk t).view.emb y) = V c main_arg2 y
  refine congrArg (V c main_arg2) (funext fun a => Fin.ext ?_)
  match a with
  | ⟨0, _⟩ => show win0_1.index t (0 : Fin 2) * 256 + 1 * (y 0).val = (y 0).val; omega
  | ⟨1, _⟩ => show win0_1.index t (1 : Fin 2) * 128 + 1 * (y 1).val = (y 1).val; omega

/-- The b_in window's block is the whole array at every point. -/
theorem binBlock_eq (c : Dev nD) (t : Fin cfg0.N) :
    (iblk0 V c 2 t : Vec Ideal S128 .f32) = (V c main_arg3 : FVec Ideal S128 .f32) := by
  obtain ⟨-, -, e2, ⟨e30, e31⟩, e4, ⟨e50, e51⟩, e6, -⟩ := index_facts t
  funext y
  unfold iblk0
  rw [View.read_apply]
  show V c main_arg3 (((cfg0.win 2).blk t).view.emb y) = V c main_arg3 y
  refine congrArg (V c main_arg3) (funext fun a => Fin.ext ?_)
  match a with
  | ⟨0, _⟩ => show win0_2.index t (0 : Fin 1) * 128 + 1 * (y 0).val = (y 0).val; omega

/-- The W_nor window's block is the whole array at every point. -/
theorem wnorBlock_eq (c : Dev nD) (t : Fin cfg0.N) :
    (iblk0 V c 3 t : Vec Ideal S64x128 .f32) = (V c main_arg4 : FVec Ideal S64x128 .f32) := by
  obtain ⟨-, -, e2, ⟨e30, e31⟩, e4, ⟨e50, e51⟩, e6, -⟩ := index_facts t
  funext y
  unfold iblk0
  rw [View.read_apply]
  show V c main_arg4 (((cfg0.win 3).blk t).view.emb y) = V c main_arg4 y
  refine congrArg (V c main_arg4) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

/-- The b_nor window's block is the whole array at every point. -/
theorem bnorBlock_eq (c : Dev nD) (t : Fin cfg0.N) :
    (iblk0 V c 4 t : Vec Ideal S128 .f32) = (V c main_arg5 : FVec Ideal S128 .f32) := by
  obtain ⟨-, -, e2, ⟨e30, e31⟩, e4, ⟨e50, e51⟩, e6, -⟩ := index_facts t
  funext y
  unfold iblk0
  rw [View.read_apply]
  show V c main_arg5 (((cfg0.win 4).blk t).view.emb y) = V c main_arg5 y
  refine congrArg (V c main_arg5) (funext fun a => Fin.ext ?_)
  match a with
  | ⟨0, _⟩ => show win0_4.index t (0 : Fin 1) * 128 + 1 * (y 0).val = (y 0).val; omega

/-- The W_abnor window's block is the whole array at every point. -/
theorem wabnorBlock_eq (c : Dev nD) (t : Fin cfg0.N) :
    (iblk0 V c 5 t : Vec Ideal S64x128 .f32) = (V c main_arg6 : FVec Ideal S64x128 .f32) := by
  obtain ⟨-, -, e2, ⟨e30, e31⟩, e4, ⟨e50, e51⟩, e6, -⟩ := index_facts t
  funext y
  unfold iblk0
  rw [View.read_apply]
  show V c main_arg6 (((cfg0.win 5).blk t).view.emb y) = V c main_arg6 y
  refine congrArg (V c main_arg6) (funext fun a => Fin.ext ?_)
  match a with
  | ⟨0, _⟩ => show win0_5.index t (0 : Fin 2) * 64 + 1 * (y 0).val = (y 0).val; omega
  | ⟨1, _⟩ => show win0_5.index t (1 : Fin 2) * 128 + 1 * (y 1).val = (y 1).val; omega

/-- The b_abnor window's block is the whole array at every point. -/
theorem babnorBlock_eq (c : Dev nD) (t : Fin cfg0.N) :
    (iblk0 V c 6 t : Vec Ideal S128 .f32) = (V c main_arg7 : FVec Ideal S128 .f32) := by
  obtain ⟨-, -, e2, ⟨e30, e31⟩, e4, ⟨e50, e51⟩, e6, -⟩ := index_facts t
  funext y
  unfold iblk0
  rw [View.read_apply]
  show V c main_arg7 (((cfg0.win 6).blk t).view.emb y) = V c main_arg7 y
  refine congrArg (V c main_arg7) (funext fun a => Fin.ext ?_)
  match a with
  | ⟨0, _⟩ => show win0_6.index t (0 : Fin 1) * 128 + 1 * (y 0).val = (y 0).val; omega

/-- A row of the first result's block at point t is that row of the reference's xnor: both are the row formula of row 5000 t + p of the node features. -/
theorem xnorFlush_apply (c : Dev nD) (t : Fin cfg0.N) (p : Fin 5000) (q : Fin 128) (r : Fin 50000)
    (hr : r.val = t.val * 5000 + p.val) :
    k0_pay2 (F := Ideal) (iblk0 V c 0 t) (iblk0 V c 1 t) (iblk0 V c 2 t) (iblk0 V c 3 t) (iblk0 V c 4 t) (ix2 p q)
      = Cert.ReferenceIdeal.Stage.xnor (F := Ideal)
          (Cert.ReferenceIdeal.Stage.hidden (F := Ideal) (V c main_arg0) (V c main_arg2) (V c main_arg3)) (V c main_arg4) (V c main_arg5) (ix2 r q) :=
  (xnorBlock_apply (iblk0 V c 0 t) (iblk0 V c 1 t) (iblk0 V c 2 t) (iblk0 V c 3 t) (iblk0 V c 4 t) p q).trans
    ((projRow_congr _ q (funext fun k => xBlock_apply V c t p k r hr) (winBlock_eq V c t) (binBlock_eq V c t)
        (wnorBlock_eq V c t) (bnorBlock_eq V c t)).trans
      (xnor_apply (V c main_arg0) (V c main_arg2) (V c main_arg3) (V c main_arg4) (V c main_arg5) r q).symm)

/-- What point t writes back into result window 7 is block t of the reference's xnor. -/
theorem xnorFlushed_eq (c : Dev nD) (t : Fin cfg0.N) :
    (dat0 (F := Ideal) V c).flushed 7 t = ((cfg0.win 7).blk t).view.read (Elt Ideal)
      (Cert.ReferenceIdeal.Stage.xnor (F := Ideal)
          (Cert.ReferenceIdeal.Stage.hidden (F := Ideal) (V c main_arg0) (V c main_arg2) (V c main_arg3)) (V c main_arg4) (V c main_arg5)) := by
  show (cfg0.win 7).cut (grid0.coords t) ((dat0 (F := Ideal) V c).after 7 t) = _
  rw [after0_7]
  unfold out0_7
  rw [View.canon_unit_zero hz]
  simp only [View.ld_unit_zero (S := S5000x256) hz, View.ld_unit_zero (S := S256x128) hz, View.ld_unit_zero (S := S128) hz1,
    View.ld_unit_zero (S := S64x128) hz]
  obtain ⟨-, -, -, -, -, -, -, ⟨e70, e71⟩, ⟨e80, e81⟩⟩ := index_facts t
  have hN : cfg0.N = 10 := N_0
  funext j
  have hp : ((j : S5000x128.Idx) 0).val < 5000 := ((j : S5000x128.Idx) 0).isLt
  have ht : t.val < 10 := hN ▸ t.isLt
  obtain ⟨r, hr⟩ : ∃ r : Fin 50000, r.val = t.val * 5000 + ((j : S5000x128.Idx) 0).val := ⟨⟨t.val * 5000 + ((j : S5000x128.Idx) 0).val, by omega⟩, rfl⟩
  have hemb : ((cfg0.win 7).blk t).view.emb j = (ix2 r ((j : S5000x128.Idx) 1) : S50000x128.Idx) := by
    funext a; apply Fin.ext
    match a with
    | ⟨0, _⟩ => show win0_7.index t (0 : Fin 2) * 5000 + 1 * ((j : S5000x128.Idx) 0).val = r.val; omega
    | ⟨1, _⟩ => show win0_7.index t (1 : Fin 2) * 128 + 1 * ((j : S5000x128.Idx) 1).val = ((j : S5000x128.Idx) 1).val; omega
  show k0_pay2 (F := Ideal) (iblk0 V c 0 t) (iblk0 V c 1 t) (iblk0 V c 2 t) (iblk0 V c 3 t) (iblk0 V c 4 t) j
    = Cert.ReferenceIdeal.Stage.xnor (F := Ideal)
          (Cert.ReferenceIdeal.Stage.hidden (F := Ideal) (V c main_arg0) (V c main_arg2) (V c main_arg3)) (V c main_arg4) (V c main_arg5)
        (((cfg0.win 7).blk t).view.emb j)
  rw [hemb]
  exact (congrArg (k0_pay2 (F := Ideal) (iblk0 V c 0 t) (iblk0 V c 1 t) (iblk0 V c 2 t) (iblk0 V c 3 t) (iblk0 V c 4 t)) (eq_ix2 j)).trans
    (xnorFlush_apply V c t _ _ r hr)

/-- An index of the result array is in point t's block of window 7 iff each coordinate is in the block's range. -/
theorem xnor_mem_blk (t : Fin cfg0.N) (i : S50000x128.Idx) :
    i ∈ ((cfg0.win 7).blk t).view.set ↔ ∀ a : Fin 2, win0_7.index t a * S5000x128.size a ≤ (i a).val
      ∧ (i a).val < win0_7.index t a * S5000x128.size a + S5000x128.size a := by
  show i ∈ ((View.whole main_v10_0).slice (win0_7.rect t)).set ↔ _
  rw [View.set_slice_whole, Rect.mem_set_unit]
  exact Iff.rfl

/-- Row r of the result array is written back by point r / 5000. -/
theorem xnor_cover (i : S50000x128.Idx) :
    ∃ t : Fin cfg0.N, (cfg0.win 7).flush t = true ∧ i ∈ ((cfg0.win 7).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, ⟨e70, e71⟩, ⟨e80, e81⟩⟩ := index_facts t
  refine ⟨t, flush0_7 t, ?_⟩
  rw [xnor_mem_blk]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 128 ≤ (i 1).val ∧ (i 1).val < win0_7.index t (1 : Fin 2) * 128 + 128; omega

/-- A row of the second result's block at point t is that row of the reference's xabnor. -/
theorem xabnorFlush_apply (c : Dev nD) (t : Fin cfg0.N) (p : Fin 5000) (q : Fin 128) (r : Fin 50000)
    (hr : r.val = t.val * 5000 + p.val) :
    k0_pay3 (F := Ideal) (iblk0 V c 0 t) (iblk0 V c 1 t) (iblk0 V c 2 t) (iblk0 V c 5 t) (iblk0 V c 6 t) (ix2 p q)
      = Cert.ReferenceIdeal.Stage.xabnor (F := Ideal)
          (Cert.ReferenceIdeal.Stage.hidden (F := Ideal) (V c main_arg0) (V c main_arg2) (V c main_arg3)) (V c main_arg6) (V c main_arg7) (ix2 r q) :=
  (xabnorBlock_apply (iblk0 V c 0 t) (iblk0 V c 1 t) (iblk0 V c 2 t) (iblk0 V c 5 t) (iblk0 V c 6 t) p q).trans
    ((projRow_congr _ q (funext fun k => xBlock_apply V c t p k r hr) (winBlock_eq V c t) (binBlock_eq V c t)
        (wabnorBlock_eq V c t) (babnorBlock_eq V c t)).trans
      (xabnor_apply (V c main_arg0) (V c main_arg2) (V c main_arg3) (V c main_arg6) (V c main_arg7) r q).symm)

/-- What point t writes back into result window 8 is block t of the reference's xabnor. -/
theorem xabnorFlushed_eq (c : Dev nD) (t : Fin cfg0.N) :
    (dat0 (F := Ideal) V c).flushed 8 t = ((cfg0.win 8).blk t).view.read (Elt Ideal)
      (Cert.ReferenceIdeal.Stage.xabnor (F := Ideal)
          (Cert.ReferenceIdeal.Stage.hidden (F := Ideal) (V c main_arg0) (V c main_arg2) (V c main_arg3)) (V c main_arg6) (V c main_arg7)) := by
  show (cfg0.win 8).cut (grid0.coords t) ((dat0 (F := Ideal) V c).after 8 t) = _
  rw [after0_8]
  unfold out0_8
  rw [View.canon_unit_zero hz]
  simp only [View.ld_unit_zero (S := S5000x256) hz, View.ld_unit_zero (S := S256x128) hz, View.ld_unit_zero (S := S128) hz1,
    View.ld_unit_zero (S := S64x128) hz]
  obtain ⟨-, -, -, -, -, -, -, ⟨e70, e71⟩, ⟨e80, e81⟩⟩ := index_facts t
  have hN : cfg0.N = 10 := N_0
  funext j
  have hp : ((j : S5000x128.Idx) 0).val < 5000 := ((j : S5000x128.Idx) 0).isLt
  have ht : t.val < 10 := hN ▸ t.isLt
  obtain ⟨r, hr⟩ : ∃ r : Fin 50000, r.val = t.val * 5000 + ((j : S5000x128.Idx) 0).val := ⟨⟨t.val * 5000 + ((j : S5000x128.Idx) 0).val, by omega⟩, rfl⟩
  have hemb : ((cfg0.win 8).blk t).view.emb j = (ix2 r ((j : S5000x128.Idx) 1) : S50000x128.Idx) := by
    funext a; apply Fin.ext
    match a with
    | ⟨0, _⟩ => show win0_8.index t (0 : Fin 2) * 5000 + 1 * ((j : S5000x128.Idx) 0).val = r.val; omega
    | ⟨1, _⟩ => show win0_8.index t (1 : Fin 2) * 128 + 1 * ((j : S5000x128.Idx) 1).val = ((j : S5000x128.Idx) 1).val; omega
  show k0_pay3 (F := Ideal) (iblk0 V c 0 t) (iblk0 V c 1 t) (iblk0 V c 2 t) (iblk0 V c 5 t) (iblk0 V c 6 t) j
    = Cert.ReferenceIdeal.Stage.xabnor (F := Ideal)
          (Cert.ReferenceIdeal.Stage.hidden (F := Ideal) (V c main_arg0) (V c main_arg2) (V c main_arg3)) (V c main_arg6) (V c main_arg7)
        (((cfg0.win 8).blk t).view.emb j)
  rw [hemb]
  exact (congrArg (k0_pay3 (F := Ideal) (iblk0 V c 0 t) (iblk0 V c 1 t) (iblk0 V c 2 t) (iblk0 V c 5 t) (iblk0 V c 6 t)) (eq_ix2 j)).trans
    (xabnorFlush_apply V c t _ _ r hr)

/-- An index of the result array is in point t's block of window 8 iff each coordinate is in the block's range. -/
theorem xabnor_mem_blk (t : Fin cfg0.N) (i : S50000x128.Idx) :
    i ∈ ((cfg0.win 8).blk t).view.set ↔ ∀ a : Fin 2, win0_8.index t a * S5000x128.size a ≤ (i a).val
      ∧ (i a).val < win0_8.index t a * S5000x128.size a + S5000x128.size a := by
  show i ∈ ((View.whole main_v10_1).slice (win0_8.rect t)).set ↔ _
  rw [View.set_slice_whole, Rect.mem_set_unit]
  exact Iff.rfl

/-- Row r of the result array is written back by point r / 5000. -/
theorem xabnor_cover (i : S50000x128.Idx) :
    ∃ t : Fin cfg0.N, (cfg0.win 8).flush t = true ∧ i ∈ ((cfg0.win 8).blk t).view.set := by
  have hN : cfg0.N = 10 := N_0
  have h0 : (i 0).val < 50000 := (i 0).isLt
  have h1 : (i 1).val < 128 := (i 1).isLt
  obtain ⟨t, ht⟩ : ∃ t : Fin cfg0.N, t.val = (i 0).val / 5000 := ⟨⟨(i 0).val / 5000, by rw [hN]; omega⟩, rfl⟩
  obtain ⟨-, -, -, -, -, -, -, ⟨e70, e71⟩, ⟨e80, e81⟩⟩ := index_facts t
  refine ⟨t, flush0_8 t, ?_⟩
  rw [xabnor_mem_blk]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 128 ≤ (i 1).val ∧ (i 1).val < win0_8.index t (1 : Fin 2) * 128 + 128; omega

/-- Output window 7 (the first result) after the region's ten blocks: xnor of the hidden features. -/
theorem xnor_eq (c : Dev nD) :
    ((dat0 (F := Ideal) V c).arrAt 7 cfg0.N : FVec Ideal S50000x128 .f32)
      = Cert.ReferenceIdeal.Stage.xnor (F := Ideal)
          (Cert.ReferenceIdeal.Stage.hidden (F := Ideal) (V c main_arg0) (V c main_arg2) (V c main_arg3)) (V c main_arg4) (V c main_arg5) :=
  (dat0 (F := Ideal) V c).arrAt_eq_of_cover 7 _ (fun t _ => xnorFlushed_eq V c t) xnor_cover

/-- Output window 8 (the second result): xabnor of the hidden features. -/
theorem xabnor_eq (c : Dev nD) :
    ((dat0 (F := Ideal) V c).arrAt 8 cfg0.N : FVec Ideal S50000x128 .f32)
      = Cert.ReferenceIdeal.Stage.xabnor (F := Ideal)
          (Cert.ReferenceIdeal.Stage.hidden (F := Ideal) (V c main_arg0) (V c main_arg2) (V c main_arg3)) (V c main_arg6) (V c main_arg7) :=
  (dat0 (F := Ideal) V c).arrAt_eq_of_cover 8 _ (fun t _ => xabnorFlushed_eq V c t) xabnor_cover

end Cert.KernelIdeal.Region0

end
-- ==== Proof.Spec.lean ====
/-
  One edge's gated message as a formula over extended reals.

  For an edge with gathered feature rows xn, xa (128 wide) and weight wt:
    score = Σ_k tanh (Σ_l (xn l + xa l) · W l k + b k) · v k,   gate = 1 / (1 + e^(-score)),
    message j = wt · (gate · xn j + (1 − gate) · xa j).
  The kernel evaluates it on a padded edge list, the reference on the edges themselves; both are compared to
  this one formula, row by row. On an all-zero row with zero weight it is zero whatever the gate is.
-/
import Idealize.ShloMosaic.PureOps.Ideal
import Idealize.ShloMosaic.Lib.ValueIdx

noncomputable section

namespace Cert.Gnn

open Idealize.ShloMosaic

/-- The gate of one edge. -/
def gateAt (xn xa : Fin 128 → EReal) (W : Fin 128 → Fin 128 → EReal) (b v : Fin 128 → EReal) : EReal :=
  Ideal.logistic (∑ k : Fin 128, Ideal.tanh ((∑ l : Fin 128, (xn l + xa l) * W l k) + b k) * v k)

/-- Component j of one edge's message; the literal is the word of 1.0. -/
def msgAt (xn xa : Fin 128 → EReal) (wt : EReal) (W : Fin 128 → Fin 128 → EReal) (b v : Fin 128 → EReal) (j : Fin 128) : EReal :=
  wt * (gateAt xn xa W b v * xn j + (Ideal.ofBits .f32 0x3F800000#32 - gateAt xn xa W b v) * xa j)

/-- A padding row (zero features, zero weight) carries the zero message. -/
theorem msgAt_zero (W : Fin 128 → Fin 128 → EReal) (b v : Fin 128 → EReal) (j : Fin 128) :
    msgAt (fun _ => 0) (fun _ => 0) 0 W b v j = 0 := by
  unfold msgAt
  rw [zero_mul]

end Cert.Gnn

end
-- ==== Proof.LibKeepdims.lean ====
/- Reading a keepdims row reduction at coordinates: a sum along the rows of an [a, b] array as a sum over the
   column coordinate, the [a] result cast to a column [a, 1], and that column broadcast back over [a, b]. These are
   the three layout steps of every `jnp.sum(x, axis=-1, keepdims=True)` followed by a broadcast against x. -/
import Idealize.ShloMosaic.Lib.ValueIdx
import Idealize.ShloMosaic.Lib.Pipeline.Value
import Idealize.ShloMosaic.PureOps.Ideal.Laws

noncomputable section

open scoped BigOperators

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- On the extended reals a float sum along the rows of an `[a, b]` array, read at row `p`, is the sum over the
    column coordinate of the row's entries. The accumulator's two side conditions are taken as the printed programs
    carry them (any proofs of those two propositions). -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.Keepdims

end
-- ==== Proof.KRegion1.lean ====
/- The attention region's result array, row by row, is the one-edge message formula of the region's inputs. -/
import proofs.«118317_j46377056862932_1_alg».proof.Proof.Gen.KernelIdeal.Frame
import proofs.«118317_j46377056862932_1_alg».proof.Proof.Spec
import proofs.«118317_j46377056862932_1_alg».proof.Proof.LibRowBlocks
import proofs.«118317_j46377056862932_1_alg».proof.Proof.LibBiasRow
import proofs.«118317_j46377056862932_1_alg».proof.Proof.LibKeepdims
import Idealize.ShloMosaic.Lib.ValueLayout

noncomputable section

namespace Cert.KernelIdeal.Region1

open Idealize.ShloMosaic Idealize.ShloMosaic.TcCoe Idealize.SL.Sem Idealize.ShloMosaic.ValueIdx
open Cert.KernelIdeal Cert.KernelIdeal.Gen

/-! ## The stored value of one block, entry by entry -/

/-- A lane-wise logistic, read at an index. -/
private theorem logistic_at {s : Shape} {φ : FTy} (x : FVec Ideal s φ) (i : s.Idx) : logistic x i = Ideal.logistic (x i) := rfl

/-- A lane-wise hyperbolic tangent, read at an index. -/
private theorem tanh_at {s : Shape} {φ : FTy} (x : FVec Ideal s φ) (i : s.Idx) : tanh x i = Ideal.tanh (x i) := rfl

/-- The sum along the 128 lanes of a block of 4096 rows, read at row p: the sum of the row's entries. -/
private theorem laneSum_at (src : FVec Ideal S4096x128 .f32) (h : S4096x128.Reduces [1] S4096) (hφ : FKind.Formats .f32)
    (hacc : (0x00000000#32 : BitVec 32) = 0x00000000#32) (p : Fin 4096) :
    multiReduction (F := Ideal) .add [1] S4096 src 0x00000000#32 h hφ hacc (ix1 p) = ∑ k : Fin 128, src (ix2 p k) :=
  Cert.Keepdims.rowSum_apply src 0x00000000#32 h hφ hacc p

/-- The block of 4096 rows times the 128 by 128 matrix, accumulated onto zero, read at (a, b): the textbook sum
    over the contracted coordinate. -/
private theorem rowsTimes_at (A : FVec Ideal S4096x128 .bf16) (B : FVec Ideal S128x128 .bf16) (a : Fin 4096) (b : Fin 128) :
    matmul dot_S4096x128_S128x128_S4096x128_1_0_0_1_n_n none A B (constant (F := Ideal) S4096x128 .f32 0x00000000#32) (ix2 a b)
      = ∑ c : Fin 128, A (ix2 a c) * B (ix2 c b) :=
  Cert.RowBlocks.matmulZero_apply dot_S4096x128_S128x128_S4096x128_1_0_0_1_n_n_wf none A B a b

set_option maxHeartbeats 400000 in
/-- The body's stored value at row p and column q of a block is the one-edge message of row p of the two feature
    blocks, the weight in row p of the weight column, and the whole of the matrix, the bias and the attention row. -/
private theorem pay_at (x0 x1 : Vec Ideal S4096x128 .f32) (x2 : Vec Ideal S4096x1 .f32) (x3 : Vec Ideal S128x128 .f32)
    (x4 : Vec Ideal S128 .f32) (x5 : Vec Ideal S1x128 .f32) (p : Fin 4096) (q : Fin 128) :
    k1_pay1 x0 x1 x3 x4 x5 x2 (ix2 p q)
      = Cert.Gnn.msgAt (fun k => x0 (ix2 p k)) (fun k => x1 (ix2 p k)) (x2 (ix2 p 0))
          (fun l k => x3 (ix2 l k)) (fun k => x4 (ix1 k)) (fun k => x5 (ix2 0 k)) q := by
  unfold k1_pay1
  rw [mulf_apply, addf_apply, mulf_apply, mulf_apply]
  rw [Cert.Keepdims.broadcastTo_a1_ab_apply, Cert.Keepdims.broadcastTo_a1_ab_apply, Cert.Keepdims.broadcastTo_a1_ab_apply]
  rw [subf_apply, broadcast_apply, logistic_at]
  rw [Cert.Keepdims.shapeCast_a_a1_apply]
  rw [laneSum_at]
  simp only [mulf_apply, tanh_at, addf_apply, rowsTimes_at, truncf_apply, shapeCast_self, Cert.BiasRow.castRows_apply,
    broadcastTo_1b_ab_apply, Cert.BiasRow.oneRow_cast_apply]
  rfl

/-! ## From the 208 blocks to the array -/

variable (V : (c : Dev nD) → (b : Ref sig .tc) → Buf (Elt Ideal) ((c : Thread nD τ).loc b))

/-- A block is read and written whole: the offsets of the body's accesses are zero on both axes, -/
private theorem zeroOff2 : (![0, 0] : Fin 2 → Nat) = fun _ => 0 := funext fun a => by fin_cases a <;> rfl
/-- and on the one axis of the bias. -/
private theorem zeroOff1 : (![0] : Fin 1 → Nat) = fun _ => 0 := funext fun a => by fin_cases a; rfl

/-- The printed index maps, decided over the 208 points: the two feature windows, the weight column and the
    result move together, block t of rows at point t; the matrix, the bias and the attention row stay whole. -/
private theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of the block of point t is row 4096 t + p of the padded edge list. -/
private def rowOf (t : Fin cfg1.N) (p : Fin 4096) : Fin 851968 :=
  ⟨t.val * 4096 + p.val, by have h : t.val < 208 := t.isLt; have := p.isLt; omega⟩

/-- The result over the whole padded edge list: entry (e, j) is component j of the message of edge row e. -/
private def msgArr (c : Dev nD) : S851968x128.Idx → EReal := fun i =>
  Cert.Gnn.msgAt (fun k => V c main_v57 (ix2 (i 0 : Fin 851968) k)) (fun k => V c main_v58 (ix2 (i 0 : Fin 851968) k))
    (V c main_v59 (ix2 (i 0 : Fin 851968) 0)) (fun l k => V c main_arg8 (ix2 l k)) (fun k => V c main_arg9 (ix1 k))
    (fun k => V c main_v61 (ix2 0 k)) (i 1 : Fin 128)

/-- The result's block at point t sits at rows 4096 t … 4096 t + 4095, all 128 columns. -/
private theorem emb_out (t : Fin cfg1.N) (p : Fin 4096) (q : Fin 128) :
    ((cfg1.win 6).blk t).view.emb (ix2 p q) = (ix2 (rowOf t p) q : S851968x128.Idx) := by
  obtain ⟨-, -, -, -, -, -, -, -, -, -, -, f0, f1⟩ := blockIndex t
  funext a; apply Fin.ext
  match a with
  | ⟨0, _⟩ => show win1_6.index t (0 : Fin 2) * 4096 + 1 * p.val = t.val * 4096 + p.val; rw [f0]; omega
  | ⟨1, _⟩ => show win1_6.index t (1 : Fin 2) * 128 + 1 * q.val = q.val; rw [f1]; omega

/-- The first feature window's block at point t, row p: row 4096 t + p of its array. -/
private theorem blk0_at (c : Dev nD) (t : Fin cfg1.N) (p : Fin 4096) (k : Fin 128) :
    (iblk1 V c 0 t : Vec Ideal S4096x128 .f32) (ix2 p k) = V c main_v57 (ix2 (rowOf t p) k) := by
  obtain ⟨f0, f1, -⟩ := blockIndex t
  unfold iblk1
  rw [View.read_apply]
  show V c main_v57 _ = V c main_v57 _
  congr 1
  funext a; apply Fin.ext
  match a with
  | ⟨0, _⟩ => show win1_0.index t (0 : Fin 2) * 4096 + 1 * p.val = t.val * 4096 + p.val; rw [f0]; omega
  | ⟨1, _⟩ => show win1_0.index t (1 : Fin 2) * 128 + 1 * k.val = k.val; rw [f1]; omega

/-- The second feature window's block at point t, row p: row 4096 t + p of its array. -/
private theorem blk1_at (c : Dev nD) (t : Fin cfg1.N) (p : Fin 4096) (k : Fin 128) :
    (iblk1 V c 1 t : Vec Ideal S4096x128 .f32) (ix2 p k) = V c main_v58 (ix2 (rowOf t p) k) := by
  obtain ⟨-, -, f0, f1, -⟩ := blockIndex t
  unfold iblk1
  rw [View.read_apply]
  show V c main_v58 _ = V c main_v58 _
  congr 1
  funext a; apply Fin.ext
  match a with
  | ⟨0, _⟩ => show win1_1.index t (0 : Fin 2) * 4096 + 1 * p.val = t.val * 4096 + p.val; rw [f0]; omega
  | ⟨1, _⟩ => show win1_1.index t (1 : Fin 2) * 128 + 1 * k.val = k.val; rw [f1]; omega

/-- The weight column's block at point t, row p: entry 4096 t + p of the column. -/
private theorem blk2_at (c : Dev nD) (t : Fin cfg1.N) (p : Fin 4096) (u : Fin 1) :
    (iblk1 V c 2 t : Vec Ideal S4096x1 .f32) (ix2 p u) = V c main_v59 (ix2 (rowOf t p) u) := by
  obtain ⟨-, -, -, -, f0, f1, -⟩ := blockIndex t
  unfold iblk1
  rw [View.read_apply]
  show V c main_v59 _ = V c main_v59 _
  congr 1
  funext a; apply Fin.ext
  match a with
  | ⟨0, _⟩ => show win1_2.index t (0 : Fin 2) * 4096 + 1 * p.val = t.val * 4096 + p.val; rw [f0]; omega
  | ⟨1, _⟩ => show win1_2.index t (1 : Fin 2) * 1 + 1 * u.val = u.val; rw [f1]; omega

/-- The matrix window's block is the whole matrix at every point. -/
private theorem blk3_at (c : Dev nD) (t : Fin cfg1.N) (l k : Fin 128) :
    (iblk1 V c 3 t : Vec Ideal S128x128 .f32) (ix2 l k) = V c main_arg8 (ix2 l k) := by
  obtain ⟨-, -, -, -, -, -, f0, f1, -⟩ := blockIndex t
  unfold iblk1
  rw [View.read_apply]
  show V c main_arg8 _ = V c main_arg8 _
  congr 1
  funext a; apply Fin.ext
  match a with
  | ⟨0, _⟩ => show win1_3.index t (0 : Fin 2) * 128 + 1 * l.val = l.val; rw [f0]; omega
  | ⟨1, _⟩ => show win1_3.index t (1 : Fin 2) * 128 + 1 * k.val = k.val; rw [f1]; omega

/-- The bias window's block is the whole bias at every point. -/
private theorem blk4_at (c : Dev nD) (t : Fin cfg1.N) (k : Fin 128) :
    (iblk1 V c 4 t : Vec Ideal S128 .f32) (ix1 k) = V c main_arg9 (ix1 k) := by
  obtain ⟨-, -, -, -, -, -, -, -, f0, -⟩ := blockIndex t
  unfold iblk1
  rw [View.read_apply]
  show V c main_arg9 _ = V c main_arg9 _
  congr 1
  funext a; apply Fin.ext
  match a with
  | ⟨0, _⟩ => show win1_4.index t (0 : Fin 1) * 128 + 1 * k.val = k.val; rw [f0]; omega

/-- The attention row's block is the whole row at every point. -/
private theorem blk5_at (c : Dev nD) (t : Fin cfg1.N) (u : Fin 1) (k : Fin 128) :
    (iblk1 V c 5 t : Vec Ideal S1x128 .f32) (ix2 u k) = V c main_v61 (ix2 u k) := by
  obtain ⟨-, -, -, -, -, -, -, -, -, f0, f1, -⟩ := blockIndex t
  unfold iblk1
  rw [View.read_apply]
  show V c main_v61 _ = V c main_v61 _
  congr 1
  funext a; apply Fin.ext
  match a with
  | ⟨0, _⟩ => show win1_5.index t (0 : Fin 2) * 1 + 1 * u.val = u.val; rw [f0]; omega
  | ⟨1, _⟩ => show win1_5.index t (1 : Fin 2) * 128 + 1 * k.val = k.val; rw [f1]; omega

set_option maxHeartbeats 400000 in
/-- What point t writes back is block t of the whole-list result: the body's stored value, entry by entry, is the
    message of the rows its blocks hold, and those are rows 4096 t … of the region's input arrays. -/
private theorem flushed_eq (c : Dev nD) (t : Fin cfg1.N) :
    (dat1 (F := Ideal) V c).flushed 6 t = ((cfg1.win 6).blk t).view.read (Elt Ideal) (msgArr V c) := by
  show (cfg1.win 6).cut (grid1.coords t) ((dat1 V c).after 6 t) = _
  rw [after1_6]
  unfold out1_6
  rw [View.canon_unit_zero zeroOff2]
  simp only [View.ld_unit_zero (S := S4096x128) zeroOff2, View.ld_unit_zero (S := S128x128) zeroOff2, View.ld_unit_zero (S := S128) zeroOff1,
    View.ld_unit_zero (S := S1x128) zeroOff2, View.ld_unit_zero (S := S4096x1) zeroOff2]
  funext y
  obtain ⟨p, q, rfl⟩ : ∃ (p : Fin 4096) (q : Fin 128), y = ix2 p q := ⟨y 0, y 1, eq_ix2 y⟩
  show k1_pay1 (iblk1 V c 0 t) (iblk1 V c 1 t) (iblk1 V c 3 t) (iblk1 V c 4 t) (iblk1 V c 5 t) (iblk1 V c 2 t) (ix2 p q)
    = msgArr V c (((cfg1.win 6).blk t).view.emb (ix2 p q))
  refine (pay_at (iblk1 V c 0 t) (iblk1 V c 1 t) (iblk1 V c 2 t) (iblk1 V c 3 t) (iblk1 V c 4 t) (iblk1 V c 5 t) p q).trans ?_
  rw [emb_out]
  have e0 : (fun k => (iblk1 V c 0 t : Vec Ideal S4096x128 .f32) (ix2 p k)) = fun k => V c main_v57 (ix2 (rowOf t p) k) :=
    funext fun k => blk0_at V c t p k
  have e1 : (fun k => (iblk1 V c 1 t : Vec Ideal S4096x128 .f32) (ix2 p k)) = fun k => V c main_v58 (ix2 (rowOf t p) k) :=
    funext fun k => blk1_at V c t p k
  have e3 : (fun l k => (iblk1 V c 3 t : Vec Ideal S128x128 .f32) (ix2 l k)) = fun l k => V c main_arg8 (ix2 l k) :=
    funext fun l => funext fun k => blk3_at V c t l k
  have e4 : (fun k => (iblk1 V c 4 t : Vec Ideal S128 .f32) (ix1 k)) = fun k => V c main_arg9 (ix1 k) :=
    funext fun k => blk4_at V c t k
  have e5 : (fun k => (iblk1 V c 5 t : Vec Ideal S1x128 .f32) (ix2 0 k)) = fun k => V c main_v61 (ix2 0 k) :=
    funext fun k => blk5_at V c t 0 k
  rw [e0, e1, blk2_at V c t p 0, e3, e4, e5]
  rfl

/-- An index of the result array is in point t's block iff each coordinate is in the block's range on its axis. -/
private theorem mem_blk (t : Fin cfg1.N) (i : S851968x128.Idx) :
    i ∈ ((cfg1.win 6).blk t).view.set ↔ ∀ a : Fin 2, win1_6.index t a * S4096x128.size a ≤ (i a).val
      ∧ (i a).val < win1_6.index t a * S4096x128.size a + S4096x128.size a := by
  show i ∈ ((View.whole main_v62).slice (win1_6.rect t)).set ↔ _
  rw [View.set_slice_whole, Rect.mem_set_unit]
  exact Iff.rfl

/-- Row r of the padded edge list lies in the block of point r / 4096: the 208 blocks of 4096 rows tile the
    851968 rows. -/
private theorem covered (i : S851968x128.Idx) :
    ∃ t : Fin cfg1.N, (cfg1.win 6).flush t = true ∧ i ∈ ((cfg1.win 6).blk t).view.set := by
  have hi0 : (i 0).val < 851968 := (i 0).isLt
  have hi1 : (i 1).val < 128 := (i 1).isLt
  have hN : cfg1.N = 208 := N_1
  obtain ⟨t, ht⟩ : ∃ t : Fin cfg1.N, t.val = (i 0).val / 4096 := ⟨⟨(i 0).val / 4096, by rw [hN]; omega⟩, rfl⟩
  refine ⟨t, flush1_6 t, ?_⟩
  obtain ⟨-, -, -, -, -, -, -, -, -, -, -, f0, f1⟩ := blockIndex t
  rw [mem_blk]
  intro a
  match a with
  | ⟨0, _⟩ =>
    show win1_6.index t (0 : Fin 2) * 4096 ≤ (i 0).val ∧ (i 0).val < win1_6.index t (0 : Fin 2) * 4096 + 4096
    rw [f0]; omega
  | ⟨1, _⟩ =>
    show win1_6.index t (1 : Fin 2) * 128 ≤ (i 1).val ∧ (i 1).val < win1_6.index t (1 : Fin 2) * 128 + 128
    rw [f1]; omega

/-- The result array after the region's 208 points is the whole-list result. -/
private theorem arr_eq (c : Dev nD) : (dat1 (F := Ideal) V c).arrAt 6 cfg1.N = msgArr V c :=
  (dat1 (F := Ideal) V c).arrAt_eq_of_cover 6 (msgArr V c) (fun t _ => flushed_eq V c t) covered

/-- Output window 6 after the region's 208 blocks, at row e and column j. -/
theorem msg_at (c : Dev nD) (e : Fin 851968) (j : Fin 128) :
    (dat1 (F := Ideal) V c).arrAt 6 cfg1.N (ix2 e j)
      = Cert.Gnn.msgAt (fun k => V c main_v57 (ix2 e k)) (fun k => V c main_v58 (ix2 e k)) (V c main_v59 (ix2 e 0))
          (fun l k => V c main_arg8 (ix2 l k)) (fun k => V c main_arg9 (ix1 k)) (fun k => V c main_v61 (ix2 0 k)) j := by
  rw [arr_eq]
  rfl

end Cert.KernelIdeal.Region1

end
-- ==== Proof.KRegion2.lean ====
/- The head region's result array is the reference's head of the aggregated messages. -/
import proofs.«118317_j46377056862932_1_alg».proof.Proof.Gen.KernelIdeal.Frame
import proofs.«118317_j46377056862932_1_alg».proof.Proof.Stages
import proofs.«118317_j46377056862932_1_alg».proof.Proof.LibMatProd
import proofs.«118317_j46377056862932_1_alg».proof.Proof.LibRowBlocks
import proofs.«118317_j46377056862932_1_alg».proof.Proof.LibBiasRow

noncomputable section

open scoped BigOperators

namespace Cert.KernelIdeal.Region2

open Idealize.ShloMosaic Idealize.ShloMosaic.TcCoe Idealize.SL.Sem Idealize.ShloMosaic.ValueIdx
open Cert.KernelIdeal Cert.KernelIdeal.Gen

variable (V : (c : Dev nD) → (b : Ref sig .tc) → Buf (Elt Ideal) ((c : Thread nD τ).loc b))

/-! ## One entry of the head, as a formula over one row of node features -/

/-- The leaky rectifier on one extended real: x where x ≥ 0, else the literal slope times x. -/
def leakyAt (x : EReal) : EReal :=
  Scalar.select (FloatOps.cmpf (F := Ideal) (φ := .f32) .oge x (Ideal.ofBits .f32 0x00000000#32)) x
    (Ideal.ofBits .f32 0x3C23D70A#32 * x)

/-- One entry of the head from one row of node features:
    Σ_k leaky (Σ_j row j · W (j, k) + b k) · W' (k, q) + b' q. It reads no other row. -/
def headAt (row : Fin 128 → EReal) (W : S128x128.Idx → EReal) (b : S128.Idx → EReal) (W' : S128x2.Idx → EReal)
    (b' : S2.Idx → EReal) (q : Fin 2) : EReal :=
  (∑ k : Fin 128, leakyAt ((∑ j : Fin 128, row j * W (ix2 j k)) + b (ix1 k)) * W' (ix2 k q)) + b' (ix1 q)

/-- The kernel body's payload on a block of 5000 rows, at entry (p, q): the head formula of row p of the block.
    Both products are the textbook product (a matmul onto the zero constant; the narrowing to bf16 is the identity on
    extended reals), each bias is the vector laid along the rows, the rectifier is pointwise. -/
theorem pay_apply (x0 : FVec Ideal S5000x128 .f32) (x1 : FVec Ideal S128x128 .f32) (x2 : FVec Ideal S128 .f32)
    (x3 : FVec Ideal S128x2 .f32) (x4 : FVec Ideal S2 .f32) (p : Fin 5000) (q : Fin 2) :
    k2_pay1 (F := Ideal) x0 x1 x2 x3 x4 (ix2 p q) = headAt (fun j => x0 (ix2 p j)) x1 x2 x3 x4 q := by
  unfold k2_pay1 headAt
  refine congrArg₂ (· + ·) ?_ (Cert.BiasRow.castRows_apply x4 _ _ p q)
  refine (Cert.RowBlocks.matmulZero_apply _ none _ _ p q).trans ?_
  refine Finset.sum_congr rfl fun k _ => ?_
  refine congrArg₂ (· * ·) ?_ rfl
  show leakyAt (_ + _) = _
  refine congrArg leakyAt ?_
  refine congrArg₂ (· + ·) ?_ (Cert.BiasRow.castRows_apply x2 _ _ p k)
  refine (Cert.RowBlocks.matmulZero_apply _ none _ _ p k).trans ?_
  refine Finset.sum_congr rfl fun j _ => ?_
  refine congrArg₂ (· * ·) ?_ rfl
  exact congrFun (shapeCast_self x0 shapeCasts_S5000x128_S5000x128) (ix2 p j)

/-- The reference's leaky rectifier at an entry is the rectifier of the entry: the same two literal words. -/
theorem leaky_apply (x : FVec Ideal Cert.ReferenceIdeal.S50000x128 .f32) (i : Cert.ReferenceIdeal.S50000x128.Idx) :
    Cert.ReferenceIdeal.Stage.leaky (F := Ideal) x i = leakyAt (x i) := rfl

/-- The reference's head at entry (r, q): the head formula of row r of the aggregated messages. Both host products
    are the textbook product, each bias is the vector laid along the rows by two broadcasts. -/
theorem head_apply (a : FVec Ideal Cert.ReferenceIdeal.S50000x128 .f32) (W : FVec Ideal Cert.ReferenceIdeal.S128x128 .f32)
    (b : FVec Ideal Cert.ReferenceIdeal.S128 .f32) (W' : FVec Ideal Cert.ReferenceIdeal.S128x2 .f32)
    (b' : FVec Ideal Cert.ReferenceIdeal.S2 .f32) (r : Fin 50000) (q : Fin 2) :
    Cert.ReferenceIdeal.Stage.head (F := Ideal) a W b W' b' (ix2 r q) = headAt (fun j => a (ix2 r j)) W b W' b' q := by
  unfold Cert.ReferenceIdeal.Stage.head headAt
  refine congrArg₂ (· + ·) ?_ (Cert.BiasRow.inDimRows_apply b' _ _ r q)
  refine (congrFun (Cert.MatProd.hostDot_eq _ none _ W') (ix2 r q)).trans ?_
  refine (Cert.MatProd.matProd_ix2 _ W' r q).trans ?_
  refine Finset.sum_congr rfl fun k _ => ?_
  refine congrArg₂ (· * ·) ?_ rfl
  refine (leaky_apply _ (ix2 r k)).trans ?_
  refine congrArg leakyAt ?_
  refine congrArg₂ (· + ·) ?_ (Cert.BiasRow.inDimRows_apply b _ _ r k)
  refine (congrFun (Cert.MatProd.hostDot_eq _ none a W) (ix2 r k)).trans ?_
  exact Cert.MatProd.matProd_ix2 a W r k

/-- A block's payload entry is the head's entry of the array, as soon as the block's row is the array's row: the
    head is row-local. Stated over the two indices, the rows and columns tied by their numbers. -/
theorem pay_eq_head (A : FVec Ideal S50000x128 .f32) (x0 : FVec Ideal S5000x128 .f32) (x1 : FVec Ideal S128x128 .f32)
    (x2 : FVec Ideal S128 .f32) (x3 : FVec Ideal S128x2 .f32) (x4 : FVec Ideal S2 .f32) (y : S5000x2.Idx) (i : S50000x2.Idx)
    (hrow : ∀ (u : S5000x128.Idx) (v : S50000x128.Idx), (u 0).val = (y 0).val → (v 0).val = (i 0).val →
      (v 1).val = (u 1).val → x0 u = A v)
    (hcol : (i 1).val = (y 1).val) :
    k2_pay1 (F := Ideal) x0 x1 x2 x3 x4 y = Cert.ReferenceIdeal.Stage.head (F := Ideal) A x1 x2 x3 x4 i := by
  obtain ⟨p, q, rfl⟩ : ∃ (p : Fin 5000) (q : Fin 2), y = ix2 p q := ⟨y 0, y 1, eq_ix2 y⟩
  obtain ⟨r, q', rfl⟩ : ∃ (r : Fin 50000) (q' : Fin 2), i = ix2 r q' := ⟨i 0, i 1, eq_ix2 i⟩
  obtain rfl : q' = q := Fin.ext hcol
  refine (pay_apply x0 x1 x2 x3 x4 p q').trans ((head_apply A x1 x2 x3 x4 r q').trans ?_).symm
  refine congrArg (fun row => headAt row x1 x2 x3 x4 q') (funext fun j => ?_)
  exact (hrow (ix2 p j) (ix2 r j) rfl rfl rfl).symm

/-! ## The windows' blocks as parts of their arrays -/

theorem zero2 : (![0, 0] : Fin 2 → Nat) = fun _ => 0 := funext fun a => by fin_cases a <;> rfl
theorem zero1 : (![0] : Fin 1 → Nat) = fun _ => 0 := funext fun a => by fin_cases a; rfl

/-- The printed index maps, decided over the ten points: the node-row windows (the input 0 and the output 5) sit at
    block (t, 0); the four weight windows are whole, at block 0. -/
theorem index_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 1) = 0
    ∧ win2_3.index t (0 : Fin 2) = 0 ∧ win2_3.index t (1 : Fin 2) = 0
    ∧ win2_4.index t (0 : Fin 1) = 0 :=
  (by decide +kernel : ∀ t : Fin grid2.N, _)

/-- The node-feature window's block at point t is rows 5000 t … 5000 t + 4999 of the aggregated messages. -/
theorem rows_apply (c : Dev nD) (t : Fin cfg2.N) (u : S5000x128.Idx) (v : S50000x128.Idx)
    (h0 : (v 0).val = t.val * 5000 + (u 0).val) (h1 : (v 1).val = (u 1).val) :
    (iblk2 (F := Ideal) V c 0 t : Vec Ideal S5000x128 .f32) u = (V c main_v70 : S50000x128.Idx → EReal) v := by
  obtain ⟨e0, e1, -⟩ := index_facts t
  unfold iblk2
  rw [View.read_apply]
  show V c main_v70 _ = V c main_v70 _
  congr 1
  funext a
  apply Fin.ext
  match a with
  | ⟨0, _⟩ => show win2_0.index t (0 : Fin 2) * 5000 + 1 * (u 0).val = (v 0).val; rw [e0, h0]; omega
  | ⟨1, _⟩ => show win2_0.index t (1 : Fin 2) * 128 + 1 * (u 1).val = (v 1).val; rw [e1, h1]; omega

/-- The first weight matrix's window is the whole matrix at every point. -/
theorem whole1 (c : Dev nD) (t : Fin cfg2.N) :
    (iblk2 (F := Ideal) V c 1 t : Vec Ideal S128x128 .f32) = (V c main_arg11 : S128x128.Idx → EReal) := by
  obtain ⟨-, -, -, -, e0, e1, -⟩ := index_facts t
  funext u
  unfold iblk2
  rw [View.read_apply]
  show V c main_arg11 _ = V c main_arg11 _
  congr 1
  funext a
  apply Fin.ext
  match a with
  | ⟨0, _⟩ => show win2_1.index t (0 : Fin 2) * 128 + 1 * (u 0).val = (u 0).val; rw [e0]; omega
  | ⟨1, _⟩ => show win2_1.index t (1 : Fin 2) * 128 + 1 * (u 1).val = (u 1).val; rw [e1]; omega

/-- The first bias's window is the whole vector at every point. -/
theorem whole2 (c : Dev nD) (t : Fin cfg2.N) :
    (iblk2 (F := Ideal) V c 2 t : Vec Ideal S128 .f32) = (V c main_arg12 : S128.Idx → EReal) := by
  obtain ⟨-, -, -, -, -, -, e0, -⟩ := index_facts t
  funext u
  unfold iblk2
  rw [View.read_apply]
  show V c main_arg12 _ = V c main_arg12 _
  congr 1
  funext a
  apply Fin.ext
  match a with
  | ⟨0, _⟩ => show win2_2.index t (0 : Fin 1) * 128 + 1 * (u 0).val = (u 0).val; rw [e0]; omega

/-- The second weight matrix's window is the whole matrix at every point. -/
theorem whole3 (c : Dev nD) (t : Fin cfg2.N) :
    (iblk2 (F := Ideal) V c 3 t : Vec Ideal S128x2 .f32) = (V c main_arg13 : S128x2.Idx → EReal) := by
  obtain ⟨-, -, -, -, -, -, -, e0, e1, -⟩ := index_facts t
  funext u
  unfold iblk2
  rw [View.read_apply]
  show V c main_arg13 _ = V c main_arg13 _
  congr 1
  funext a
  apply Fin.ext
  match a with
  | ⟨0, _⟩ => show win2_3.index t (0 : Fin 2) * 128 + 1 * (u 0).val = (u 0).val; rw [e0]; omega
  | ⟨1, _⟩ => show win2_3.index t (1 : Fin 2) * 2 + 1 * (u 1).val = (u 1).val; rw [e1]; omega

/-- The second bias's window is the whole vector at every point. -/
theorem whole4 (c : Dev nD) (t : Fin cfg2.N) :
    (iblk2 (F := Ideal) V c 4 t : Vec Ideal S2 .f32) = (V c main_arg14 : S2.Idx → EReal) := by
  obtain ⟨-, -, -, -, -, -, -, -, -, e0⟩ := index_facts t
  funext u
  unfold iblk2
  rw [View.read_apply]
  show V c main_arg14 _ = V c main_arg14 _
  congr 1
  funext a
  apply Fin.ext
  match a with
  | ⟨0, _⟩ => show win2_4.index t (0 : Fin 1) * 2 + 1 * (u 0).val = (u 0).val; rw [e0]; omega

/-! ## From the blocks to the array -/

/-- What point t writes back is block t of the head of the region's input arrays: rows 5000 t … 5000 t + 4999 of the
    head depend on the same rows of the aggregated messages only, which are the node-feature window's block. -/
theorem flushed_eq (c : Dev nD) (t : Fin cfg2.N) :
    (dat2 (F := Ideal) V c).flushed 5 t = ((cfg2.win 5).blk t).view.read (Elt Ideal)
      (Cert.ReferenceIdeal.Stage.head (F := Ideal) (V c main_v70) (V c main_arg11) (V c main_arg12) (V c main_arg13) (V c main_arg14)) := by
  show (cfg2.win 5).cut (grid2.coords t) ((dat2 V c).after 5 t) = _
  rw [after2_5]
  unfold out2_5
  rw [View.canon_unit_zero zero2]
  simp only [View.ld_unit_zero (S := S5000x128) zero2, View.ld_unit_zero (S := S128x128) zero2, View.ld_unit_zero (S := S128) zero1,
    View.ld_unit_zero (S := S128x2) zero2, View.ld_unit_zero (S := S2) zero1]
  rw [whole1 V c t, whole2 V c t, whole3 V c t, whole4 V c t]
  obtain ⟨-, -, e0, e1, -⟩ := index_facts t
  funext j
  rw [View.read_apply]
  refine pay_eq_head (V c main_v70) (iblk2 V c 0 t) (V c main_arg11) (V c main_arg12) (V c main_arg13) (V c main_arg14) j
    (((cfg2.win 5).blk t).view.emb j) (fun u v hu hv huv => rows_apply V c t u v ?_ huv) ?_
  · rw [hv, hu]
    show win2_5.index t (0 : Fin 2) * 5000 + 1 * (j 0).val = t.val * 5000 + (j 0).val
    rw [e0]; omega
  · show win2_5.index t (1 : Fin 2) * 2 + 1 * (j 1).val = (j 1).val
    rw [e1]; omega

/-- An index of the result array is in point t's block iff each coordinate is in the block's range on its axis. -/
theorem mem_block (t : Fin cfg2.N) (i : S50000x2.Idx) :
    i ∈ ((cfg2.win 5).blk t).view.set ↔ ∀ a : Fin 2, win2_5.index t a * S5000x2.size a ≤ (i a).val ∧ (i a).val < win2_5.index t a * S5000x2.size a + S5000x2.size a := by
  show i ∈ ((View.whole main_v71).slice (win2_5.rect t)).set ↔ _
  rw [View.set_slice_whole, Rect.mem_set_unit]
  exact Iff.rfl

/-- Every entry of the result array is written back by some point: row r by point r / 5000. -/
theorem covered (i : S50000x2.Idx) :
    ∃ t : Fin cfg2.N, (cfg2.win 5).flush t = true ∧ i ∈ ((cfg2.win 5).blk t).view.set := by
  have hi0 : (i 0).val < 50000 := (i 0).isLt
  have hi1 : (i 1).val < 2 := (i 1).isLt
  have hN : cfg2.N = 10 := N_2
  refine ⟨⟨(i 0).val / 5000, by rw [hN]; omega⟩, flush2_5 _, ?_⟩
  obtain ⟨-, -, e0, e1, -⟩ := index_facts ⟨(i 0).val / 5000, by rw [hN]; omega⟩
  rw [mem_block]
  intro a
  match a with
  | ⟨0, _⟩ =>
    show win2_5.index _ (0 : Fin 2) * 5000 ≤ (i 0).val ∧ (i 0).val < win2_5.index _ (0 : Fin 2) * 5000 + 5000
    rw [e0]; show (i 0).val / 5000 * 5000 ≤ (i 0).val ∧ (i 0).val < (i 0).val / 5000 * 5000 + 5000; omega
  | ⟨1, _⟩ =>
    show win2_5.index _ (1 : Fin 2) * 2 ≤ (i 1).val ∧ (i 1).val < win2_5.index _ (1 : Fin 2) * 2 + 2
    rw [e1]; omega

/-- Output window 5 after the region's ten blocks: the head of the region's first input array. -/
theorem head_eq (c : Dev nD) :
    ((dat2 (F := Ideal) V c).arrAt 5 cfg2.N : FVec Ideal S50000x2 .f32)
      = Cert.ReferenceIdeal.Stage.head (F := Ideal) (V c main_v70) (V c main_arg11) (V c main_arg12) (V c main_arg13) (V c main_arg14) := by
  exact (dat2 (F := Ideal) V c).arrAt_eq_of_cover 5 _ (fun t _ => flushed_eq V c t) covered

end Cert.KernelIdeal.Region2

end
-- ==== Proof.RefMsg.lean ====
/- The reference's message array, row by row, is the one-edge message formula. -/
import proofs.«118317_j46377056862932_1_alg».proof.Proof.Stages
import proofs.«118317_j46377056862932_1_alg».proof.Proof.Spec
import proofs.«118317_j46377056862932_1_alg».proof.Proof.LibMatProd
import proofs.«118317_j46377056862932_1_alg».proof.Proof.LibBiasRow
import Idealize.ShloMosaic.Lib.IdealHost

noncomputable section

namespace Cert.ReferenceIdeal.MsgRead

open Idealize.ShloMosaic Idealize.ShloMosaic.ValueIdx
open Cert.ReferenceIdeal Cert.ReferenceIdeal.Gen

/-- A [850000, 1] column laid along 128 columns reads, at (e, j), the column at (e, 0). -/
theorem spread_apply (a : FVec Ideal S850000x1 .f32) (e : Fin 850000) (j : Fin 128) :
    Stage.spread a (ix2 e j) = a (ix2 e (0 : Fin 1)) := by
  unfold Stage.spread
  refine broadcastInDim_apply ![0, 1] bcast_S850000x1_S850000x128_0_1 a (ix2 e j) (ix2 e (0 : Fin 1)) ?_
  intro ax
  match ax with
  | ⟨0, _⟩ => rfl
  | ⟨1, _⟩ => rfl

/-- A [850000] vector stood up as a [850000, 1] column reads, at (e, 0), the vector at e. -/
theorem asCol_apply (wt : FVec Ideal S850000 .f32) (e : Fin 850000) :
    broadcastInDim S850000x1 ![0] bcast_S850000_S850000x1_0 wt (ix2 e (0 : Fin 1)) = wt (ix1 e) := by
  refine broadcastInDim_apply ![0] bcast_S850000_S850000x1_0 wt (ix2 e (0 : Fin 1)) (ix1 e) ?_
  intro ax
  match ax with
  | ⟨0, _⟩ => rfl

/-- The scalar 1.0 broadcast to a [850000, 1] column reads the word of 1.0 everywhere. -/
theorem oneCol_apply (i : S850000x1.Idx) :
    broadcastInDim S850000x1 ![] bcast_S_S850000x1 (constant (F := Ideal) S_ .f32 0x3F800000#32) i
      = Ideal.ofBits .f32 0x3F800000#32 := by
  rw [broadcastInDim_scalar_apply]
  rfl

/-- The gate's hidden layer at (e, k): tanh of the summed rows through W plus the bias. -/
theorem hiddenT_apply (xn xa : FVec Ideal S850000x128 .f32) (W : FVec Ideal S128x128 .f32) (b : FVec Ideal S128 .f32)
    (e : Fin 850000) (k : Fin 128) :
    Host.tanh (addf (Host.dotGeneral dot_S850000x128_S128x128_S850000x128_1_0_0_1_n_n none (addf xn xa) W)
      (broadcastInDim S850000x128 ![0, 1] bcast_S1x128_S850000x128_0_1 (broadcastInDim S1x128 ![1] bcast_S128_S1x128_1 b))) (ix2 e k)
    = Ideal.tanh ((∑ l : Fin 128, (xn (ix2 e l) + xa (ix2 e l)) * W (ix2 l k)) + b (ix1 k)) := by
  have hd : Host.dotGeneral dot_S850000x128_S128x128_S850000x128_1_0_0_1_n_n none (addf xn xa) W
      = Cert.MatProd.matProd (addf xn xa) W := Cert.MatProd.hostDot_eq _ none (addf xn xa) W
  rw [hd]
  simp only [Host.tanh, Ideal.hostUnary_tanh_def, addf_apply, Cert.MatProd.matProd_ix2]
  rw [Cert.BiasRow.inDimRows_apply (m := 850000) (n := 128) b bcast_S128_S1x128_1 bcast_S1x128_S850000x128_0_1 e k]

/-- The reference's gate at edge e is the one-edge gate formula. -/
theorem gate_at (xn xa : FVec Ideal S850000x128 .f32) (W : FVec Ideal S128x128 .f32) (b : FVec Ideal S128 .f32)
    (v : FVec Ideal S128x1 .f32) (e : Fin 850000) :
    Stage.gate xn xa W b v (ix2 e (0 : Fin 1))
      = Cert.Gnn.gateAt (fun k => xn (ix2 e k)) (fun k => xa (ix2 e k)) (fun l k => W (ix2 l k)) (fun k => b (ix1 k))
          (fun k => v (ix2 k 0)) := by
  have hd : ∀ T : FVec Ideal S850000x128 .f32,
      Host.dotGeneral dot_S850000x128_S128x1_S850000x1_1_0_0_1_n_n none T v = Cert.MatProd.matProd T v :=
    fun T => Cert.MatProd.hostDot_eq _ none T v
  unfold Stage.gate Cert.Gnn.gateAt Ideal.logistic
  rw [hd]
  -- the hidden layer as one named array while the pointwise operations are read at the index
  generalize hT : Host.tanh (F := Ideal) (s := S850000x128) (φ := .f32) _ = T
  simp only [hostDivf_apply, addf_apply, Host.exp, Host.negf, Ideal.hostUnary_exp_def, Ideal.hostNegf_def,
    Ideal.negf_def, Cert.MatProd.matProd_ix2]
  rw [oneCol_apply, Ideal.ofBits_one_f32]
  subst hT
  refine congrArg (fun s => Ideal.div 1 (1 + Ideal.exp (-s))) (Finset.sum_congr rfl (fun c _ => ?_))
  rw [hiddenT_apply]

/-- The reference's message at edge e and column j. -/
theorem message_at (xn xa : FVec Ideal S850000x128 .f32) (wt : FVec Ideal S850000 .f32) (W : FVec Ideal S128x128 .f32)
    (b : FVec Ideal S128 .f32) (v : FVec Ideal S128x1 .f32) (e : Fin 850000) (j : Fin 128) :
    Stage.message xn xa wt W b v (ix2 e j)
      = Cert.Gnn.msgAt (fun k => xn (ix2 e k)) (fun k => xa (ix2 e k)) (wt (ix1 e)) (fun l k => W (ix2 l k)) (fun k => b (ix1 k))
          (fun k => v (ix2 k 0)) j := by
  unfold Stage.message Cert.Gnn.msgAt
  simp only [mulf_apply, addf_apply, subf_apply, spread_apply, gate_at]
  rw [asCol_apply, oneCol_apply]

end Cert.ReferenceIdeal.MsgRead

end
-- ==== Proof.LibScatterRead.lean ====
/- An accumulating host scatter read at one element (extended reals, exact sums).

   `stablehlo.scatter` with an `add` body whose start indices are an [E, 1] column of words — what a
   segment sum (`jax.ops.segment_sum`, `.at[ids].add`) lowers to — adds update row `e` into operand row `idx[e]`.
   Read at row `r`: the operand's element plus the sum of the update elements of the rows `e` whose start word,
   read signed, is `r`; a start outside the operand meets no row and is dropped. Two layouts: rows of width `C`
   ([R, C] operand, [E, C] updates; width 1 gives the column form), and scalars ([R] operand, [E] updates). -/
import Idealize.ShloMosaic.PureOps.Ideal
import Idealize.ShloMosaic.Lib.ValueIdx

noncomputable section

namespace Cert.ScatterRead

open Idealize.ShloMosaic Idealize.ShloMosaic.ValueIdx

/-! ## Rows -/

/-- The row layout's dimension numbers: window axis 1 of the updates, operand axis 0 inserted and scattered. -/
private abbrev rowsDims {R C E : Nat} (wf : ScatterDims.WF ⟨2, ![R, C]⟩ ⟨2, ![E, 1]⟩ ⟨2, ![E, C]⟩ [1] [0] [0] 1) :
    ScatterDims ⟨2, ![R, C]⟩ ⟨2, ![E, 1]⟩ ⟨2, ![E, C]⟩ :=
  { updateWindowDims := [1], insertedWindowDims := [0], scatterDimsToOperandDims := [0], indexVectorDim := 1, wf := wf }

/-- The start-index position an update index reads: its row, on the index vector's only component. -/
private theorem rows_siIdx {R C E : Nat} (wf : ScatterDims.WF ⟨2, ![R, C]⟩ ⟨2, ![E, 1]⟩ ⟨2, ![E, C]⟩ [1] [0] [0] 1)
    (e : Fin E) (k' : Fin C) :
    (rowsDims wf).siIdx (ix2 e k') ⟨0, Nat.zero_lt_one⟩ = ix2 e 0 := by
  funext b; match b with | ⟨0, _⟩ => rfl | ⟨1, _⟩ => rfl

/-- The window start on the operand's row axis: that word, read signed. -/
private theorem rows_start0 {R C E w : Nat} (wf : ScatterDims.WF ⟨2, ![R, C]⟩ ⟨2, ![E, 1]⟩ ⟨2, ![E, C]⟩ [1] [0] [0] 1)
    (idx : IVec ⟨2, ![E, 1]⟩ w) (e : Fin E) (k' : Fin C) :
    (rowsDims wf).start (ix2 e k') idx 0 = (idx (ix2 e 0)).toInt := by
  rw [← rows_siIdx wf e k']; rfl

/-- Update element (e, k') lands on operand element (r, k) exactly when row e's start word, read signed, is r and k' = k. -/
private theorem rows_resultIdx_iff {R C E w : Nat} (wf : ScatterDims.WF ⟨2, ![R, C]⟩ ⟨2, ![E, 1]⟩ ⟨2, ![E, C]⟩ [1] [0] [0] 1)
    (idx : IVec ⟨2, ![E, 1]⟩ w) (e : Fin E) (k' : Fin C) (r : Fin R) (k : Fin C) :
    (rowsDims wf).resultIdx? (ix2 e k') idx = some (ix2 r k) ↔ (idx (ix2 e 0)).toInt = (r.val : Int) ∧ k' = k := by
  have s0 := rows_start0 wf idx e k'
  have w0 : (rowsDims wf).window (ix2 e k') 0 = 0 := rfl
  have s1 : (rowsDims wf).start (ix2 e k') idx 1 = 0 := rfl
  have w1 : (rowsDims wf).window (ix2 e k') 1 = k'.val := rfl
  unfold ScatterDims.resultIdx?
  split
  · rename_i h
    have h0 := h 0
    rw [s0, w0] at h0
    constructor
    · intro hh
      have hh := Option.some.inj hh
      have e0 := congrArg Fin.val (congrFun hh 0)
      have e1 := congrArg Fin.val (congrFun hh 1)
      change ((rowsDims wf).start (ix2 e k') idx 0 + ((rowsDims wf).window (ix2 e k') 0 : Nat)).toNat = r.val at e0
      change ((rowsDims wf).start (ix2 e k') idx 1 + ((rowsDims wf).window (ix2 e k') 1 : Nat)).toNat = k.val at e1
      rw [s0, w0] at e0
      rw [s1, w1] at e1
      exact ⟨by omega, Fin.ext (by omega)⟩
    · rintro ⟨hr, hk⟩
      congr 1
      funext a
      match a with
      | ⟨0, _⟩ =>
        apply Fin.ext
        change ((rowsDims wf).start (ix2 e k') idx 0 + ((rowsDims wf).window (ix2 e k') 0 : Nat)).toNat = r.val
        rw [s0, w0]; omega
      | ⟨1, _⟩ =>
        apply Fin.ext
        change ((rowsDims wf).start (ix2 e k') idx 1 + ((rowsDims wf).window (ix2 e k') 1 : Nat)).toNat = k.val
        rw [s1, w1, hk]; omega
  · rename_i h
    constructor
    · intro hh; exact absurd hh (by simp)
    · rintro ⟨hr, hk⟩
      exfalso; apply h
      intro a
      match a with
      | ⟨0, _⟩ =>
        change 0 ≤ (rowsDims wf).start (ix2 e k') idx 0 + ((rowsDims wf).window (ix2 e k') 0 : Nat) ∧
          (rowsDims wf).start (ix2 e k') idx 0 + ((rowsDims wf).window (ix2 e k') 0 : Nat) < (R : Int)
        rw [s0, w0]; have := r.isLt; omega
      | ⟨1, _⟩ =>
        change 0 ≤ (rowsDims wf).start (ix2 e k') idx 1 + ((rowsDims wf).window (ix2 e k') 1 : Nat) ∧
          (rowsDims wf).start (ix2 e k') idx 1 + ((rowsDims wf).window (ix2 e k') 1 : Nat) < (C : Int)
        rw [s1, w1]; have := k'.isLt; omega

/-- Rows: operand [R, C], start indices [E, 1], updates [E, C]; update row `e` lands on operand row `idx[e, 0]`. -/
theorem scatterAdd_rows_apply {R C E w : Nat}
    (wf : ScatterDims.WF ⟨2, ![R, C]⟩ ⟨2, ![E, 1]⟩ ⟨2, ![E, C]⟩ [1] [0] [0] 1)
    (x : (⟨2, ![R, C]⟩ : Shape).Idx → EReal) (idx : IVec ⟨2, ![E, 1]⟩ w) (upd : (⟨2, ![E, C]⟩ : Shape).Idx → EReal)
    (r : Fin R) (k : Fin C) :
    Ideal.hostScatterAdd
        ({ updateWindowDims := [1], insertedWindowDims := [0], scatterDimsToOperandDims := [0], indexVectorDim := 1, wf := wf } :
          ScatterDims ⟨2, ![R, C]⟩ ⟨2, ![E, 1]⟩ ⟨2, ![E, C]⟩) x idx upd (ix2 r k)
      = x (ix2 r k) + ∑ e ∈ Finset.univ.filter (fun e : Fin E => (idx (ix2 e 0)).toInt = (r.val : Int)), upd (ix2 e k) := by
  change x (ix2 r k) + ∑ j ∈ Finset.univ.filter (fun j => (rowsDims wf).resultIdx? j idx = some (ix2 r k)), upd j = _
  congr 1
  rw [Finset.sum_filter, sum_idx2, Finset.sum_filter]
  refine Finset.sum_congr rfl fun e _ => ?_
  simp only [rows_resultIdx_iff]
  by_cases hr : (idx (ix2 e 0)).toInt = (r.val : Int)
  · simp only [hr, true_and, if_true]
    exact (Finset.sum_ite_eq' Finset.univ k fun b => upd (ix2 e b)).trans (if_pos (Finset.mem_univ k))
  · simp only [hr, false_and, if_false, Finset.sum_const_zero]

/-! ## Scalars -/

/-- The scalar layout's dimension numbers: no window axis, operand axis 0 inserted and scattered. -/
private abbrev vecDims {R E : Nat} (wf : ScatterDims.WF ⟨1, ![R]⟩ ⟨2, ![E, 1]⟩ ⟨1, ![E]⟩ [] [0] [0] 1) :
    ScatterDims ⟨1, ![R]⟩ ⟨2, ![E, 1]⟩ ⟨1, ![E]⟩ :=
  { updateWindowDims := [], insertedWindowDims := [0], scatterDimsToOperandDims := [0], indexVectorDim := 1, wf := wf }

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The start-index position a scalar update reads: its own position, on the index vector's only component. -/
private theorem vec_siIdx {R E : Nat} (wf : ScatterDims.WF ⟨1, ![R]⟩ ⟨2, ![E, 1]⟩ ⟨1, ![E]⟩ [] [0] [0] 1) (e : Fin E) :
    (vecDims wf).siIdx (ix1 e) ⟨0, Nat.zero_lt_one⟩ = ix2 e 0 := by
  funext b; match b with | ⟨0, _⟩ => rfl | ⟨1, _⟩ => rfl

/-- The window start on the operand's axis: that word, read signed. -/
private theorem vec_start0 {R E w : Nat} (wf : ScatterDims.WF ⟨1, ![R]⟩ ⟨2, ![E, 1]⟩ ⟨1, ![E]⟩ [] [0] [0] 1)
    (idx : IVec ⟨2, ![E, 1]⟩ w) (e : Fin E) :
    (vecDims wf).start (ix1 e) idx 0 = (idx (ix2 e 0)).toInt := by
  rw [← vec_siIdx wf e]; rfl

/-- Update element e lands on operand element r exactly when its start word, read signed, is r. -/
private theorem vec_resultIdx_iff {R E w : Nat} (wf : ScatterDims.WF ⟨1, ![R]⟩ ⟨2, ![E, 1]⟩ ⟨1, ![E]⟩ [] [0] [0] 1)
    (idx : IVec ⟨2, ![E, 1]⟩ w) (e : Fin E) (r : Fin R) :
    (vecDims wf).resultIdx? (ix1 e) idx = some (ix1 r) ↔ (idx (ix2 e 0)).toInt = (r.val : Int) := by
  have s0 := vec_start0 wf idx e
  have w0 : (vecDims wf).window (ix1 e) 0 = 0 := rfl
  unfold ScatterDims.resultIdx?
  split
  · rename_i h
    have h0 := h 0
    rw [s0, w0] at h0
    constructor
    · intro hh
      have hh := Option.some.inj hh
      have e0 := congrArg Fin.val (congrFun hh 0)
      change ((vecDims wf).start (ix1 e) idx 0 + ((vecDims wf).window (ix1 e) 0 : Nat)).toNat = r.val at e0
      rw [s0, w0] at e0
      omega
    · intro hr
      congr 1
      funext a
      match a with
      | ⟨0, _⟩ =>
        apply Fin.ext
        change ((vecDims wf).start (ix1 e) idx 0 + ((vecDims wf).window (ix1 e) 0 : Nat)).toNat = r.val
        rw [s0, w0]; omega
  · rename_i h
    constructor
    · intro hh; exact absurd hh (by simp)
    · intro hr
      exfalso; apply h
      intro a
      match a with
      | ⟨0, _⟩ =>
        change 0 ≤ (vecDims wf).start (ix1 e) idx 0 + ((vecDims wf).window (ix1 e) 0 : Nat) ∧
          (vecDims wf).start (ix1 e) idx 0 + ((vecDims wf).window (ix1 e) 0 : Nat) < (R : Int)
        rw [s0, w0]; have := r.isLt; omega

/-- Scalars: operand [R], start indices [E, 1], updates [E]; update `e` lands on operand element `idx[e, 0]`. -/
theorem scatterAdd_vec_apply {R E w : Nat}
    (wf : ScatterDims.WF ⟨1, ![R]⟩ ⟨2, ![E, 1]⟩ ⟨1, ![E]⟩ [] [0] [0] 1)
    (x : (⟨1, ![R]⟩ : Shape).Idx → EReal) (idx : IVec ⟨2, ![E, 1]⟩ w) (upd : (⟨1, ![E]⟩ : Shape).Idx → EReal)
    (r : Fin R) :
    Ideal.hostScatterAdd
        ({ updateWindowDims := [], insertedWindowDims := [0], scatterDimsToOperandDims := [0], indexVectorDim := 1, wf := wf } :
          ScatterDims ⟨1, ![R]⟩ ⟨2, ![E, 1]⟩ ⟨1, ![E]⟩) x idx upd (ix1 r)
      = x (ix1 r) + ∑ e ∈ Finset.univ.filter (fun e : Fin E => (idx (ix2 e 0)).toInt = (r.val : Int)), upd (ix1 e) := by
  change x (ix1 r) + ∑ j ∈ Finset.univ.filter (fun j => (vecDims wf).resultIdx? j idx = some (ix1 r)), upd j = _
  congr 1
  rw [Finset.sum_filter, sum_idx1, Finset.sum_filter]
  refine Finset.sum_congr rfl fun e _ => ?_
  simp only [vec_resultIdx_iff]

end Cert.ScatterRead

end
-- ==== Proof.PadAggr.lean ====
/- Padding read at a row; wrapped non-negative ids; the padded sum of messages is the reference's. -/
import proofs.«118317_j46377056862932_1_alg».proof.Proof.KTerms
import proofs.«118317_j46377056862932_1_alg».proof.Proof.LibScatterRead
import Idealize.ShloMosaic.Lib.KernelVsHost
import Idealize.ShloMosaic.Lib.ValueLayout
import Idealize.ShloMosaic.Lib.StableHlo.Predicate

noncomputable section

namespace Cert.KernelIdeal.PadAggr

open Idealize.ShloMosaic Idealize.ShloMosaic.TcCoe Idealize.SL.Sem Idealize.ShloMosaic.ValueIdx
open Cert.KernelIdeal Cert.KernelIdeal.Gen
open Cert.KernelIdeal.Terms

/-! ## Padding at a row -/

/-- The padding value: the integer word 0 converted, which over the extended reals is 0. -/
private theorem padValue_eq (j : S_.Idx) : (sitofp .f32 (constantI S_ 32 0#32) : FVec Ideal S_ .f32) j = 0 := by
  show (((0#32 : BitVec 32).toInt : ℝ) : EReal) = 0
  rw [BitVec.toInt_zero]; simp

theorem padRows_lo (x : FVec Ideal S850000x128 .f32) (e : Fin 851968) (h : e.val < 850000) (k : Fin 128) :
    padRows x (ix2 e k) = x (ix2 ⟨e.val, h⟩ k) := by
  unfold padRows
  refine pad_apply_of_inside _ _ _ x _ _ _ (ix2 e k) (ix2 ⟨e.val, h⟩ k) fun a => ?_
  match a with
  | ⟨0, _⟩ => show e.val = 0 + e.val * (0 + 1); omega
  | ⟨1, _⟩ => show k.val = 0 + k.val * (0 + 1); omega

theorem padRows_hi (x : FVec Ideal S850000x128 .f32) (e : Fin 851968) (h : 850000 ≤ e.val) (k : Fin 128) :
    padRows x (ix2 e k) = 0 := by
  unfold padRows
  rw [pad_apply_of_not_inside _ _ _ x _ _ _ (ix2 e k) ⟨0, by decide⟩ (by
    show ¬(0 ≤ e.val ∧ (e.val - 0) % (0 + 1) = 0 ∧ (e.val - 0) / (0 + 1) < 850000)
    omega)]
  exact padValue_eq _

theorem padCol_lo (x : FVec Ideal S850000x1 .f32) (e : Fin 851968) (h : e.val < 850000) :
    padCol x (ix2 e 0) = x (ix2 ⟨e.val, h⟩ 0) := by
  unfold padCol
  refine pad_apply_of_inside _ _ _ x _ _ _ (ix2 e 0) (ix2 ⟨e.val, h⟩ 0) fun a => ?_
  match a with
  | ⟨0, _⟩ => show e.val = 0 + e.val * (0 + 1); omega
  | ⟨1, _⟩ => rfl

theorem padCol_hi (x : FVec Ideal S850000x1 .f32) (e : Fin 851968) (h : 850000 ≤ e.val) :
    padCol x (ix2 e 0) = 0 := by
  unfold padCol
  rw [pad_apply_of_not_inside _ _ _ x _ _ _ (ix2 e 0) ⟨0, by decide⟩ (by
    show ¬(0 ≤ e.val ∧ (e.val - 0) % (0 + 1) = 0 ∧ (e.val - 0) / (0 + 1) < 850000)
    omega)]
  exact padValue_eq _

/-- The weight column at a row is the weight of that edge. -/
theorem weightCol_apply (wt : FVec Ideal S850000 .f32) (e : Fin 850000) : weightCol wt (ix2 e 0) = wt (ix1 e) := by
  unfold weightCol
  refine broadcastInDim_apply _ _ wt (ix2 e 0) (ix1 e) fun a => ?_
  match a with
  | ⟨0, _⟩ => rfl

/-- The attention row at a column is the attention vector's entry. -/
theorem vRow_apply (v : FVec Ideal S128x1 .f32) (k : Fin 128) : vRow v (ix2 0 k) = v (ix2 k 0) := by
  unfold vRow
  exact transpose_ix2_apply v _ 0 k

/-! ## Non-negative target ids -/

/-- A word that is non-negative read signed is not below the zero word, so the selection on that compare keeps it. -/
private theorem select_slt_zero (w a : BitVec 32) (h : 0 ≤ w.toInt) :
    Scalar.select (IntOp.cmpi .slt w 0#32) a w = w := by
  have hs : w.slt 0#32 = false := by
    unfold BitVec.slt
    rw [BitVec.toInt_zero]
    exact decide_eq_false (not_lt.mpr h)
  have hc : IntOp.cmpi .slt w 0#32 = 0#1 := by
    show BitVec.ofBool (w.slt 0#32) = 0#1
    rw [hs]; rfl
  rw [hc]; exact select_zero _ _

/-- A list of non-negative ids is read by array indexing as itself. -/
theorem wrap_eq_self (i : IVec S850000 32) (h : ∀ e : Fin 850000, 0 ≤ (i (ix1 e)).toInt) :
    Cert.ReferenceIdeal.Stage.wrap i = i := by
  funext j
  rw [eq_ix1 j]
  exact select_slt_zero (i (ix1 (j 0))) _ (h (j 0))

/-! ## The padded ids -/

/-- Below the original length the padded list is the list. -/
private theorem padIds_lo (col : IVec S850000 32) (e : Fin 851968) (h : e.val < 850000) :
    padIds col (ix1 e) = col (ix1 ⟨e.val, h⟩) := by
  unfold padIds
  refine pad_apply_of_inside _ _ _ col _ _ _ (ix1 e) (ix1 ⟨e.val, h⟩) fun a => ?_
  match a with
  | ⟨0, _⟩ => show e.val = 0 + e.val * (0 + 1); omega

/-- From the original length on the padded list holds the zero word. -/
private theorem padIds_hi (col : IVec S850000 32) (e : Fin 851968) (h : 850000 ≤ e.val) :
    padIds col (ix1 e) = 0#32 := by
  unfold padIds
  rw [pad_apply_of_not_inside _ _ _ col _ _ _ (ix1 e) ⟨0, by decide⟩ (by
    show ¬(0 ≤ e.val ∧ (e.val - 0) % (0 + 1) = 0 ∧ (e.val - 0) / (0 + 1) < 850000)
    omega)]
  rfl

/-- Padding non-negative ids with zeros leaves every id non-negative, so indexing reads the padded list as itself. -/
private theorem wrapP_padIds (col : IVec S850000 32) (hcol : ∀ e : Fin 850000, 0 ≤ (col (ix1 e)).toInt) :
    wrapP (padIds col) = padIds col := by
  funext j
  rw [eq_ix1 j]
  refine select_slt_zero (padIds col (ix1 (j 0))) _ ?_
  by_cases h : (j 0).val < 850000
  · rw [padIds_lo col (j 0) h]; exact hcol _
  · rw [padIds_hi col (j 0) (by omega), BitVec.toInt_zero]

/-! ## The two sums read at an entry -/

/-- The kernel program's dimension numbers are the row layout's. -/
private theorem dimsK_eq : scatter_S50000x128_S851968x1_S851968x128_1_0_0_1
    = ({ updateWindowDims := [1], insertedWindowDims := [0], scatterDimsToOperandDims := [0], indexVectorDim := 1,
         wf := scatter_S50000x128_S851968x1_S851968x128_1_0_0_1_wf } :
        ScatterDims ⟨2, ![50000, 128]⟩ ⟨2, ![851968, 1]⟩ ⟨2, ![851968, 128]⟩) := rfl

/-- The reference's dimension numbers are the row layout's. -/
private theorem dimsR_eq : Cert.ReferenceIdeal.scatter_S50000x128_S850000x1_S850000x128_1_0_0_1
    = ({ updateWindowDims := [1], insertedWindowDims := [0], scatterDimsToOperandDims := [0], indexVectorDim := 1,
         wf := Cert.ReferenceIdeal.Gen.scatter_S50000x128_S850000x1_S850000x128_1_0_0_1_wf } :
        ScatterDims ⟨2, ![50000, 128]⟩ ⟨2, ![850000, 1]⟩ ⟨2, ![850000, 128]⟩) := rfl

/-- The kernel program's sum read at an entry: the zero entry plus the update rows whose start word is that row. -/
private theorem aggregateP_apply (ids : IVec S851968 32) (msg : FVec Ideal S851968x128 .f32) (r : Fin 50000) (k : Fin 128) :
    aggregateP ids msg (ix2 r k)
      = (broadcastInDim S50000x128 ![] bcast_S_S50000x128 (constant S_ .f32 0x00000000#32) : FVec Ideal S50000x128 .f32) (ix2 r k)
        + ∑ e ∈ Finset.univ.filter (fun e : Fin 851968 =>
            ((broadcastInDim S851968x1 ![0] bcast_S851968_S851968x1_0 (wrapP ids) : IVec S851968x1 32) (ix2 e 0)).toInt = (r.val : Int)),
          msg (ix2 e k) := by
  rw [aggregateP, Host.scatterAdd, Ideal.hostScatterAdd_def, dimsK_eq]
  exact Cert.ScatterRead.scatterAdd_rows_apply (R := 50000) (C := 128) (E := 851968)
    scatter_S50000x128_S851968x1_S851968x128_1_0_0_1_wf _ _ msg r k

/-- The reference's sum read at an entry. -/
private theorem aggregate_apply (msg : FVec Ideal Cert.ReferenceIdeal.S850000x128 .f32) (c : IVec Cert.ReferenceIdeal.S850000 32) (r : Fin 50000) (k : Fin 128) :
    Cert.ReferenceIdeal.Stage.aggregate msg c (ix2 r k)
      = (broadcastInDim Cert.ReferenceIdeal.S50000x128 ![] Cert.ReferenceIdeal.Gen.bcast_S_S50000x128
            (constant Cert.ReferenceIdeal.S_ .f32 0x00000000#32) : FVec Ideal Cert.ReferenceIdeal.S50000x128 .f32) (ix2 r k)
        + ∑ e ∈ Finset.univ.filter (fun e : Fin 850000 =>
            ((broadcastInDim Cert.ReferenceIdeal.S850000x1 ![0] Cert.ReferenceIdeal.Gen.bcast_S850000_S850000x1_0 c :
              IVec Cert.ReferenceIdeal.S850000x1 32) (ix2 e 0)).toInt = (r.val : Int)),
          msg (ix2 e k) := by
  rw [Cert.ReferenceIdeal.Stage.aggregate, Cert.ReferenceIdeal.Stage.asColumn, Host.scatterAdd, Ideal.hostScatterAdd_def, dimsR_eq]
  exact Cert.ScatterRead.scatterAdd_rows_apply (R := 50000) (C := 128) (E := 850000)
    Cert.ReferenceIdeal.Gen.scatter_S50000x128_S850000x1_S850000x128_1_0_0_1_wf _ _ msg r k

/-! ## The padded sum -/

/-- A sum over the first `n` naturals whose terms from `m` on vanish is the sum of its first `m` terms. -/
private theorem sum_fin_of_tail_zero {M : Type*} [AddCommMonoid M] {m n : Nat} (hmn : m ≤ n) (f : Fin n → M)
    (hz : ∀ e : Fin n, m ≤ e.val → f e = 0) : ∑ e : Fin n, f e = ∑ e : Fin m, f (Fin.castLE hmn e) := by
  obtain ⟨p, rfl⟩ := Nat.exists_eq_add_of_le hmn
  rw [Fin.sum_univ_add]
  have h2 : ∑ i : Fin p, f (Fin.natAdd m i) = 0 :=
    Finset.sum_eq_zero fun i _ => hz _ (by rw [Fin.coe_natAdd]; omega)
  rw [h2, add_zero]
  rfl

/-- The start word of a padded row below the original length is that edge's target id. -/
private theorem startK_lo (col : IVec S850000 32) (hcol : ∀ e : Fin 850000, 0 ≤ (col (ix1 e)).toInt) (e : Fin 850000) :
    (broadcastInDim S851968x1 ![0] bcast_S851968_S851968x1_0 (wrapP (padIds col)) : IVec S851968x1 32)
      (ix2 (Fin.castLE (show 850000 ≤ 851968 by omega) e) 0) = col (ix1 e) := by
  rw [broadcastInDim_apply _ _ _ (ix2 (Fin.castLE (show 850000 ≤ 851968 by omega) e) 0)
    (ix1 (Fin.castLE (show 850000 ≤ 851968 by omega) e)) (fun a => match a with | ⟨0, _⟩ => rfl),
    wrapP_padIds col hcol, padIds_lo col _ e.isLt]
  rfl

/-- The start word of a reference row is that edge's target id. -/
private theorem startR (col : IVec S850000 32) (e : Fin 850000) :
    (broadcastInDim Cert.ReferenceIdeal.S850000x1 ![0] Cert.ReferenceIdeal.Gen.bcast_S850000_S850000x1_0 col :
      IVec Cert.ReferenceIdeal.S850000x1 32) (ix2 e 0) = col (ix1 e) :=
  broadcastInDim_apply _ _ col (ix2 e 0) (ix1 e) (fun a => match a with | ⟨0, _⟩ => rfl)

/-- Summing the padded message rows into their wrapped padded targets is the reference's sum, when the targets are
    non-negative, the first 850000 rows are the reference's messages and the padding rows are zero. -/
theorem aggregate_padded (col : IVec S850000 32) (hcol : ∀ e : Fin 850000, 0 ≤ (col (ix1 e)).toInt)
    (msgK : FVec Ideal S851968x128 .f32) (msgR : FVec Ideal S850000x128 .f32)
    (hlo : ∀ (e : Fin 851968) (h : e.val < 850000) (j : Fin 128), msgK (ix2 e j) = msgR (ix2 ⟨e.val, h⟩ j))
    (hhi : ∀ (e : Fin 851968) (j : Fin 128), 850000 ≤ e.val → msgK (ix2 e j) = 0) :
    aggregateP (padIds col) msgK = Cert.ReferenceIdeal.Stage.aggregate msgR col := by
  funext j
  rw [eq_ix2 j]
  -- each side at (r, k): the zero entry plus the sum of the update rows whose start word is r
  refine (aggregateP_apply (padIds col) msgK (j 0) (j 1)).trans ?_
  refine Eq.trans ?_ (aggregate_apply msgR col (j 0) (j 1)).symm
  refine congrArg₂ (· + ·) rfl ?_
  rw [Finset.sum_filter, Finset.sum_filter]
  -- the padding rows add nothing
  refine (sum_fin_of_tail_zero (show 850000 ≤ 851968 by omega) _ fun e he => ?_).trans ?_
  · rw [hhi e (j 1) he, ite_self]
  -- the first 850000 rows: same start word, same row
  refine Finset.sum_congr rfl fun e _ => ?_
  rw [startK_lo col hcol e, startR col e, hlo _ e.isLt (j 1)]
  rfl

end Cert.KernelIdeal.PadAggr

end
-- ==== Proof.PreCol.lean ====
/- Under the precondition every target id is non-negative. -/
import proofs.«118317_j46377056862932_1_alg».proof.Proof.Gen.KernelIdeal
import proofs.«118317_j46377056862932_1_alg».proof.Proof.Stages
import proofs.«118317_j46377056862932_1_alg».proof.Proof.Gen.Pre_finite_inputs
import proofs.«118317_j46377056862932_1_alg».proof.Defs
import Idealize.ShloMosaic.Lib.ReduceAll
import Idealize.ShloMosaic.Lib.StableHlo.Predicate
import Idealize.ShloMosaic.Lib.ValueIdx
import Idealize.ShloMosaic.Lib.Pipeline.Value

noncomputable section

namespace Cert.KernelIdeal.PreCol

open Idealize.ShloMosaic Idealize.ShloMosaic.TcCoe Idealize.SL.Sem Idealize.ShloMosaic.ValueIdx
open Cert.KernelIdeal Cert.KernelIdeal.Gen

section Reads
open Cert.ReferenceIdeal Cert.ReferenceIdeal.Stage

set_option maxHeartbeats 400000 in
/-- A given edge's target id is the entry of row 1 of the edge list. -/
theorem col_given (ei : IVec Cert.ReferenceIdeal.S2x800000 32) (e : Fin 850000) (he : e.val < 800000) :
    Cert.ReferenceIdeal.Stage.col ei (ix1 e) = ei (ix2 (1 : Fin 2) (⟨e.val, he⟩ : Fin 800000)) := by
  unfold Cert.ReferenceIdeal.Stage.col
  rw [shapeCast_apply _ _ (ix1 e) (ix2 (0 : Fin 1) e)
    (by rw [Shape.rowMajor_val_two, Shape.rowMajor_val_one]; simp)]
  rw [extractStridedSlice_apply _ _ _ (ix2 (0 : Fin 1) e) (ix2 (1 : Fin 2) e)
    (by intro a; fin_cases a <;> simp)]
  unfold Cert.ReferenceIdeal.Stage.edges
  exact concatenate_pair_apply_left (t := Cert.ReferenceIdeal.S2x850000) (s₁ := Cert.ReferenceIdeal.S2x800000)
    (s₂ := Cert.ReferenceIdeal.S2x50000) (1 : Fin 2) ei _ _ (ix2 (1 : Fin 2) e) rfl
    (ix2 (n0 := 2) (n1 := 800000) (1 : Fin 2) (⟨e.val, he⟩ : Fin 800000))
    (by intro b; fin_cases b <;> rfl)

set_option maxHeartbeats 400000 in
/-- A self loop's target id is its node number, as a word. -/
theorem col_loop (ei : IVec Cert.ReferenceIdeal.S2x800000 32) (e : Fin 850000) (he : 800000 ≤ e.val) :
    Cert.ReferenceIdeal.Stage.col ei (ix1 e) = BitVec.ofNat 32 (e.val - 800000) := by
  have hk : e.val - 800000 < 50000 := by have := e.isLt; omega
  unfold Cert.ReferenceIdeal.Stage.col
  rw [shapeCast_apply _ _ (ix1 e) (ix2 (0 : Fin 1) e)
    (by rw [Shape.rowMajor_val_two, Shape.rowMajor_val_one]; simp)]
  rw [extractStridedSlice_apply _ _ _ (ix2 (0 : Fin 1) e) (ix2 (1 : Fin 2) e)
    (by intro a; fin_cases a <;> simp)]
  unfold Cert.ReferenceIdeal.Stage.edges
  rw [concatenate_pair_apply_right (t := Cert.ReferenceIdeal.S2x850000) (s₁ := Cert.ReferenceIdeal.S2x800000)
    (s₂ := Cert.ReferenceIdeal.S2x50000) (1 : Fin 2) ei _ _ (ix2 (1 : Fin 2) e) rfl rfl
    (ix2 (n0 := 2) (n1 := 50000) (1 : Fin 2) (⟨e.val - 800000, hk⟩ : Fin 50000))
    (by intro b hb; fin_cases b
        · rfl
        · exact absurd rfl hb)
    (by show (e.val - 800000) + 800000 = e.val; omega)]
  rw [shapeCast_apply _ _ (ix2 (n0 := 2) (n1 := 50000) (1 : Fin 2) (⟨e.val - 800000, hk⟩ : Fin 50000))
    (ix4 (1 : Fin 2) (0 : Fin 1) (0 : Fin 1) (⟨e.val - 800000, hk⟩ : Fin 50000))
    (by rw [Shape.rowMajor_val_four, Shape.rowMajor_val_two]; simp)]
  rw [broadcastInDim_apply _ _ _ (ix4 (1 : Fin 2) (0 : Fin 1) (0 : Fin 1) (⟨e.val - 800000, hk⟩ : Fin 50000))
    (ix4 (0 : Fin 1) (0 : Fin 1) (0 : Fin 1) (⟨e.val - 800000, hk⟩ : Fin 50000))
    (by intro a; fin_cases a <;> simp)]
  rw [shapeCast_apply _ _ (ix4 (0 : Fin 1) (0 : Fin 1) (0 : Fin 1) (⟨e.val - 800000, hk⟩ : Fin 50000))
    (ix2 (0 : Fin 1) (⟨e.val - 800000, hk⟩ : Fin 50000))
    (by rw [Shape.rowMajor_val_four, Shape.rowMajor_val_two]; simp)]
  rw [broadcastInDim_apply _ _ _ (ix2 (0 : Fin 1) (⟨e.val - 800000, hk⟩ : Fin 50000))
    (ix1 (⟨e.val - 800000, hk⟩ : Fin 50000))
    (by intro a; fin_cases a; simp)]
  rfl

end Reads

section Decode

instance : Subsingleton Cert.Pre_finite_inputs.S_.Idx := ⟨fun a b => funext fun d => d.elim0⟩

set_option maxHeartbeats 400000 in
/-- The precondition's last conjunct, read at one given edge: its target id is non-negative as a signed word. -/
theorem given_nonneg (ei : IVec Cert.Pre_finite_inputs.S2x800000 32) (v63 v67 : IVec Cert.Pre_finite_inputs.S_ 1)
    (h : Cert.Pre_finite_inputs.fn_part4 (F := Ideal) ei v63 v67 ix0 = 1#1) (k : Fin 800000) :
    0 ≤ (ei (ix2 (1 : Fin 2) k)).toInt := by
  dsimp only [Cert.Pre_finite_inputs.fn_part4] at h
  have h2 := (IntOp.andi_eq_one.1 h).2
  have h3 := Host.reduce_andi_all _ _ _ _ _ h2 (ix1 k)
  have h4 := IntOp.cmpi_sge.1 h3
  rw [shapeCast_apply _ _ (ix1 k) (ix2 (0 : Fin 1) k)
      (by rw [Shape.rowMajor_val_two, Shape.rowMajor_val_one]; simp),
    extractStridedSlice_apply _ _ _ (ix2 (0 : Fin 1) k) (ix2 (1 : Fin 2) k)
      (by intro a; fin_cases a <;> simp)] at h4
  have h5 : (0#32 : BitVec 32).toInt ≤ (ei (ix2 (1 : Fin 2) k)).toInt := h4
  simpa using h5

end Decode

/-- Under the precondition every target id (the given ones by its last conjunct, the self loops by construction) is non-negative. -/
theorem col_nonneg (m : (ℓ : Loc nD τ sig) → Buf (Elt Ideal) ℓ)
    (hpre : Cert.Pre_KernelIdeal (hPre_finite_inputs := Cert.Pre_finite_inputs.Gen.facts) m) (c : Dev nD) (e : Fin 850000) :
    0 ≤ (Cert.ReferenceIdeal.Stage.col (m ((c.tc : Thread nD τ).loc main_arg1)) (ix1 e)).toInt := by
  by_cases he : e.val < 800000
  · -- a given edge: the precondition's last conjunct speaks of exactly this entry
    rw [col_given _ e he]
    have h := congrFun (hpre c) ix0
    dsimp only [Cert.Pre_finite_inputs.fn, Cert.Pre_finite_inputs.fn_part1, Cert.Pre_finite_inputs.fn_part2,
      Cert.Pre_finite_inputs.fn_part3] at h
    exact given_nonneg _ _ _ h ⟨e.val, he⟩
  · -- a self loop: the id is a node number below 50000, so its signed reading is that number
    rw [col_loop _ e (by omega)]
    rw [StableHlo.Predicate.toInt_ofNat_small _ (by have := e.isLt; omega)]
    exact Int.natCast_nonneg _

end Cert.KernelIdeal.PreCol

end
-- ==== Proof.KValue.lean ====
/-
  The kernel program's result, as launched from a memory satisfying the precondition, is the reference's function
  of the arguments.

  Walking back from the result buffer: the head region's blocks are the reference's head of the aggregated
  messages; the aggregate the program feeds it is the sum, over the padded edge list, of the attention region's
  rows into the wrapped padded target ids; the first 850000 of those rows are the reference's messages (both
  are the one-edge formula of the same gathered rows, the gathers taken from the projection region's blocks,
  which are the reference's projected features), the 1968 padding rows are zero, and the wrap is the identity
  on the non-negative target ids the precondition grants — also inside the degree count.
-/
import proofs.«118317_j46377056862932_1_alg».proof.Proof.KHost
import proofs.«118317_j46377056862932_1_alg».proof.Proof.KRegion0
import proofs.«118317_j46377056862932_1_alg».proof.Proof.KRegion1
import proofs.«118317_j46377056862932_1_alg».proof.Proof.KRegion2
import proofs.«118317_j46377056862932_1_alg».proof.Proof.RefMsg
import proofs.«118317_j46377056862932_1_alg».proof.Proof.PadAggr
import proofs.«118317_j46377056862932_1_alg».proof.Proof.PreCol

noncomputable section

namespace Cert.KernelIdeal.Value

open Idealize.ShloMosaic Idealize.ShloMosaic.TcCoe Idealize.SL.Sem Idealize.ShloMosaic.ValueIdx
open Cert.KernelIdeal Cert.KernelIdeal.Gen
open Idealize.ShloMosaic.ValueIdx
open Cert.KernelIdeal.Terms Cert.ReferenceIdeal

variable (m : (ℓ : Loc nD τ sig) → Buf (Elt Ideal) ℓ) (ρ : Dev nD → PrngReg)

/-- The attention region's result rows, below the padding, are the reference's messages. -/
theorem msg_lo (c : Dev nD)
    (hwrap : Stage.wrap (Stage.col (m ((c.tc : Thread nD τ).loc main_arg1))) = Stage.col (m ((c.tc : Thread nD τ).loc main_arg1)))
    (e : Fin 851968) (h : e.val < 850000) (j : Fin 128) :
    ((dat1 (F := Ideal) (V15 m ρ) c).arrAt 6 cfg1.N : FVec Ideal S851968x128 .f32) (ix2 e j)
      = Stage.message (F := Ideal)
          (Stage.alongEdges (Stage.xnor (Stage.hidden (m ((c.tc : Thread nD τ).loc main_arg0)) (m ((c.tc : Thread nD τ).loc main_arg2)) (m ((c.tc : Thread nD τ).loc main_arg3))) (m ((c.tc : Thread nD τ).loc main_arg4)) (m ((c.tc : Thread nD τ).loc main_arg5))) (Stage.row (m ((c.tc : Thread nD τ).loc main_arg1))))
          (Stage.alongEdges (Stage.xabnor (Stage.hidden (m ((c.tc : Thread nD τ).loc main_arg0)) (m ((c.tc : Thread nD τ).loc main_arg2)) (m ((c.tc : Thread nD τ).loc main_arg3))) (m ((c.tc : Thread nD τ).loc main_arg6)) (m ((c.tc : Thread nD τ).loc main_arg7))) (Stage.row (m ((c.tc : Thread nD τ).loc main_arg1))))
          (Stage.weight (Stage.dinv (Stage.degree (Stage.asColumn (Stage.col (m ((c.tc : Thread nD τ).loc main_arg1)))))) (Stage.row (m ((c.tc : Thread nD τ).loc main_arg1))) (Stage.col (m ((c.tc : Thread nD τ).loc main_arg1))))
          (m ((c.tc : Thread nD τ).loc main_arg8)) (m ((c.tc : Thread nD τ).loc main_arg9)) (m ((c.tc : Thread nD τ).loc main_arg10)) (ix2 ⟨e.val, h⟩ j) := by
  rw [Region1.msg_at (V15 m ρ) c e j, MsgRead.message_at]
  rw [Host.V15_v57 m ρ c, Host.V15_v58 m ρ c, Host.V15_v59 m ρ c, Host.V15_arg8 m ρ c, Host.V15_arg9 m ρ c, Host.V15_v61 m ρ c]
  simp only [PadAggr.padRows_lo _ e h, PadAggr.padCol_lo _ e h, PadAggr.weightCol_apply, PadAggr.vRow_apply]
  rw [Region0.xnor_eq (V1 m ρ) c, Region0.xabnor_eq (V1 m ρ) c, Host.V1_arg0 m ρ c, Host.V1_arg2 m ρ c, Host.V1_arg3 m ρ c,
    Host.V1_arg4 m ρ c, Host.V1_arg5 m ρ c, Host.V1_arg6 m ρ c, Host.V1_arg7 m ρ c, hwrap]

/-- The attention region's padding rows are zero. -/
theorem msg_hi (c : Dev nD) (e : Fin 851968) (j : Fin 128) (h : 850000 ≤ e.val) :
    ((dat1 (F := Ideal) (V15 m ρ) c).arrAt 6 cfg1.N : FVec Ideal S851968x128 .f32) (ix2 e j) = (0 : EReal) := by
  rw [Region1.msg_at (V15 m ρ) c e j]
  rw [Host.V15_v57 m ρ c, Host.V15_v58 m ρ c, Host.V15_v59 m ρ c]
  simp only [PadAggr.padRows_hi _ e h, PadAggr.padCol_hi _ e h]
  exact Cert.Gnn.msgAt_zero _ _ _ _

/-- The program's result buffer at the last boundary is the reference's result of the launch contents. -/
theorem result_eq (hpre : Cert.Pre_KernelIdeal (hPre_finite_inputs := Cert.Pre_finite_inputs.Gen.facts) m) (c : Dev nD) :
    W18 m ρ c (Proc.devRef .tc main_v71)
      = Stage.result (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  have hcol : ∀ e : Fin 850000, 0 ≤ (Stage.col (m ((c.tc : Thread nD τ).loc main_arg1)) (ix1 e)).toInt := fun e => PreCol.col_nonneg m hpre c e
  have hwrap : Stage.wrap (Stage.col (m ((c.tc : Thread nD τ).loc main_arg1))) = Stage.col (m ((c.tc : Thread nD τ).loc main_arg1)) := PadAggr.wrap_eq_self _ hcol
  rw [Host.W18_v71 m ρ c, Region2.head_eq (V17 m ρ) c, Host.V17_v70 m ρ c, Host.V17_arg11 m ρ c, Host.V17_arg12 m ρ c,
    Host.V17_arg13 m ρ c, Host.V17_arg14 m ρ c]
  rw [PadAggr.aggregate_padded _ hcol _ _ (fun e h j => msg_lo m ρ c hwrap e h j) (fun e j h => msg_hi m ρ c e j h)]
  rfl

end Cert.KernelIdeal.Value

end
-- ==== Proof.RefRun.lean ====
/- The reference program's run: every weakly fair execution ends with its result buffer at the composed stages of the
   arguments, the arguments unchanged. -/
import proofs.«118317_j46377056862932_1_alg».proof.Proof.Gen.ReferenceIdeal
import proofs.«118317_j46377056862932_1_alg».proof.Proof.Stages
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The first sixty statements of @main as a list of host operations: the edge list with its self loops, the node
    projection (the rectifier's seven operations inline over its call's buffers), the degree sum, its inverse root
    (each guarded selection's three operations inline) and the two gathers of it along the edges. -/
abbrev ops0 : List (HloOp τ sig (Elt F)) :=
  [ StableHlo.nullary main_v0 (iotaInDim S50000 32 0),
    StableHlo.unary main_v0 main_v1 (broadcastInDim S1x50000 ![1] bcast_S50000_S1x50000_1 : (⟨S50000, .i32⟩ : BufTy).Contents (Elt F) → (⟨S1x50000, .i32⟩ : BufTy).Contents (Elt F)),
    StableHlo.reshape main_v1 main_v2 rfl shapeCasts_S1x50000_S1x1x1x50000,
    StableHlo.unary main_v2 main_v3 (broadcastInDim S2x1x1x50000 ![0, 1, 2, 3] bcast_S1x1x1x50000_S2x1x1x50000_0_1_2_3 : (⟨S1x1x1x50000, .i32⟩ : BufTy).Contents (Elt F) → (⟨S2x1x1x50000, .i32⟩ : BufTy).Contents (Elt F)),
    StableHlo.reshape main_v3 main_v4 rfl shapeCasts_S2x1x1x50000_S2x50000,
    StableHlo.binary main_arg1 main_v4 main_v5 ((fun a b => concatenate S2x850000 1 [⟨S2x800000, a⟩, ⟨S2x50000, b⟩] concatenates_S2x800000_S2x50000_S2x850000_d1) : (⟨S2x800000, .i32⟩ : BufTy).Contents (Elt F) → (⟨S2x50000, .i32⟩ : BufTy).Contents (Elt F) → (⟨S2x850000, .i32⟩ : BufTy).Contents (Elt F)),
    StableHlo.unary main_v5 main_v6 ((extractStridedSlice S1x850000 ![0, 0] · slices_S2x850000_S1x850000_0_0) : (⟨S2x850000, .i32⟩ : BufTy).Contents (Elt F) → (⟨S1x850000, .i32⟩ : BufTy).Contents (Elt F)),
    StableHlo.reshape main_v6 main_v7 rfl shapeCasts_S1x850000_S850000,
    StableHlo.unary main_v5 main_v8 ((extractStridedSlice S1x850000 ![1, 0] · slices_S2x850000_S1x850000_1_0) : (⟨S2x850000, .i32⟩ : BufTy).Contents (Elt F) → (⟨S1x850000, .i32⟩ : BufTy).Contents (Elt F)),
    StableHlo.reshape main_v8 main_v9 rfl shapeCasts_S1x850000_S850000,
    StableHlo.binary main_arg0 main_arg2 main_v10 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    StableHlo.unary main_arg3 main_v11 (broadcastInDim S1x128 ![1] bcast_S128_S1x128_1 : (⟨S128, .f32⟩ : BufTy).Contents (Elt F) → (⟨S1x128, .f32⟩ : BufTy).Contents (Elt F)),
    StableHlo.unary main_v11 main_v12 (broadcastInDim S50000x128 ![0, 1] bcast_S1x128_S50000x128_0_1 : (⟨S1x128, .f32⟩ : BufTy).Contents (Elt F) → (⟨S50000x128, .f32⟩ : BufTy).Contents (Elt F)),
    StableHlo.binary main_v10 main_v12 main_v13 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v13) main_call0.v0 main_call0.v1 (cmpf .oge),
    StableHlo.TRef.nullary main_call0.cst_0 (constant S_ .f32 0x3C23D70A#32),
    StableHlo.TRef.unary main_call0.cst_0 main_call0.v2 (broadcastInDim S50000x128 ![] bcast_S_S50000x128),
    StableHlo.TRef.binary main_call0.v2 (.of main_v13) main_call0.v3 mulf,
    StableHlo.TRef.ternary main_call0.v1 (.of main_v13) main_call0.v3 main_call0.call0.v0 select,
    StableHlo.unary main_v14 main_v15 ((extractStridedSlice S50000x64 ![0, 0] · slices_S50000x128_S50000x64_0_0) : (⟨S50000x128, .f32⟩ : BufTy).Contents (Elt F) → (⟨S50000x64, .f32⟩ : BufTy).Contents (Elt F)),
    StableHlo.binary main_v15 main_arg4 main_v16 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg5 main_v17 (broadcastInDim S1x128 ![1] bcast_S128_S1x128_1 : (⟨S128, .f32⟩ : BufTy).Contents (Elt F) → (⟨S1x128, .f32⟩ : BufTy).Contents (Elt F)),
    StableHlo.unary main_v17 main_v18 (broadcastInDim S50000x128 ![0, 1] bcast_S1x128_S50000x128_0_1 : (⟨S1x128, .f32⟩ : BufTy).Contents (Elt F) → (⟨S50000x128, .f32⟩ : BufTy).Contents (Elt F)),
    StableHlo.binary main_v16 main_v18 main_v19 (addf : (⟨S50000x128, .f32⟩ : BufTy).Contents (Elt F) → (⟨S50000x128, .f32⟩ : BufTy).Contents (Elt F) → (⟨S50000x128, .f32⟩ : BufTy).Contents (Elt F)),
    StableHlo.unary main_v14 main_v20 ((extractStridedSlice S50000x64 ![0, 64] · slices_S50000x128_S50000x64_0_64) : (⟨S50000x128, .f32⟩ : BufTy).Contents (Elt F) → (⟨S50000x64, .f32⟩ : BufTy).Contents (Elt F)),
    StableHlo.binary main_v20 main_arg6 main_v21 ((fun l r => Host.dotGeneral dot_S50000x64_S64x128_S50000x128_1_0_0_1_n_n none l r) : (⟨S50000x64, .f32⟩ : BufTy).Contents (Elt F) → (⟨S64x128, .f32⟩ : BufTy).Contents (Elt F) → (⟨S50000x128, .f32⟩ : BufTy).Contents (Elt F)),
    StableHlo.unary main_arg7 main_v22 (broadcastInDim S1x128 ![1] bcast_S128_S1x128_1 : (⟨S128, .f32⟩ : BufTy).Contents (Elt F) → (⟨S1x128, .f32⟩ : BufTy).Contents (Elt F)),
    StableHlo.unary main_v22 main_v23 (broadcastInDim S50000x128 ![0, 1] bcast_S1x128_S50000x128_0_1 : (⟨S1x128, .f32⟩ : BufTy).Contents (Elt F) → (⟨S50000x128, .f32⟩ : BufTy).Contents (Elt F)),
    StableHlo.binary main_v21 main_v23 main_v24 (addf : (⟨S50000x128, .f32⟩ : BufTy).Contents (Elt F) → (⟨S50000x128, .f32⟩ : BufTy).Contents (Elt F) → (⟨S50000x128, .f32⟩ : BufTy).Contents (Elt F)),
    StableHlo.nullary main_cst (constant S_ .f32 0x3F800000#32),
    StableHlo.unary main_cst main_v25 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v26 (broadcastInDim S50000 ![] bcast_S_S50000 : (⟨S_, .f32⟩ : BufTy).Contents (Elt F) → (⟨S50000, .f32⟩ : BufTy).Contents (Elt F)),
    StableHlo.unary main_v9 main_v27 (broadcastInDim S850000x1 ![0] bcast_S850000_S850000x1_0 : (⟨S850000, .i32⟩ : BufTy).Contents (Elt F) → (⟨S850000x1, .i32⟩ : BufTy).Contents (Elt F)),
    StableHlo.ternary main_v26 main_v27 main_v25 main_v28 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v29 (broadcastInDim S50000 ![] bcast_S_S50000 : (⟨S_, .f32⟩ : BufTy).Contents (Elt F) → (⟨S50000, .f32⟩ : BufTy).Contents (Elt F)),
    StableHlo.binary main_v28 main_v29 main_v30 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x00000000#32),
    StableHlo.unary main_cst_2 main_v31 (broadcastInDim S50000 ![] bcast_S_S50000 : (⟨S_, .f32⟩ : BufTy).Contents (Elt F) → (⟨S50000, .f32⟩ : BufTy).Contents (Elt F)),
    StableHlo.binary main_v28 main_v31 main_v32 (cmpf .ogt : (⟨S50000, .f32⟩ : BufTy).Contents (Elt F) → (⟨S50000, .f32⟩ : BufTy).Contents (Elt F) → (⟨S50000, .i1⟩ : BufTy).Contents (Elt F)),
    StableHlo.nullary main_cst_3 (constant S_ .f32 0x3F800000#32),
    StableHlo.TRef.unary (.of main_cst_3) main_call1.v0 id,
    StableHlo.TRef.unary main_call1.v0 main_call1.v1 (broadcastInDim S50000 ![] bcast_S_S50000),
    StableHlo.TRef.ternary (.of main_v32) (.of main_v28) main_call1.v1 main_call1.v2 select,
    StableHlo.unary main_v33 main_v34 (Host.rsqrt : (⟨S50000, .f32⟩ : BufTy).Contents (Elt F) → (⟨S50000, .f32⟩ : BufTy).Contents (Elt F)),
    StableHlo.nullary main_cst_4 (constant S_ .f32 0x00000000#32),
    StableHlo.TRef.unary (.of main_cst_4) main_call2.v0 id,
    StableHlo.TRef.unary main_call2.v0 main_call2.v1 (broadcastInDim S50000 ![] bcast_S_S50000),
    StableHlo.TRef.ternary (.of main_v30) (.of main_v34) main_call2.v1 main_call2.v2 select,
    StableHlo.nullary main_c (constantI S_ 32 0#32),
    StableHlo.unary main_c main_v36 (broadcastInDim S850000 ![] bcast_S_S850000 : (⟨S_, .i32⟩ : BufTy).Contents (Elt F) → (⟨S850000, .i32⟩ : BufTy).Contents (Elt F)),
    StableHlo.binary main_v7 main_v36 main_v37 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v38 (broadcastInDim S850000 ![] bcast_S_S850000 : (⟨S_, .i32⟩ : BufTy).Contents (Elt F) → (⟨S850000, .i32⟩ : BufTy).Contents (Elt F)),
    StableHlo.binary main_v7 main_v38 main_v39 (addi : (⟨S850000, .i32⟩ : BufTy).Contents (Elt F) → (⟨S850000, .i32⟩ : BufTy).Contents (Elt F) → (⟨S850000, .i32⟩ : BufTy).Contents (Elt F)),
    StableHlo.ternary main_v37 main_v39 main_v7 main_v40 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v40 main_v41 (broadcastInDim S850000x1 ![0] bcast_S850000_S850000x1_0 : (⟨S850000, .i32⟩ : BufTy).Contents (Elt F) → (⟨S850000x1, .i32⟩ : BufTy).Contents (Elt F)),
    StableHlo.binary main_v35 main_v41 main_v42 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_6 (constantI S_ 32 0#32),
    StableHlo.unary main_c_6 main_v43 (broadcastInDim S850000 ![] bcast_S_S850000 : (⟨S_, .i32⟩ : BufTy).Contents (Elt F) → (⟨S850000, .i32⟩ : BufTy).Contents (Elt F)),
    StableHlo.binary main_v9 main_v43 main_v44 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v45 (broadcastInDim S850000 ![] bcast_S_S850000 : (⟨S_, .i32⟩ : BufTy).Contents (Elt F) → (⟨S850000, .i32⟩ : BufTy).Contents (Elt F)),
    StableHlo.binary main_v9 main_v45 main_v46 (addi : (⟨S850000, .i32⟩ : BufTy).Contents (Elt F) → (⟨S850000, .i32⟩ : BufTy).Contents (Elt F) → (⟨S850000, .i32⟩ : BufTy).Contents (Elt F)),
    StableHlo.ternary main_v44 main_v46 main_v9 main_v47 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v47 main_v48 (broadcastInDim S850000x1 ![0] bcast_S850000_S850000x1_0 : (⟨S850000, .i32⟩ : BufTy).Contents (Elt F) → (⟨S850000x1, .i32⟩ : BufTy).Contents (Elt F)),
    StableHlo.binary main_v35 main_v48 main_v49 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)) ]

/-- The remaining statements: the edge weight, the two feature gathers, the gate, the message, its sum into the
    targets and the head (the second rectifier inline). -/
abbrev ops1 : List (HloOp τ sig (Elt F)) :=
  [ StableHlo.binary main_v42 main_v49 main_v50 (mulf : (⟨S850000, .f32⟩ : BufTy).Contents (Elt F) → (⟨S850000, .f32⟩ : BufTy).Contents (Elt F) → (⟨S850000, .f32⟩ : BufTy).Contents (Elt F)),
    StableHlo.nullary main_c_8 (constantI S_ 32 0#32),
    StableHlo.unary main_c_8 main_v51 (broadcastInDim S850000 ![] bcast_S_S850000 : (⟨S_, .i32⟩ : BufTy).Contents (Elt F) → (⟨S850000, .i32⟩ : BufTy).Contents (Elt F)),
    StableHlo.binary main_v7 main_v51 main_v52 (cmpi .slt : (⟨S850000, .i32⟩ : BufTy).Contents (Elt F) → (⟨S850000, .i32⟩ : BufTy).Contents (Elt F) → (⟨S850000, .i1⟩ : BufTy).Contents (Elt F)),
    StableHlo.nullary main_c_9 (constantI S_ 32 50000#32),
    StableHlo.unary main_c_9 main_v53 (broadcastInDim S850000 ![] bcast_S_S850000 : (⟨S_, .i32⟩ : BufTy).Contents (Elt F) → (⟨S850000, .i32⟩ : BufTy).Contents (Elt F)),
    StableHlo.binary main_v7 main_v53 main_v54 (addi : (⟨S850000, .i32⟩ : BufTy).Contents (Elt F) → (⟨S850000, .i32⟩ : BufTy).Contents (Elt F) → (⟨S850000, .i32⟩ : BufTy).Contents (Elt F)),
    StableHlo.ternary main_v52 main_v54 main_v7 main_v55 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v55 main_v56 (broadcastInDim S850000x1 ![0] bcast_S850000_S850000x1_0 : (⟨S850000, .i32⟩ : BufTy).Contents (Elt F) → (⟨S850000x1, .i32⟩ : BufTy).Contents (Elt F)),
    StableHlo.binary main_v19 main_v56 main_v57 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.nullary main_c_10 (constantI S_ 32 0#32),
    StableHlo.unary main_c_10 main_v58 (broadcastInDim S850000 ![] bcast_S_S850000 : (⟨S_, .i32⟩ : BufTy).Contents (Elt F) → (⟨S850000, .i32⟩ : BufTy).Contents (Elt F)),
    StableHlo.binary main_v7 main_v58 main_v59 (cmpi .slt : (⟨S850000, .i32⟩ : BufTy).Contents (Elt F) → (⟨S850000, .i32⟩ : BufTy).Contents (Elt F) → (⟨S850000, .i1⟩ : BufTy).Contents (Elt F)),
    StableHlo.nullary main_c_11 (constantI S_ 32 50000#32),
    StableHlo.unary main_c_11 main_v60 (broadcastInDim S850000 ![] bcast_S_S850000 : (⟨S_, .i32⟩ : BufTy).Contents (Elt F) → (⟨S850000, .i32⟩ : BufTy).Contents (Elt F)),
    StableHlo.binary main_v7 main_v60 main_v61 (addi : (⟨S850000, .i32⟩ : BufTy).Contents (Elt F) → (⟨S850000, .i32⟩ : BufTy).Contents (Elt F) → (⟨S850000, .i32⟩ : BufTy).Contents (Elt F)),
    StableHlo.ternary main_v59 main_v61 main_v7 main_v62 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v62 main_v63 (broadcastInDim S850000x1 ![0] bcast_S850000_S850000x1_0 : (⟨S850000, .i32⟩ : BufTy).Contents (Elt F) → (⟨S850000x1, .i32⟩ : BufTy).Contents (Elt F)),
    StableHlo.binary main_v24 main_v63 main_v64 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.binary main_v57 main_v64 main_v65 (addf : (⟨S850000x128, .f32⟩ : BufTy).Contents (Elt F) → (⟨S850000x128, .f32⟩ : BufTy).Contents (Elt F) → (⟨S850000x128, .f32⟩ : BufTy).Contents (Elt F)),
    StableHlo.binary main_v65 main_arg8 main_v66 ((fun l r => Host.dotGeneral dot_S850000x128_S128x128_S850000x128_1_0_0_1_n_n none l r) : (⟨S850000x128, .f32⟩ : BufTy).Contents (Elt F) → (⟨S128x128, .f32⟩ : BufTy).Contents (Elt F) → (⟨S850000x128, .f32⟩ : BufTy).Contents (Elt F)),
    StableHlo.unary main_arg9 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S850000x128 ![0, 1] bcast_S1x128_S850000x128_0_1 : (⟨S1x128, .f32⟩ : BufTy).Contents (Elt F) → (⟨S850000x128, .f32⟩ : BufTy).Contents (Elt F)),
    StableHlo.binary main_v66 main_v68 main_v69 (addf : (⟨S850000x128, .f32⟩ : BufTy).Contents (Elt F) → (⟨S850000x128, .f32⟩ : BufTy).Contents (Elt F) → (⟨S850000x128, .f32⟩ : BufTy).Contents (Elt F)),
    StableHlo.unary main_v69 main_v70 (Host.tanh : (⟨S850000x128, .f32⟩ : BufTy).Contents (Elt F) → (⟨S850000x128, .f32⟩ : BufTy).Contents (Elt F)),
    StableHlo.binary main_v70 main_arg10 main_v71 ((fun l r => Host.dotGeneral dot_S850000x128_S128x1_S850000x1_1_0_0_1_n_n none l r) : (⟨S850000x128, .f32⟩ : BufTy).Contents (Elt F) → (⟨S128x1, .f32⟩ : BufTy).Contents (Elt F) → (⟨S850000x1, .f32⟩ : BufTy).Contents (Elt F)),
    StableHlo.unary main_v71 main_v72 (Host.negf : (⟨S850000x1, .f32⟩ : BufTy).Contents (Elt F) → (⟨S850000x1, .f32⟩ : BufTy).Contents (Elt F)),
    StableHlo.unary main_v72 main_v73 (Host.exp : (⟨S850000x1, .f32⟩ : BufTy).Contents (Elt F) → (⟨S850000x1, .f32⟩ : BufTy).Contents (Elt F)),
    StableHlo.nullary main_cst_12 (constant S_ .f32 0x3F800000#32),
    StableHlo.unary main_cst_12 main_v74 (broadcastInDim S850000x1 ![] bcast_S_S850000x1 : (⟨S_, .f32⟩ : BufTy).Contents (Elt F) → (⟨S850000x1, .f32⟩ : BufTy).Contents (Elt F)),
    StableHlo.binary main_v74 main_v73 main_v75 (addf : (⟨S850000x1, .f32⟩ : BufTy).Contents (Elt F) → (⟨S850000x1, .f32⟩ : BufTy).Contents (Elt F) → (⟨S850000x1, .f32⟩ : BufTy).Contents (Elt F)),
    StableHlo.nullary main_cst_13 (constant S_ .f32 0x3F800000#32),
    StableHlo.unary main_cst_13 main_v76 (broadcastInDim S850000x1 ![] bcast_S_S850000x1 : (⟨S_, .f32⟩ : BufTy).Contents (Elt F) → (⟨S850000x1, .f32⟩ : BufTy).Contents (Elt F)),
    StableHlo.binary main_v76 main_v75 main_v77 (Host.divf : (⟨S850000x1, .f32⟩ : BufTy).Contents (Elt F) → (⟨S850000x1, .f32⟩ : BufTy).Contents (Elt F) → (⟨S850000x1, .f32⟩ : BufTy).Contents (Elt F)),
    StableHlo.unary main_v50 main_v78 (broadcastInDim S850000x1 ![0] bcast_S850000_S850000x1_0 : (⟨S850000, .f32⟩ : BufTy).Contents (Elt F) → (⟨S850000x1, .f32⟩ : BufTy).Contents (Elt F)),
    StableHlo.unary main_v77 main_v79 (broadcastInDim S850000x128 ![0, 1] bcast_S850000x1_S850000x128_0_1 : (⟨S850000x1, .f32⟩ : BufTy).Contents (Elt F) → (⟨S850000x128, .f32⟩ : BufTy).Contents (Elt F)),
    StableHlo.binary main_v79 main_v57 main_v80 (mulf : (⟨S850000x128, .f32⟩ : BufTy).Contents (Elt F) → (⟨S850000x128, .f32⟩ : BufTy).Contents (Elt F) → (⟨S850000x128, .f32⟩ : BufTy).Contents (Elt F)),
    StableHlo.nullary main_cst_14 (constant S_ .f32 0x3F800000#32),
    StableHlo.unary main_cst_14 main_v81 (broadcastInDim S850000x1 ![] bcast_S_S850000x1 : (⟨S_, .f32⟩ : BufTy).Contents (Elt F) → (⟨S850000x1, .f32⟩ : BufTy).Contents (Elt F)),
    StableHlo.binary main_v81 main_v77 main_v82 (subf : (⟨S850000x1, .f32⟩ : BufTy).Contents (Elt F) → (⟨S850000x1, .f32⟩ : BufTy).Contents (Elt F) → (⟨S850000x1, .f32⟩ : BufTy).Contents (Elt F)),
    StableHlo.unary main_v82 main_v83 (broadcastInDim S850000x128 ![0, 1] bcast_S850000x1_S850000x128_0_1 : (⟨S850000x1, .f32⟩ : BufTy).Contents (Elt F) → (⟨S850000x128, .f32⟩ : BufTy).Contents (Elt F)),
    StableHlo.binary main_v83 main_v64 main_v84 (mulf : (⟨S850000x128, .f32⟩ : BufTy).Contents (Elt F) → (⟨S850000x128, .f32⟩ : BufTy).Contents (Elt F) → (⟨S850000x128, .f32⟩ : BufTy).Contents (Elt F)),
    StableHlo.binary main_v80 main_v84 main_v85 (addf : (⟨S850000x128, .f32⟩ : BufTy).Contents (Elt F) → (⟨S850000x128, .f32⟩ : BufTy).Contents (Elt F) → (⟨S850000x128, .f32⟩ : BufTy).Contents (Elt F)),
    StableHlo.unary main_v78 main_v86 (broadcastInDim S850000x128 ![0, 1] bcast_S850000x1_S850000x128_0_1 : (⟨S850000x1, .f32⟩ : BufTy).Contents (Elt F) → (⟨S850000x128, .f32⟩ : BufTy).Contents (Elt F)),
    StableHlo.binary main_v86 main_v85 main_v87 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v88 (broadcastInDim S50000x128 ![] bcast_S_S50000x128 : (⟨S_, .f32⟩ : BufTy).Contents (Elt F) → (⟨S50000x128, .f32⟩ : BufTy).Contents (Elt F)),
    StableHlo.unary main_v9 main_v89 (broadcastInDim S850000x1 ![0] bcast_S850000_S850000x1_0 : (⟨S850000, .i32⟩ : BufTy).Contents (Elt F) → (⟨S850000x1, .i32⟩ : BufTy).Contents (Elt F)),
    StableHlo.ternary main_v88 main_v89 main_v87 main_v90 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.binary main_v90 main_arg11 main_v91 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg12 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S50000x128 ![0, 1] bcast_S1x128_S50000x128_0_1 : (⟨S1x128, .f32⟩ : BufTy).Contents (Elt F) → (⟨S50000x128, .f32⟩ : BufTy).Contents (Elt F)),
    StableHlo.binary main_v91 main_v93 main_v94 (addf : (⟨S50000x128, .f32⟩ : BufTy).Contents (Elt F) → (⟨S50000x128, .f32⟩ : BufTy).Contents (Elt F) → (⟨S50000x128, .f32⟩ : BufTy).Contents (Elt F)),
    StableHlo.TRef.nullary main_call3.cst (constant S_ .f32 0x00000000#32),
    StableHlo.TRef.unary main_call3.cst main_call3.v0 (broadcastInDim S50000x128 ![] bcast_S_S50000x128),
    StableHlo.TRef.binary (.of main_v94) main_call3.v0 main_call3.v1 (cmpf .oge),
    StableHlo.TRef.nullary main_call3.cst_0 (constant S_ .f32 0x3C23D70A#32),
    StableHlo.TRef.unary main_call3.cst_0 main_call3.v2 (broadcastInDim S50000x128 ![] bcast_S_S50000x128),
    StableHlo.TRef.binary main_call3.v2 (.of main_v94) main_call3.v3 mulf,
    StableHlo.TRef.ternary main_call3.v1 (.of main_v94) main_call3.v3 main_call3.call0.v0 select,
    StableHlo.binary main_v95 main_arg13 main_v96 ((fun l r => Host.dotGeneral dot_S50000x128_S128x2_S50000x2_1_0_0_1_n_n none l r) : (⟨S50000x128, .f32⟩ : BufTy).Contents (Elt F) → (⟨S128x2, .f32⟩ : BufTy).Contents (Elt F) → (⟨S50000x2, .f32⟩ : BufTy).Contents (Elt F)),
    StableHlo.unary main_arg14 main_v97 (broadcastInDim S1x2 ![1] bcast_S2_S1x2_1 : (⟨S2, .f32⟩ : BufTy).Contents (Elt F) → (⟨S1x2, .f32⟩ : BufTy).Contents (Elt F)),
    StableHlo.unary main_v97 main_v98 (broadcastInDim S50000x2 ![0, 1] bcast_S1x2_S50000x2_0_1 : (⟨S1x2, .f32⟩ : BufTy).Contents (Elt F) → (⟨S50000x2, .f32⟩ : BufTy).Contents (Elt F)),
    StableHlo.binary main_v96 main_v98 main_v99 (addf : (⟨S50000x2, .f32⟩ : BufTy).Contents (Elt F) → (⟨S50000x2, .f32⟩ : BufTy).Contents (Elt F) → (⟨S50000x2, .f32⟩ : BufTy).Contents (Elt F)) ]

/-- @main's operations in order. -/
abbrev ops : List (HloOp τ sig (Elt F)) := ops0 ++ ops1

set_option maxRecDepth 4096 in
/-- The first window followed by anything is its operations' line followed by the same: the called functions unfolded at
    their calls, sequencing reassociated. -/
theorem part0_eq (c : Dev nD) (k : Prog (TpuEff nD τ sig (Elt F) (Pipeline.Sig Λ₀ (Fin 0) fun p => (pcfgs (F := F) p).Adm) .tc) PUnit) :
    (main_part0 (F := F) c >>= fun _ => k) = (seq ops0 >>= fun _ => k) := by
  simp only [main_part0, fn_leaky_relu.body, fn_where.body, fn_where_0.body, seq, bind_assoc, pure_bind]

set_option maxRecDepth 4096 in
/-- The second window, which ends in the return, is its operations' line. -/
theorem part1_eq (c : Dev nD) : main_part1 (F := F) c = seq ops1 := by
  simp only [main_part1, fn_leaky_relu.body, fn_where.body, seq, bind_assoc, pure_bind]

/-- @main is the straight line of all its operations. -/
theorem main_eq (c : Dev nD) : main (F := F) c = seq ops := by
  rw [seq_append, ← part0_eq, ← part1_eq]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., reshape_bufs_sub .., unary_bufs_sub .., reshape_bufs_sub .., binary_bufs_sub ..,
    unary_bufs_sub .., reshape_bufs_sub .., unary_bufs_sub .., reshape_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., unary_bufs_sub .., binary_bufs_sub .., unary_bufs_sub .., unary_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., unary_bufs_sub .., ternary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub ..⟩

theorem ops1_sub : (ops1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., binary_bufs_sub .., unary_bufs_sub .., unary_bufs_sub .., binary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    binary_bufs_sub .., unary_bufs_sub .., binary_bufs_sub .., nullary_bufs_sub .., unary_bufs_sub .., unary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..,
    binary_bufs_sub .., unary_bufs_sub .., unary_bufs_sub .., binary_bufs_sub ..⟩

theorem ops_sub : (ops : List (HloOp τ sig (Elt F))).Forall fun op => op.bufs ⊆ tcRefs τ sig :=
  List.forall_append.mpr ⟨ops0_sub, ops1_sub⟩

theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl,
    rfl, rfl, rfl, rfl⟩

/-- No operation of the line leaves a result undetermined. -/
theorem ops_fresh : ∀ op ∈ (ops : List (HloOp τ sig (Elt F))), op.fresh = ∅ :=
  List.forall_iff_forall_mem.mp (List.forall_append.mpr ⟨ops0_fresh, ops1_fresh⟩)

/-- One line after another rewrites the buffers as the first, then the second. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The results read off operation by operation where one pass does not reach: under the operand list of a
    concatenation each operation's result is rewritten at its own buffer to its function's value and at any other to
    what was there. -/
local macro "results_by_rw" : tactic =>
  `(tactic| (repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide))))

section Values

attribute [local irreducible] Host.gather Host.scatterAdd concatenate extractStridedSlice broadcastInDim shapeCast iotaInDim

variable (V : Valuation τ sig (Elt F))

/-! ### The first window's buffers that the second reads -/

set_option maxHeartbeats 1000000 in
/-- The sources: the first row of the concatenated edge list, flattened. -/
theorem v7_eq : after ops0 V (main_v7 : DevRef τ sig) = Stage.row (V (main_arg1 : DevRef τ sig)) := by
  after_results_simp
  results_by_rw
  rfl

set_option maxHeartbeats 1000000 in
/-- The targets: its second row. -/
theorem v9_eq : after ops0 V (main_v9 : DevRef τ sig) = Stage.col (V (main_arg1 : DevRef τ sig)) := by
  after_results_simp
  results_by_rw
  rfl

set_option maxHeartbeats 1000000 in
/-- The first projected feature of the hidden vector. -/
theorem v19_eq : after ops0 V (main_v19 : DevRef τ sig)
    = Stage.xnor (Stage.hidden (V (main_arg0 : DevRef τ sig)) (V (main_arg2 : DevRef τ sig)) (V (main_arg3 : DevRef τ sig))) (V (main_arg4 : DevRef τ sig)) (V (main_arg5 : DevRef τ sig)) := by
  after_results_simp
  rfl

set_option maxHeartbeats 1000000 in
/-- The second. -/
theorem v24_eq : after ops0 V (main_v24 : DevRef τ sig)
    = Stage.xabnor (Stage.hidden (V (main_arg0 : DevRef τ sig)) (V (main_arg2 : DevRef τ sig)) (V (main_arg3 : DevRef τ sig))) (V (main_arg6 : DevRef τ sig)) (V (main_arg7 : DevRef τ sig)) := by
  after_results_simp
  rfl

set_option maxHeartbeats 1000000 in
/-- The inverse root degree read at each edge's source. -/
theorem v42_eq : after ops0 V (main_v42 : DevRef τ sig)
    = Host.gather gather_S50000_S850000x1_S850000_n_0_n_n_0_1_1 (Stage.dinv (Stage.degree (Stage.asColumn (Stage.col (V (main_arg1 : DevRef τ sig))))))
        (Stage.asColumn (Stage.wrap (Stage.row (V (main_arg1 : DevRef τ sig))))) := by
  after_results_simp
  results_by_rw
  rfl

set_option maxHeartbeats 1000000 in
/-- The inverse root degree read at each edge's target. -/
theorem v49_eq : after ops0 V (main_v49 : DevRef τ sig)
    = Host.gather gather_S50000_S850000x1_S850000_n_0_n_n_0_1_1 (Stage.dinv (Stage.degree (Stage.asColumn (Stage.col (V (main_arg1 : DevRef τ sig))))))
        (Stage.asColumn (Stage.wrap (Stage.col (V (main_arg1 : DevRef τ sig))))) := by
  after_results_simp
  results_by_rw
  rfl

end Values

section Values1

attribute [local irreducible] Host.gather Host.scatterAdd concatenate extractStridedSlice broadcastInDim shapeCast iotaInDim

variable (V W : Valuation τ sig (Elt F))

set_option maxHeartbeats 1000000 in
/-- The second window's result over what it reads of the first: the two features along the edges, the gated message
    at the product of the two gathered inverse roots, its sum into the targets, the head. -/
theorem v99_eq : after ops1 W (main_v99 : DevRef τ sig)
    = Stage.head
        (Stage.aggregate
          (Stage.message (Stage.alongEdges (W (main_v19 : DevRef τ sig)) (W (main_v7 : DevRef τ sig))) (Stage.alongEdges (W (main_v24 : DevRef τ sig)) (W (main_v7 : DevRef τ sig)))
            (mulf (W (main_v42 : DevRef τ sig)) (W (main_v49 : DevRef τ sig))) (W (main_arg8 : DevRef τ sig)) (W (main_arg9 : DevRef τ sig)) (W (main_arg10 : DevRef τ sig)))
          (W (main_v9 : DevRef τ sig)))
        (W (main_arg11 : DevRef τ sig)) (W (main_arg12 : DevRef τ sig)) (W (main_arg13 : DevRef τ sig)) (W (main_arg14 : DevRef τ sig)) := by
  after_results_simp
  rfl

set_option maxHeartbeats 1000000 in
theorem arg0_0 : after ops0 V (main_arg0 : DevRef τ sig) = (V (main_arg0 : DevRef τ sig)) := by after_results_simp
set_option maxHeartbeats 1000000 in
theorem arg0_1 : after ops1 W (main_arg0 : DevRef τ sig) = (W (main_arg0 : DevRef τ sig)) := by after_results_simp
/-- No operation writes argument 0. -/
theorem arg0_eq : after ops V (main_arg0 : DevRef τ sig) = (V (main_arg0 : DevRef τ sig)) := by
  rw [after_append, arg0_1, arg0_0]

set_option maxHeartbeats 1000000 in
theorem arg1_0 : after ops0 V (main_arg1 : DevRef τ sig) = (V (main_arg1 : DevRef τ sig)) := by after_results_simp
set_option maxHeartbeats 1000000 in
theorem arg1_1 : after ops1 W (main_arg1 : DevRef τ sig) = (W (main_arg1 : DevRef τ sig)) := by after_results_simp
/-- No operation writes argument 1. -/
theorem arg1_eq : after ops V (main_arg1 : DevRef τ sig) = (V (main_arg1 : DevRef τ sig)) := by
  rw [after_append, arg1_1, arg1_0]

set_option maxHeartbeats 1000000 in
theorem arg2_0 : after ops0 V (main_arg2 : DevRef τ sig) = (V (main_arg2 : DevRef τ sig)) := by after_results_simp
set_option maxHeartbeats 1000000 in
theorem arg2_1 : after ops1 W (main_arg2 : DevRef τ sig) = (W (main_arg2 : DevRef τ sig)) := by after_results_simp
/-- No operation writes argument 2. -/
theorem arg2_eq : after ops V (main_arg2 : DevRef τ sig) = (V (main_arg2 : DevRef τ sig)) := by
  rw [after_append, arg2_1, arg2_0]

set_option maxHeartbeats 1000000 in
theorem arg3_0 : after ops0 V (main_arg3 : DevRef τ sig) = (V (main_arg3 : DevRef τ sig)) := by after_results_simp
set_option maxHeartbeats 1000000 in
theorem arg3_1 : after ops1 W (main_arg3 : DevRef τ sig) = (W (main_arg3 : DevRef τ sig)) := by after_results_simp
/-- No operation writes argument 3. -/
theorem arg3_eq : after ops V (main_arg3 : DevRef τ sig) = (V (main_arg3 : DevRef τ sig)) := by
  rw [after_append, arg3_1, arg3_0]

set_option maxHeartbeats 1000000 in
theorem arg4_0 : after ops0 V (main_arg4 : DevRef τ sig) = (V (main_arg4 : DevRef τ sig)) := by after_results_simp
set_option maxHeartbeats 1000000 in
theorem arg4_1 : after ops1 W (main_arg4 : DevRef τ sig) = (W (main_arg4 : DevRef τ sig)) := by after_results_simp
/-- No operation writes argument 4. -/
theorem arg4_eq : after ops V (main_arg4 : DevRef τ sig) = (V (main_arg4 : DevRef τ sig)) := by
  rw [after_append, arg4_1, arg4_0]

set_option maxHeartbeats 1000000 in
theorem arg5_0 : after ops0 V (main_arg5 : DevRef τ sig) = (V (main_arg5 : DevRef τ sig)) := by after_results_simp
set_option maxHeartbeats 1000000 in
theorem arg5_1 : after ops1 W (main_arg5 : DevRef τ sig) = (W (main_arg5 : DevRef τ sig)) := by after_results_simp
/-- No operation writes argument 5. -/
theorem arg5_eq : after ops V (main_arg5 : DevRef τ sig) = (V (main_arg5 : DevRef τ sig)) := by
  rw [after_append, arg5_1, arg5_0]

set_option maxHeartbeats 1000000 in
theorem arg6_0 : after ops0 V (main_arg6 : DevRef τ sig) = (V (main_arg6 : DevRef τ sig)) := by after_results_simp
set_option maxHeartbeats 1000000 in
theorem arg6_1 : after ops1 W (main_arg6 : DevRef τ sig) = (W (main_arg6 : DevRef τ sig)) := by after_results_simp
/-- No operation writes argument 6. -/
theorem arg6_eq : after ops V (main_arg6 : DevRef τ sig) = (V (main_arg6 : DevRef τ sig)) := by
  rw [after_append, arg6_1, arg6_0]

set_option maxHeartbeats 1000000 in
theorem arg7_0 : after ops0 V (main_arg7 : DevRef τ sig) = (V (main_arg7 : DevRef τ sig)) := by after_results_simp
set_option maxHeartbeats 1000000 in
theorem arg7_1 : after ops1 W (main_arg7 : DevRef τ sig) = (W (main_arg7 : DevRef τ sig)) := by after_results_simp
/-- No operation writes argument 7. -/
theorem arg7_eq : after ops V (main_arg7 : DevRef τ sig) = (V (main_arg7 : DevRef τ sig)) := by
  rw [after_append, arg7_1, arg7_0]

set_option maxHeartbeats 1000000 in
theorem arg8_0 : after ops0 V (main_arg8 : DevRef τ sig) = (V (main_arg8 : DevRef τ sig)) := by after_results_simp
set_option maxHeartbeats 1000000 in
theorem arg8_1 : after ops1 W (main_arg8 : DevRef τ sig) = (W (main_arg8 : DevRef τ sig)) := by after_results_simp
/-- No operation writes argument 8. -/
theorem arg8_eq : after ops V (main_arg8 : DevRef τ sig) = (V (main_arg8 : DevRef τ sig)) := by
  rw [after_append, arg8_1, arg8_0]

set_option maxHeartbeats 1000000 in
theorem arg9_0 : after ops0 V (main_arg9 : DevRef τ sig) = (V (main_arg9 : DevRef τ sig)) := by after_results_simp
set_option maxHeartbeats 1000000 in
theorem arg9_1 : after ops1 W (main_arg9 : DevRef τ sig) = (W (main_arg9 : DevRef τ sig)) := by after_results_simp
/-- No operation writes argument 9. -/
theorem arg9_eq : after ops V (main_arg9 : DevRef τ sig) = (V (main_arg9 : DevRef τ sig)) := by
  rw [after_append, arg9_1, arg9_0]

set_option maxHeartbeats 1000000 in
theorem arg10_0 : after ops0 V (main_arg10 : DevRef τ sig) = (V (main_arg10 : DevRef τ sig)) := by after_results_simp
set_option maxHeartbeats 1000000 in
theorem arg10_1 : after ops1 W (main_arg10 : DevRef τ sig) = (W (main_arg10 : DevRef τ sig)) := by after_results_simp
/-- No operation writes argument 10. -/
theorem arg10_eq : after ops V (main_arg10 : DevRef τ sig) = (V (main_arg10 : DevRef τ sig)) := by
  rw [after_append, arg10_1, arg10_0]

set_option maxHeartbeats 1000000 in
theorem arg11_0 : after ops0 V (main_arg11 : DevRef τ sig) = (V (main_arg11 : DevRef τ sig)) := by after_results_simp
set_option maxHeartbeats 1000000 in
theorem arg11_1 : after ops1 W (main_arg11 : DevRef τ sig) = (W (main_arg11 : DevRef τ sig)) := by after_results_simp
/-- No operation writes argument 11. -/
theorem arg11_eq : after ops V (main_arg11 : DevRef τ sig) = (V (main_arg11 : DevRef τ sig)) := by
  rw [after_append, arg11_1, arg11_0]

set_option maxHeartbeats 1000000 in
theorem arg12_0 : after ops0 V (main_arg12 : DevRef τ sig) = (V (main_arg12 : DevRef τ sig)) := by after_results_simp
set_option maxHeartbeats 1000000 in
theorem arg12_1 : after ops1 W (main_arg12 : DevRef τ sig) = (W (main_arg12 : DevRef τ sig)) := by after_results_simp
/-- No operation writes argument 12. -/
theorem arg12_eq : after ops V (main_arg12 : DevRef τ sig) = (V (main_arg12 : DevRef τ sig)) := by
  rw [after_append, arg12_1, arg12_0]

set_option maxHeartbeats 1000000 in
theorem arg13_0 : after ops0 V (main_arg13 : DevRef τ sig) = (V (main_arg13 : DevRef τ sig)) := by after_results_simp
set_option maxHeartbeats 1000000 in
theorem arg13_1 : after ops1 W (main_arg13 : DevRef τ sig) = (W (main_arg13 : DevRef τ sig)) := by after_results_simp
/-- No operation writes argument 13. -/
theorem arg13_eq : after ops V (main_arg13 : DevRef τ sig) = (V (main_arg13 : DevRef τ sig)) := by
  rw [after_append, arg13_1, arg13_0]

set_option maxHeartbeats 1000000 in
theorem arg14_0 : after ops0 V (main_arg14 : DevRef τ sig) = (V (main_arg14 : DevRef τ sig)) := by after_results_simp
set_option maxHeartbeats 1000000 in
theorem arg14_1 : after ops1 W (main_arg14 : DevRef τ sig) = (W (main_arg14 : DevRef τ sig)) := by after_results_simp
/-- No operation writes argument 14. -/
theorem arg14_eq : after ops V (main_arg14 : DevRef τ sig) = (V (main_arg14 : DevRef τ sig)) := by
  rw [after_append, arg14_1, arg14_0]

/-- The result buffer after the whole line is the composed stages of the arguments. -/
theorem result_eq : after ops V (main_v99 : DevRef τ sig)
    = Stage.result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) := by
  rw [after_append, v99_eq, v7_eq, v9_eq, v19_eq, v24_eq, v42_eq, v49_eq, arg8_0, arg9_0, arg10_0, arg11_0, arg12_0, arg13_0, arg14_0]
  rfl

end Values1

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v99) = Stage.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v99).trans (result_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _),
      (h c main_arg13).trans (arg13_eq _),
      (h c main_arg14).trans (arg14_eq _)⟩)
    (run_seq scopedRefs_eq scopedSems_eq defs main (fun _ => ops) main_eq (fun _ => ops_sub) m ρ (fun _ => ops_fresh))

end Cert.ReferenceIdeal.Value

end
-- ==== Proof.lean ====
/-
  Equivalence over the extended reals of a graph layer written as three tiled kernels with gathers and sums between
  them, against its plain reference — node features projected (a leaky rectifier between two affine maps, the hidden
  vector split in halves), gathered along 850000 edges, mixed under a learnt gate, weighted by the symmetric degree
  normalisation, summed into target nodes and passed through a two-layer head — under finite float inputs and
  non-negative target ids.

  The three frames: the kernel program's two are its generated frame; the reference's is its run with the result
  dropped. Nothing was rewritten when the kernel was idealized, so that conjunct is trivial. The value claim: the kernel
  program's run ends with its result buffer at the last boundary's contents (the generated launch, called again to
  read that buffer), and those contents are the reference's function of the arguments (Proof/KValue.lean); the
  reference's run ends at the same function of arguments that agree with the kernel's.
-/
import proofs.«118317_j46377056862932_1_alg».proof.Defs
import proofs.«118317_j46377056862932_1_alg».proof.Proof.Gen.Kernel
import proofs.«118317_j46377056862932_1_alg».proof.Proof.Gen.Kernel.Frame
import proofs.«118317_j46377056862932_1_alg».proof.Proof.Gen.KernelIdeal
import proofs.«118317_j46377056862932_1_alg».proof.Proof.Gen.KernelIdeal.Frame
import proofs.«118317_j46377056862932_1_alg».proof.Proof.Gen.ReferenceIdeal
import proofs.«118317_j46377056862932_1_alg».proof.Proof.Gen.Pre_finite_inputs
import proofs.«118317_j46377056862932_1_alg».proof.Proof.KLaunch
import proofs.«118317_j46377056862932_1_alg».proof.Proof.KValue
import proofs.«118317_j46377056862932_1_alg».proof.Proof.RefRun
import Idealize.ShloMosaic.Adequacy
import Idealize.ShloMosaic.Init

noncomputable section

namespace Cert.Proof

open Idealize.ShloMosaic Idealize.ShloMosaic.TcCoe Idealize.SL.Sem

/-- The reference's frame: its run, the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the reference's function of the kernel program's arguments: the kernel program by its
    named run and the value of its last boundary, the reference by its run from arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.ReferenceIdeal.Stage.result (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Value.result_eq m ρ hpre c), (h c).2⟩)
      (Cert.KernelIdeal.Launch2.run_value (F := Ideal) m ρ)
  · refine (θ_run Cert.ReferenceIdeal.defs _ _).mono (fun r h c => ⟨?_, (h c).2⟩)
      (Cert.ReferenceIdeal.Value.run (F := Ideal) m' ρ')
    obtain ⟨h0, h1, h2, h3, h4, h5, h6, h7, h8, h9, h10, h11, h12, h13, h14⟩ := hagree c
    rw [(h c).1, h0, h1, h2, h3, h4, h5, h6, h7, h8, h9, h10, h11, h12, h13, h14]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_ri,
    trivial,
    algebraic⟩

end Cert.Proof

end
